-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x576 : Shape := ⟨3, ![2, 1024, 576]⟩
abbrev S2x256x576 : Shape := ⟨3, ![2, 256, 576]⟩
abbrev S576x512 : Shape := ⟨2, ![576, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S2x1024x576 : S_.BroadcastsInDim S2x1024x576 (![] : Fin 0 → Fin S2x1024x576.rank)
  reducesTo_S2x1024x576_S_d0_1_2 : S2x1024x576.ReducesTo [0, 1, 2] S_
  h_S_ : 0 < S_.numel
  bcast_S_S2x256x576 : S_.BroadcastsInDim S2x256x576 (![] : Fin 0 → Fin S2x256x576.rank)
  reducesTo_S2x256x576_S_d0_1_2 : S2x256x576.ReducesTo [0, 1, 2] S_
  bcast_S_S576x512 : S_.BroadcastsInDim S576x512 (![] : Fin 0 → Fin S576x512.rank)
  reducesTo_S576x512_S_d0_1 : S576x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S256x1 .f32) (main_arg8 : FVec F S1 .f32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S512 .f32) (main_arg5 : FVec F S512x256 .f32) (main_arg6 : FVec F S256 .f32) (main_arg7 : FVec F S256x1 .f32) (main_arg8 : FVec F S1 .f32) (main_v13 : IVec S_ 1) (main_v16 : IVec S576x512 1) : IVec S_ 1 :=
  let main_c_5 : IVec S_ 1 := constantI S_ 1 1#1
  let main_v17 : IVec S_ 1 := (fun x v => Host.reduce IntOp.andi x v reducesTo_S576x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S2x1024x576 .f32) (main_arg1 : FVec F S2x256x576 .f32) (main_arg2 : FVec F S576x512 .f32) (main_arg3 : FVec F S576x512 .f32) (main_arg4 : FVec F S512 .f32) (main_arg5 : FVec F S512x256 .f32) (main_arg6 : FVec F S256 .f32) (main_arg7 : FVec F S256x1 .f32) (main_arg8 : FVec F S1 .f32) : IVec S_ 1 :=
  let main_v0 : FVec F S2x1024x576 .f32 := Host.absf main_arg0
  let main_cst : FVec F S_ .f32 := constant S_ .f32 0x7F800000#32
  let main_v1 : FVec F S2x1024x576 .f32 := broadcastInDim S2x1024x576 ![] bcast_S_S2x1024x576 main_cst
  let main_v2 : IVec S2x1024x576 1 := cmpf .olt main_v0 main_v1
  let main_c : IVec S_ 1 := constantI S_ 1 1#1
  let main_v3 : IVec S_ 1 := (fun x v => Host.reduce IntOp.andi x v reducesTo_S2x1024x576_S_d0_1_2 h_S_) main_v2 main_c
  let main_v4 : FVec F S2x256x576 .f32 := Host.absf main_arg1
  let main_cst_0 : FVec F S_ .f32 := constant S_ .f32 0x7F800000#32
  let main_v5 : FVec F S2x256x576 .f32 := broadcastInDim S2x256x576 ![] bcast_S_S2x256x576 main_cst_0
  let main_v6 : IVec S2x256x576 1 := cmpf .olt main_v4 main_v5
  let main_c_1 : IVec S_ 1 := constantI S_ 1 1#1
  let main_v7 : IVec S_ 1 := (fun x v => Host.reduce IntOp.andi x v reducesTo_S2x256x576_S_d0_1_2 h_S_) main_v6 main_c_1
  let main_v8 : IVec S_ 1 := andi main_v3 main_v7
  let main_v9 : FVec F S576x512 .f32 := Host.absf main_arg2
  let main_cst_2 : FVec F S_ .f32 := constant S_ .f32 0x7F800000#32
  let main_v10 : FVec F S576x512 .f32 := broadcastInDim S576x512 ![] bcast_S_S576x512 main_cst_2
  let main_v11 : IVec S576x512 1 := cmpf .olt main_v9 main_v10
  let main_c_3 : IVec S_ 1 := constantI S_ 1 1#1
  let main_v12 : IVec S_ 1 := (fun x v => Host.reduce IntOp.andi x v reducesTo_S576x512_S_d0_1 h_S_) main_v11 main_c_3
  let main_v13 : IVec S_ 1 := andi main_v8 main_v12
  let main_v14 : FVec F S576x512 .f32 := Host.absf main_arg3
  let main_cst_4 : FVec F S_ .f32 := constant S_ .f32 0x7F800000#32
  let main_v15 : FVec F S576x512 .f32 := broadcastInDim S576x512 ![] bcast_S_S576x512 main_cst_4
  let main_v16 : IVec S576x512 1 := cmpf .olt main_v14 main_v15
  fn_part1 (F := F) main_arg4 main_arg5 main_arg6 main_arg7 main_arg8 main_v13 main_v16
-- ==== Kernel.lean ====
abbrev S2x1024x576 : Shape := ⟨3, ![2, 1024, 576]⟩
abbrev S2x256x576 : Shape := ⟨3, ![2, 256, 576]⟩
abbrev S576x512 : Shape := ⟨2, ![576, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2x1024x512 : Shape := ⟨3, ![2, 1024, 512]⟩
abbrev S1x256x576 : Shape := ⟨3, ![1, 256, 576]⟩
abbrev S1x256x512 : Shape := ⟨3, ![1, 256, 512]⟩
abbrev S256x576 : Shape := ⟨2, ![256, 576]⟩
abbrev S256x512 : Shape := ⟨2, ![256, 512]⟩
abbrev S2x256x512 : Shape := ⟨3, ![2, 256, 512]⟩
abbrev S1x512 : Shape := ⟨2, ![1, 512]⟩
abbrev S1x256 : Shape := ⟨2, ![1, 256]⟩
abbrev S1x1 : Shape := ⟨2, ![1, 1]⟩
abbrev S2x1024x256 : Shape := ⟨3, ![2, 1024, 256]⟩
abbrev S1x64x128 : Shape := ⟨3, ![1, 64, 128]⟩
abbrev S1x128x128 : Shape := ⟨3, ![1, 128, 128]⟩
abbrev S1x128 : Shape := ⟨2, ![1, 128]⟩
abbrev S128x256 : Shape := ⟨2, ![128, 256]⟩
abbrev S64x128x256 : Shape := ⟨3, ![64, 128, 256]⟩
abbrev S64x128 : Shape := ⟨2, ![64, 128]⟩
abbrev S128x128 : Shape := ⟨2, ![128, 128]⟩
abbrev S128 : Shape := ⟨1, ![128]⟩
abbrev S64x1x128 : Shape := ⟨3, ![64, 1, 128]⟩
abbrev S64x128x128 : Shape := ⟨3, ![64, 128, 128]⟩
abbrev S1x1x128 : Shape := ⟨3, ![1, 1, 128]⟩
abbrev S8192x128 : Shape := ⟨2, ![8192, 128]⟩
abbrev S8192x256 : Shape := ⟨2, ![8192, 256]⟩
abbrev S1x1x256 : Shape := ⟨3, ![1, 1, 256]⟩

abbrev nBuf : Space → Nat
  | .hbm => 17
  | .vmem => 24
  | .smem => 0
  | _ => 0

abbrev bufTy : (tb : Table) → Fin (tcTables nBuf tb) → BufTy
  | .hbm, ⟨0, _⟩ => ⟨S2x1024x576, .f32⟩
  | .hbm, ⟨1, _⟩ => ⟨S2x256x576, .f32⟩
  | .hbm, ⟨2, _⟩ => ⟨S576x512, .f32⟩
  | .hbm, ⟨3, _⟩ => ⟨S576x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S2x1024x512, .f32⟩
  | .hbm, ⟨10, _⟩ => ⟨S2x256x512, .f32⟩
  | .hbm, ⟨11, _⟩ => ⟨S1x512, .f32⟩
  | .hbm, ⟨12, _⟩ => ⟨S1x256, .f32⟩
  | .hbm, ⟨13, _⟩ => ⟨S1x1, .f32⟩
  | .hbm, ⟨14, _⟩ => ⟨S256, .f32⟩
  | .hbm, ⟨15, _⟩ => ⟨S1x256, .f32⟩
  | .hbm, ⟨16, _⟩ => ⟨S2x1024x256, .f32⟩
  | .local _ .vmem, ⟨0, _⟩ => ⟨S1x256x576, .f32⟩
  | .local _ .vmem, ⟨1, _⟩ => ⟨S1x256x576, .f32⟩
  | .local _ .vmem, ⟨2, _⟩ => ⟨S576x512, .f32⟩
  | .local _ .vmem, ⟨3, _⟩ => ⟨S1x256x512, .f32⟩
  | .local _ .vmem, ⟨4, _⟩ => ⟨S1x256x512, .f32⟩
  | .local _ .vmem, ⟨5, _⟩ => ⟨S1x256x576, .f32⟩
  | .local _ .vmem, ⟨6, _⟩ => ⟨S1x256x576, .f32⟩
  | .local _ .vmem, ⟨7, _⟩ => ⟨S576x512, .f32⟩
  | .local _ .vmem, ⟨8, _⟩ => ⟨S1x256x512, .f32⟩
  | .local _ .vmem, ⟨9, _⟩ => ⟨S1x256x512, .f32⟩
  | .local _ .vmem, ⟨10, _⟩ => ⟨S1x64x128, .f32⟩
  | .local _ .vmem, ⟨11, _⟩ => ⟨S1x64x128, .f32⟩
  | .local _ .vmem, ⟨12, _⟩ => ⟨S1x128x128, .f32⟩
  | .local _ .vmem, ⟨13, _⟩ => ⟨S1x128x128, .f32⟩
  | .local _ .vmem, ⟨14, _⟩ => ⟨S1x128, .f32⟩
  | .local _ .vmem, ⟨15, _⟩ => ⟨S1x128, .f32⟩
  | .local _ .vmem, ⟨16, _⟩ => ⟨S128x256, .f32⟩
  | .local _ .vmem, ⟨17, _⟩ => ⟨S128x256, .f32⟩
  | .local _ .vmem, ⟨18, _⟩ => ⟨S1x256, .f32⟩
  | .local _ .vmem, ⟨19, _⟩ => ⟨S1x256, .f32⟩
  | .local _ .vmem, ⟨20, _⟩ => ⟨S1x1, .f32⟩
  | .local _ .vmem, ⟨21, _⟩ => ⟨S1x64x128, .f32⟩
  | .local _ .vmem, ⟨22, _⟩ => ⟨S1x64x128, .f32⟩
  | .local _ .vmem, ⟨23, _⟩ => ⟨S64x128x256, .f32⟩
  | _, _ => ⟨S2x1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg7_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem7_1 : DmaSem sig := 22

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S576x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x576 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S576x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨4, ![2, 16, 2, 4], ![false, false, false, false]⟩

def k2_cond2 (i : grid2.Coords) : BitVec 1 :=
  let arg3 : BitVec 32 := BitVec.ofNat 32 (i 3).val
  let c3_i32 : BitVec 32 := 3#32
  let v31 : BitVec 1 := Scalar.cmpi .eq arg3 c3_i32
  let v32 : BitVec 32 := Scalar.extui v31
  let c0_i32_17 : BitVec 32 := 0#32
  let v33 : BitVec 1 := Scalar.cmpi .ne v32 c0_i32_17
  v33

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, c0_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage2_0 : Fin 2 → Memref sig .tc .vmem S1x64x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false, true]

abbrev stage2_1 : Fin 2 → Memref sig .tc .vmem S1x128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true, true]

abbrev stage2_2 : Fin 2 → Memref sig .tc .vmem S1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, false, false, true]

abbrev stage2_3 : Fin 2 → Memref sig .tc .vmem S128x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, false, false, true]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false, false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false, false, false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false, false, false]

abbrev stage2_7 : Fin 2 → Memref sig .tc .vmem S1x64x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, true, false]

class Facts₀ : Prop where
  inb_S1x256x576_S1x256x576_0_0_0 : ∀ a, (![0, 0, 0] : Fin 3 → Nat) a + S1x256x576.size a ≤ S1x256x576.size a
  h_S1x256x576 : 0 < S1x256x576.numel
  shapeCasts_S1x256x576_S256x576 : S1x256x576.ShapeCasts S256x576
  bitsLt_bf16_f32 : FTy.bits .bf16 < FTy.bits .f32
  inb_S576x512_S576x512_0_0 : ∀ a, (![0, 0] : Fin 2 → Nat) a + S576x512.size a ≤ S576x512.size a
  h_S576x512 : 0 < S576x512.numel
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  shapeCasts_S512_S1x512 : S512.ShapeCasts S1x512
  shapeCasts_S256_S1x256 : S256.ShapeCasts S1x256
  shapeCasts_S1_S1x1 : S1.ShapeCasts S1x1
  shapeCasts_S256x1_S256 : S256x1.ShapeCasts S256
  inb_S64x128x256_S64x128x256_0_0_0 : ∀ a, (![0, 0, 0] : Fin 3 → Nat) a + S64x128x256.size a ≤ S64x128x256.size a
  h_S64x128x256 : 0 < S64x128x256.numel
  shapeCasts_S64x128x256_S64x128x256 : S64x128x256.ShapeCasts S64x128x256
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S128 : S1x128.ShapeCasts S128
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  shapeCasts_S128_S1x1x128 : S128.ShapeCasts S1x1x128
  broadcasts_S1x1x128_S64x128x128 : S1x1x128.Broadcasts S64x128x128
  shapeCasts_S64x128x128_S8192x128 : S64x128x128.ShapeCasts S8192x128
  inb_S128x256_S128x256_0_0 : ∀ a, (![0, 0] : Fin 2 → Nat) a + S128x256.size a ≤ S128x256.size a
  h_S128x256 : 0 < S128x256.numel
  shapeCasts_S8192x256_S64x128x256 : S8192x256.ShapeCasts S64x128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S256 : S1x256.ShapeCasts S256
  shapeCasts_S256_S1x1x256 : S256.ShapeCasts S1x1x256
  broadcasts_S1x1x256_S64x128x256 : S1x1x256.Broadcasts S64x128x256
  reduces_S64x128x256_S64x128 : S64x128x256.Reduces [2] S64x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S64x128_S1x64x128 : S64x128.ShapeCasts S1x64x128
  dot_S256x576_S576x512_S256x512_1_0_0_1_n_n_wf : DotDims.WF S256x576 S576x512 S256x512 [1] [0] [0] [1] [] []
  dot_S8192x128_S128x256_S8192x256_1_0_0_1_n_n_wf : DotDims.WF S8192x128 S128x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x576.size a ≤ S2x1024x576.size a
  hwx0_0 : ∀ i : grid0.Coords, EltTy.bits .f32 = 32 ∨ (Rect.block (s := S2x1024x576) S1x256x576.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x512.size a ≤ S576x512.size a
  hwx0_1 : ∀ i : grid0.Coords, EltTy.bits .f32 = 32 ∨ (Rect.block (s := S576x512) S576x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S2x1024x512.size a
  hwx0_2 : ∀ i : grid0.Coords, EltTy.bits .f32 = 32 ∨ (Rect.block (s := S2x1024x512) S1x256x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x576.size a ≤ S2x256x576.size a
  hwx1_0 : ∀ i : grid1.Coords, EltTy.bits .f32 = 32 ∨ (Rect.block (s := S2x256x576) S1x256x576.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S576x512.size a ≤ S576x512.size a
  hwx1_1 : ∀ i : grid1.Coords, EltTy.bits .f32 = 32 ∨ (Rect.block (s := S576x512) S576x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x512.size a ≤ S2x256x512.size a
  hwx1_2 : ∀ i : grid1.Coords, EltTy.bits .f32 = 32 ∨ (Rect.block (s := S2x256x512) S1x256x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x64x128.size a ≤ S2x1024x512.size a
  hwx2_0 : ∀ i : grid2.Coords, EltTy.bits .f32 = 32 ∨ (Rect.block (s := S2x1024x512) S1x64x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x128.size a ≤ S2x256x512.size a
  hwx2_1 : ∀ i : grid2.Coords, EltTy.bits .f32 = 32 ∨ (Rect.block (s := S2x256x512) S1x128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x512.size a
  hwx2_2 : ∀ i : grid2.Coords, EltTy.bits .f32 = 32 ∨ (Rect.block (s := S1x512) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S512x256.size a
  hwx2_3 : ∀ i : grid2.Coords, EltTy.bits .f32 = 32 ∨ (Rect.block (s := S512x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x64x128.size a ≤ S2x1024x256.size a
  hwx2_7 : ∀ i : grid2.Coords, EltTy.bits .f32 = 32 ∨ (Rect.block (s := S2x1024x256) S1x64x128.size (cc2_transform_7 i) (hinb2_7 i)).WholeWords (EltTy.packing .f32)

variable [Facts₀]

def dot_S256x576_S576x512_S256x512_1_0_0_1_n_n : DotDims S256x576 S576x512 S256x512 where
  lhsContracting := [1]
  rhsContracting := [0]
  lhsNonContracting := [0]
  rhsNonContracting := [1]
  lhsBatch := []
  rhsBatch := []
  wf := dot_S256x576_S576x512_S256x512_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf

abbrev win0_0 : Pipeline.Window sig grid0 :=
  Pipeline.Window.ofSpec (Memref.whole main_arg0) S1x256x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S576x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x256x576.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S576x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S1x64x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v3) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v4) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v7) S1x64x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S2x1024x576 : Shape := ⟨3, ![2, 1024, 576]⟩
abbrev S2x256x576 : Shape := ⟨3, ![2, 256, 576]⟩
abbrev S576x512 : Shape := ⟨2, ![576, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2x1024x512 : Shape := ⟨3, ![2, 1024, 512]⟩
abbrev S2x256x512 : Shape := ⟨3, ![2, 256, 512]⟩
abbrev S2x1024x1x512 : Shape := ⟨4, ![2, 1024, 1, 512]⟩
abbrev S2x1x256x512 : Shape := ⟨4, ![2, 1, 256, 512]⟩
abbrev S2x1024x256x512 : Shape := ⟨4, ![2, 1024, 256, 512]⟩
abbrev S1x1x1x512 : Shape := ⟨4, ![1, 1, 1, 512]⟩
abbrev S_ : Shape := ⟨0, ![]⟩
abbrev S2x1024x256x256 : Shape := ⟨4, ![2, 1024, 256, 256]⟩
abbrev S1x1x1x256 : Shape := ⟨4, ![1, 1, 1, 256]⟩
abbrev S2x1024x256x1 : Shape := ⟨4, ![2, 1024, 256, 1]⟩
abbrev S2x1024x256 : Shape := ⟨3, ![2, 1024, 256]⟩

abbrev nBuf : Space → Nat
  | .hbm => 34
  | .vmem => 0
  | .smem => 0
  | _ => 0

abbrev bufTy : (tb : Table) → Fin (tcTables nBuf tb) → BufTy
  | .hbm, ⟨0, _⟩ => ⟨S2x1024x576, .f32⟩
  | .hbm, ⟨1, _⟩ => ⟨S2x256x576, .f32⟩
  | .hbm, ⟨2, _⟩ => ⟨S576x512, .f32⟩
  | .hbm, ⟨3, _⟩ => ⟨S576x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S2x1024x512, .f32⟩
  | .hbm, ⟨10, _⟩ => ⟨S2x256x512, .f32⟩
  | .hbm, ⟨11, _⟩ => ⟨S2x1024x1x512, .f32⟩
  | .hbm, ⟨12, _⟩ => ⟨S2x1x256x512, .f32⟩
  | .hbm, ⟨13, _⟩ => ⟨S2x1024x256x512, .f32⟩
  | .hbm, ⟨14, _⟩ => ⟨S2x1024x256x512, .f32⟩
  | .hbm, ⟨15, _⟩ => ⟨S2x1024x256x512, .f32⟩
  | .hbm, ⟨16, _⟩ => ⟨S1x1x1x512, .f32⟩
  | .hbm, ⟨17, _⟩ => ⟨S2x1024x256x512, .f32⟩
  | .hbm, ⟨18, _⟩ => ⟨S2x1024x256x512, .f32⟩
  | .hbm, ⟨19, _⟩ => ⟨S_, .f32⟩
  | .hbm, ⟨20, _⟩ => ⟨S2x1024x256x512, .f32⟩
  | .hbm, ⟨21, _⟩ => ⟨S2x1024x256x512, .f32⟩
  | .hbm, ⟨22, _⟩ => ⟨S2x1024x256x256, .f32⟩
  | .hbm, ⟨23, _⟩ => ⟨S1x1x1x256, .f32⟩
  | .hbm, ⟨24, _⟩ => ⟨S2x1024x256x256, .f32⟩
  | .hbm, ⟨25, _⟩ => ⟨S2x1024x256x256, .f32⟩
  | .hbm, ⟨26, _⟩ => ⟨S_, .f32⟩
  | .hbm, ⟨27, _⟩ => ⟨S2x1024x256x256, .f32⟩
  | .hbm, ⟨28, _⟩ => ⟨S2x1024x256x256, .f32⟩
  | .hbm, ⟨29, _⟩ => ⟨S2x1024x256x1, .f32⟩
  | .hbm, ⟨30, _⟩ => ⟨S2x1024x256, .f32⟩
  | .hbm, ⟨31, _⟩ => ⟨S_, .f32⟩
  | .hbm, ⟨32, _⟩ => ⟨S2x1024x256, .f32⟩
  | .hbm, ⟨33, _⟩ => ⟨S2x1024x256, .f32⟩
  | _, _ => ⟨S2x1024x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_cst : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call1_cst : Ref sig .tc := ⟨.hbm, 26, rfl⟩
abbrev main_call1_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S2x1024x512_S2x1024x1x512_0_1_3 : S2x1024x512.BroadcastsInDim S2x1024x1x512 (![0, 1, 3] : Fin 3 → Fin S2x1024x1x512.rank)
  bcast_S2x256x512_S2x1x256x512_0_2_3 : S2x256x512.BroadcastsInDim S2x1x256x512 (![0, 2, 3] : Fin 3 → Fin S2x1x256x512.rank)
  bcast_S2x1024x1x512_S2x1024x256x512_0_1_2_3 : S2x1024x1x512.BroadcastsInDim S2x1024x256x512 (![0, 1, 2, 3] : Fin 4 → Fin S2x1024x256x512.rank)
  bcast_S2x1x256x512_S2x1024x256x512_0_1_2_3 : S2x1x256x512.BroadcastsInDim S2x1024x256x512 (![0, 1, 2, 3] : Fin 4 → Fin S2x1024x256x512.rank)
  bcast_S512_S1x1x1x512_3 : S512.BroadcastsInDim S1x1x1x512 (![3] : Fin 1 → Fin S1x1x1x512.rank)
  bcast_S1x1x1x512_S2x1024x256x512_0_1_2_3 : S1x1x1x512.BroadcastsInDim S2x1024x256x512 (![0, 1, 2, 3] : Fin 4 → Fin S2x1024x256x512.rank)
  bcast_S_S2x1024x256x512 : S_.BroadcastsInDim S2x1024x256x512 (![] : Fin 0 → Fin S2x1024x256x512.rank)
  bcast_S256_S1x1x1x256_3 : S256.BroadcastsInDim S1x1x1x256 (![3] : Fin 1 → Fin S1x1x1x256.rank)
  bcast_S1x1x1x256_S2x1024x256x256_0_1_2_3 : S1x1x1x256.BroadcastsInDim S2x1024x256x256 (![0, 1, 2, 3] : Fin 4 → Fin S2x1024x256x256.rank)
  bcast_S_S2x1024x256x256 : S_.BroadcastsInDim S2x1024x256x256 (![] : Fin 0 → Fin S2x1024x256x256.rank)
  shapeCasts_S2x1024x256x1_S2x1024x256 : S2x1024x256x1.ShapeCasts S2x1024x256
  shapeCasts_S1_S_ : S1.ShapeCasts S_
  bcast_S_S2x1024x256 : S_.BroadcastsInDim S2x1024x256 (![] : Fin 0 → Fin S2x1024x256.rank)
  dot_S2x1024x576_S576x512_S2x1024x512_2_0_01_1_n_n_wf : DotDims.WF S2x1024x576 S576x512 S2x1024x512 [2] [0] [0, 1] [1] [] []
  dot_S2x256x576_S576x512_S2x256x512_2_0_01_1_n_n_wf : DotDims.WF S2x256x576 S576x512 S2x256x512 [2] [0] [0, 1] [1] [] []
  dot_S2x1024x256x512_S512x256_S2x1024x256x256_3_0_012_1_n_n_wf : DotDims.WF S2x1024x256x512 S512x256 S2x1024x256x256 [3] [0] [0, 1, 2] [1] [] []
  dot_S2x1024x256x256_S256x1_S2x1024x256x1_3_0_012_1_n_n_wf : DotDims.WF S2x1024x256x256 S256x1 S2x1024x256x1 [3] [0] [0, 1, 2] [1] [] []

variable [Facts₀]

def dot_S2x1024x576_S576x512_S2x1024x512_2_0_01_1_n_n : DotDims S2x1024x576 S576x512 S2x1024x512 where
  lhsContracting := [2]
  rhsContracting := [0]
  lhsNonContracting := [0, 1]
  rhsNonContracting := [1]
  lhsBatch := []
  rhsBatch := []
  wf := dot_S2x1024x576_S576x512_S2x1024x512_2_0_01_1_n_n_wf
def dot_S2x256x576_S576x512_S2x256x512_2_0_01_1_n_n : DotDims S2x256x576 S576x512 S2x256x512 where
  lhsContracting := [2]
  rhsContracting := [0]
  lhsNonContracting := [0, 1]
  rhsNonContracting := [1]
  lhsBatch := []
  rhsBatch := []
  wf := dot_S2x256x576_S576x512_S2x256x512_2_0_01_1_n_n_wf
def dot_S2x1024x256x512_S512x256_S2x1024x256x256_3_0_012_1_n_n : DotDims S2x1024x256x512 S512x256 S2x1024x256x256 where
  lhsContracting := [3]
  rhsContracting := [0]
  lhsNonContracting := [0, 1, 2]
  rhsNonContracting := [1]
  lhsBatch := []
  rhsBatch := []
  wf := dot_S2x1024x256x512_S512x256_S2x1024x256x256_3_0_012_1_n_n_wf
def dot_S2x1024x256x256_S256x1_S2x1024x256x1_3_0_012_1_n_n : DotDims S2x1024x256x256 S256x1 S2x1024x256x1 where
  lhsContracting := [3]
  rhsContracting := [0]
  lhsNonContracting := [0, 1, 2]
  rhsNonContracting := [1]
  lhsBatch := []
  rhsBatch := []
  wf := dot_S2x1024x256x256_S256x1_S2x1024x256x1_3_0_012_1_n_n_wf

class Facts : Prop extends Facts₀ where

variable [Facts]
-- ==== Proof.Kernel.Proj.lean ====
/-
  The two projection regions of the program, each at the contents `V` its region is entered with:
  a grid of row blocks, every point multiplying its 256×576 row block by the whole 576×512 weight
  matrix into a zero accumulator and storing the 256×512 product block. The body keeps nothing
  between points, so each region's invariant is the scoped rest untouched.
-/
import proofs.«119945_j70798240907716_1_alg».proof.Proof.Gen.Kernel.Launch
import proofs.«119945_j70798240907716_1_alg».proof.Proof.Gen.Kernel.Skeleton
import proofs.«119945_j70798240907716_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Projection of the first operand (pallas_call 0: x · W, x the 2×1024×576 array, 8 row blocks of 256) -/

/-- Window `w`'s block at grid point `t`, read off its array at the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight matrix at every point, though it is fetched only once:
    its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S1x256x576 := Rect.unit (s := S1x256x576) ![0, 0, 0] S1x256x576.size inb_S1x256x576_S1x256x576_0_0_0
abbrev rw0 : Rect S576x512 := Rect.unit (s := S576x512) ![0, 0] S576x512.size inb_S576x512_S576x512_0_0
abbrev ro0 : Rect S1x256x512 := Rect.unit (s := S1x256x512) ![0, 0, 0] S1x256x512.size inb_S1x256x512_S1x256x512_0_0_0

/-- The output block after the body: the one whole-block store of the matrix product of the row block with the weights. -/
def out0_2 (x0 : Vec F S1x256x576 .f32) (x1 : Vec F S576x512 .f32) : Vec F S1x256x512 .f32 :=
  View.canon [⟨ro0, k0_pay1 (View.ld x0 rx0) (View.ld x1 rw0)⟩]

/-- The one store covers the whole output block. -/
theorem cover0_2 (p0 : Vec F S1x256x512 .f32) (y : S1x256x512.Idx) :
    ∃ pc ∈ ([⟨ro0, p0⟩] : List (View.Piece (Elt F) S1x256x512 .f32)), y ∈ pc.1.set :=
  View.cover_of_tiled [⟨ro0, p0⟩] S1x256x512.size (by rfl) y

set_option maxHeartbeats 1000000 in
/-- The projection body on whole staging buffers: the two inputs kept, the output block at the product. -/
theorem sound_kernel0 (c : Dev nD) (E : Set ℕ) (i : grid0.Coords) (arg2 : Memref sig .tc .vmem S1x256x576 .f32) (harg2 : arg2.IsWhole)
    (arg3 : Memref sig .tc .vmem S576x512 .f32) (harg3 : arg3.IsWhole) (arg4 : Memref sig .tc .vmem S1x256x512 .f32) (harg4 : arg4.IsWhole)
    (x0 : Vec F S1x256x576 .f32) (x1 : Vec F S576x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this projection at the entry contents `V`: inputs keep their blocks, the output block is the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the staged inputs hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # Projection of the second operand (pallas_call 1: x · W, x the 2×256×576 array, 2 row blocks of 256) -/

/-- Window `w`'s block at grid point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's staging buffer holds the whole weight matrix at every point, though it is fetched only once:
    its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rx1 : Rect S1x256x576 := Rect.unit (s := S1x256x576) ![0, 0, 0] S1x256x576.size inb_S1x256x576_S1x256x576_0_0_0
abbrev rw1 : Rect S576x512 := Rect.unit (s := S576x512) ![0, 0] S576x512.size inb_S576x512_S576x512_0_0
abbrev ro1 : Rect S1x256x512 := Rect.unit (s := S1x256x512) ![0, 0, 0] S1x256x512.size inb_S1x256x512_S1x256x512_0_0_0

/-- The output block after the body: the one whole-block store of the matrix product of the row block with the weights. -/
def out1_2 (x0 : Vec F S1x256x576 .f32) (x1 : Vec F S576x512 .f32) : Vec F S1x256x512 .f32 :=
  View.canon [⟨ro1, k1_pay1 (View.ld x0 rx1) (View.ld x1 rw1)⟩]

/-- The one store covers the whole output block. -/
theorem cover1_2 (p0 : Vec F S1x256x512 .f32) (y : S1x256x512.Idx) :
    ∃ pc ∈ ([⟨ro1, p0⟩] : List (View.Piece (Elt F) S1x256x512 .f32)), y ∈ pc.1.set :=
  View.cover_of_tiled [⟨ro1, p0⟩] S1x256x512.size (by rfl) y

set_option maxHeartbeats 1000000 in
/-- The projection body on whole staging buffers: the two inputs kept, the output block at the product. -/
theorem sound_kernel1 (c : Dev nD) (E : Set ℕ) (i : grid1.Coords) (arg2 : Memref sig .tc .vmem S1x256x576 .f32) (harg2 : arg2.IsWhole)
    (arg3 : Memref sig .tc .vmem S576x512 .f32) (harg3 : arg3.IsWhole) (arg4 : Memref sig .tc .vmem S1x256x512 .f32) (harg4 : arg4.IsWhole)
    (x0 : Vec F S1x256x576 .f32) (x1 : Vec F S576x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__proj_kernel i arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this projection at the entry contents `V`: inputs keep their blocks, the output block is the product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any grid point: the staged inputs hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.PairDefs.lean ====
/-
  The pairwise region (pallas_call 2), the part its three control cases share. The grid is
  (batch, row tile, column tile, hidden chunk) = 2 × 16 × 2 × 4, the hidden chunk innermost, so a
  point t is in hidden chunk t mod 4: chunk 0 resets the accumulator scratch, every chunk adds its
  partial product to it, chunk 3 also finishes the tile and stores the output block; at the other
  chunks the output window is idle.
-/
import proofs.«119945_j70798240907716_1_alg».proof.Proof.Gen.Kernel.Launch
import proofs.«119945_j70798240907716_1_alg».proof.Proof.Gen.Kernel.Skeleton
import proofs.«119945_j70798240907716_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions, in closed form over the grid -/

/-- The reset branch's condition: the hidden-chunk coordinate is 0. -/
abbrev cond2_0 (i : grid2.Coords) : Prop := (Scalar.cmpi .ne (Scalar.extui (Scalar.cmpi .eq (BitVec.ofNat 32 (i 3).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The finishing branch's condition: the hidden-chunk coordinate is 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_in : ∀ (w : Fin 8), w.val < 7 → ∀ t : Fin cfg2.N, cfg2.idle w (grid2.coords t) = false := by decide +kernel
/-- Away from the last hidden chunk the output window is idle and not written back. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
/-- At the last hidden chunk the output window is live. -/
theorem liveAt2_7 : ∀ t : Fin cfg2.N, cond2_1 (grid2.coords t) → cfg2.idle 7 (grid2.coords t) = false := by decide +kernel

/-! ## The memrefs the body is called with -/

abbrev VO2_7 : View sig .tc .vmem S1x64x128 .f32 := (Memref.whole cc2_stg7_0 : Memref sig .tc .vmem S1x64x128 .f32).view
abbrev ms2_0 (t : Fin cfg2.N) : Memref sig .tc .vmem S1x64x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64x128 .f32 := win2_7.stage (cfg2.slots t 7)
abbrev hs2_7 (t : Fin cfg2.N) : (ms2_7 t).IsWhole := hstage2_7 ((cfg2.slots t 7).cast nbuf2_7)
/-- The accumulator scratch, a whole scoped buffer of the kernel's own, and its view. -/
abbrev scM2 : Memref sig .tc .vmem S64x128x256 .f32 := Memref.whole cc2_scratch0
abbrev VS2 : View sig .tc .vmem S64x128x256 .f32 := scM2.view

/-- The scoped rest of this region with the accumulator scratch singled out as an owned memref. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ d, owns (c : Thread nD τ) scM2 fullShare d)) ∗ (∃ r, prngReg c r)) := by
  unfold Pipeline.ΦA; rw [scopedRest2_eq]; simp only [scM2, owns_whole]; try rfl

end Cert.Kernel.Hand

end
-- ==== Proof.Kernel.PairRunA.lean ====
/-
  The pairwise region's body, run whole in the control case where the hidden chunk is 0: the accumulator is reset to zero, then the chunk's partial product is added; the output block is left as found.
  The pieces the stores leave are found by the symbolic run itself.
-/
import proofs.«119945_j70798240907716_1_alg».proof.Proof.Kernel.PairDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple in this case, with the pieces its stores leave in the accumulator scratch as the witness. -/
noncomputable def kernelRun2_A (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : cond2_0 i) (hc1 : ¬cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) :
    Σ' (L7 : List (View.Piece (Elt F) S1x64x128 .f32)), { LS : List (View.Piece (Elt F) S64x128x256 .f32) //
      ∀ (xi7 : Vec F S1x64x128 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare xi7 ∗ (∃ d, owns (c : Thread nD τ) arg12 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare xi7 ∗ (∃ f, arg12.view.loc (c : Thread nD τ) ↦[arg12.view.set]{fullShare} arg12.view.writes (Elt F) f LS)) -∗ K ⟨⟩))
          ⊢ wp frame (wpE (defs₀ (F := F)) Variants.none c none) E (cc2__pair_kernel i arg4 harg4 arg5 harg5 arg6 harg6 arg7 harg7 arg8 harg8 arg9 harg9 arg10 harg10 arg11 harg11 arg12 harg12) K } := by
  refine ⟨[], ?_, fun xi7 E K => ?run⟩
  case run =>
    simp only [cc2__pair_kernel_eq_skeleton]; unfold cc2__pair_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    iexists _; iexact HS

end Cert.Kernel.Hand

end
-- ==== Proof.Kernel.PairRunB.lean ====
/-
  The pairwise region's body, run whole in the control case where the hidden chunk is 1 or 2: the chunk's partial product is added to what the point before left in the accumulator; the output block is left as found.
  The pieces the stores leave are found by the symbolic run itself.
-/
import proofs.«119945_j70798240907716_1_alg».proof.Proof.Kernel.PairRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple in this case, with the pieces its stores leave in the accumulator scratch as the witness. -/
noncomputable def kernelRun2_B (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : ¬cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) :
    Σ' (L7 : List (View.Piece (Elt F) S1x64x128 .f32)), { LS : List (View.Piece (Elt F) S64x128x256 .f32) //
      ∀ (xi7 : Vec F S1x64x128 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare xi7 ∗ owns (c : Thread nD τ) arg12 fullShare xs
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare xi7 ∗ (∃ f, arg12.view.loc (c : Thread nD τ) ↦[arg12.view.set]{fullShare} arg12.view.writes (Elt F) f LS)) -∗ K ⟨⟩))
          ⊢ wp frame (wpE (defs₀ (F := F)) Variants.none c none) E (cc2__pair_kernel i arg4 harg4 arg5 harg5 arg6 harg6 arg7 harg7 arg8 harg8 arg9 harg9 arg10 harg10 arg11 harg11 arg12 harg12) K } := by
  refine ⟨[], ?_, fun xi7 E K => ?run⟩
  case run =>
    simp only [cc2__pair_kernel_eq_skeleton]; unfold cc2__pair_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hfs
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    iexists _; iexact HS

end Cert.Kernel.Hand

end
-- ==== Proof.Kernel.PairRunC.lean ====
/-
  The pairwise region's body, run whole in the control case where the hidden chunk is 3: the last partial product is added, then the finished accumulator goes through bias, relu and the weighted lane sum into the output block.
  The pieces the stores leave are found by the symbolic run itself.
-/
import proofs.«119945_j70798240907716_1_alg».proof.Proof.Kernel.PairRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple in this case, with the pieces its stores leave in the accumulator scratch and in the output block as the witness. -/
noncomputable def kernelRun2_C (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) :
    Σ' (L7 : List (View.Piece (Elt F) S1x64x128 .f32)), { LS : List (View.Piece (Elt F) S64x128x256 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ owns (c : Thread nD τ) arg12 fullShare xs
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f LS)) -∗ K ⟨⟩))
          ⊢ wp frame (wpE (defs₀ (F := F)) Variants.none c none) E (cc2__pair_kernel i arg4 harg4 arg5 harg5 arg6 harg6 arg7 harg7 arg8 harg8 arg9 harg9 arg10 harg10 arg11 harg11 arg12 harg12) K } := by
  refine ⟨?_, ?_, fun E K => ?run⟩
  case run =>
    simp only [cc2__pair_kernel_eq_skeleton]; unfold cc2__pair_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg12.eq_unread hfs
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    iexists _; iexact HS

end Cert.Kernel.Hand

end
-- ==== Proof.Kernel.Pair.lean ====
/-
  The pairwise region (pallas_call 2) assembled: what the accumulator scratch and the output block
  hold after each grid point (by recursion on the point: hidden chunk 0 starts the accumulator afresh,
  chunks 1 to 3 add to what the point before left, chunk 3 also produces the output block), the region's
  invariant carrying the scratch at those contents from point to point, the proof data, and the body
  obligation at every point by cases on the hidden chunk.
-/
import proofs.«119945_j70798240907716_1_alg».proof.Proof.Kernel.PairRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator scratch after the body in case A: the stores' pieces read back. -/
def sout2_A (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : cond2_0 i) (hc1 : ¬cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) : Vec F S64x128x256 .f32 :=
  VS2.read (Elt F) (VS2.writes (Elt F) VS2.junk (kernelRun2_A c i arg4 harg4 arg5 harg5 arg6 harg6 arg7 harg7 arg8 harg8 arg9 harg9 arg10 harg10 arg11 harg11 arg12 harg12 hc0 hc1 x0 x1 x2 x3 x4 x5 x6).2.1)

/-- Those pieces cover the scratch: one of them is a store of the whole buffer. -/
theorem scover2_A (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : cond2_0 i) (hc1 : ¬cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (y : S64x128x256.Idx) :
    ∃ pc ∈ (kernelRun2_A c i arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_wholeMem (kernelRun2_A c i arg4 harg4 arg5 harg5 arg6 harg6 arg7 harg7 arg8 harg8 arg9 harg9 arg10 harg10 arg11 harg11 arg12 harg12 hc0 hc1 x0 x1 x2 x3 x4 x5 x6).2.1 (by sl_whole_mem) y

/-- The output block after the body in case A (nothing is stored there: a placeholder nothing reads, the window being idle). -/
def out2_A_7 (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : cond2_0 i) (hc1 : ¬cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) : Vec F S1x64x128 .f32 :=
  VO2_7.read (Elt F) (VO2_7.writes (Elt F) VO2_7.junk (kernelRun2_A c i arg4 harg4 arg5 harg5 arg6 harg6 arg7 harg7 arg8 harg8 arg9 harg9 arg10 harg10 arg11 harg11 arg12 harg12 hc0 hc1 x0 x1 x2 x3 x4 x5 x6).1)

/-- The accumulator scratch after the body in case B: the stores' pieces read back. -/
def sout2_B (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : ¬cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) : Vec F S64x128x256 .f32 :=
  VS2.read (Elt F) (VS2.writes (Elt F) VS2.junk (kernelRun2_B c i arg4 harg4 arg5 harg5 arg6 harg6 arg7 harg7 arg8 harg8 arg9 harg9 arg10 harg10 arg11 harg11 arg12 harg12 hc0 hc1 x0 x1 x2 x3 x4 x5 x6 xs).2.1)

/-- Those pieces cover the scratch: one of them is a store of the whole buffer. -/
theorem scover2_B (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : ¬cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) (y : S64x128x256.Idx) :
    ∃ pc ∈ (kernelRun2_B c i arg4 harg4 arg5 harg5 arg6 harg6 arg7 harg7 arg8 harg8 arg9 harg9 arg10 harg10 arg11 harg11 arg12 harg12 hc0 hc1 x0 x1 x2 x3 x4 x5 x6 xs).2.1, y ∈ pc.1.set :=
  View.cover_of_wholeMem (kernelRun2_B c i arg4 harg4 arg5 harg5 arg6 harg6 arg7 harg7 arg8 harg8 arg9 harg9 arg10 harg10 arg11 harg11 arg12 harg12 hc0 hc1 x0 x1 x2 x3 x4 x5 x6 xs).2.1 (by sl_whole_mem) y

/-- The output block after the body in case B (nothing is stored there: a placeholder nothing reads, the window being idle). -/
def out2_B_7 (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : ¬cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) : Vec F S1x64x128 .f32 :=
  VO2_7.read (Elt F) (VO2_7.writes (Elt F) VO2_7.junk (kernelRun2_B c i arg4 harg4 arg5 harg5 arg6 harg6 arg7 harg7 arg8 harg8 arg9 harg9 arg10 harg10 arg11 harg11 arg12 harg12 hc0 hc1 x0 x1 x2 x3 x4 x5 x6 xs).1)

/-- The accumulator scratch after the body in case C: the stores' pieces read back. -/
def sout2_C (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) : Vec F S64x128x256 .f32 :=
  VS2.read (Elt F) (VS2.writes (Elt F) VS2.junk (kernelRun2_C c i arg4 harg4 arg5 harg5 arg6 harg6 arg7 harg7 arg8 harg8 arg9 harg9 arg10 harg10 arg11 harg11 arg12 harg12 hc0 hc1 x0 x1 x2 x3 x4 x5 x6 xs).2.1)

/-- Those pieces cover the scratch: one of them is a store of the whole buffer. -/
theorem scover2_C (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) (y : S64x128x256.Idx) :
    ∃ pc ∈ (kernelRun2_C c i arg4 harg4 arg5 harg5 arg6 harg6 arg7 harg7 arg8 harg8 arg9 harg9 arg10 harg10 arg11 harg11 arg12 harg12 hc0 hc1 x0 x1 x2 x3 x4 x5 x6 xs).2.1, y ∈ pc.1.set :=
  View.cover_of_wholeMem (kernelRun2_C c i arg4 harg4 arg5 harg5 arg6 harg6 arg7 harg7 arg8 harg8 arg9 harg9 arg10 harg10 arg11 harg11 arg12 harg12 hc0 hc1 x0 x1 x2 x3 x4 x5 x6 xs).2.1 (by sl_whole_mem) y

/-- The output block after the body in case C: the one store's piece read back. -/
def out2_C_7 (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) : Vec F S1x64x128 .f32 :=
  VO2_7.read (Elt F) (VO2_7.writes (Elt F) VO2_7.junk (kernelRun2_C c i arg4 harg4 arg5 harg5 arg6 harg6 arg7 harg7 arg8 harg8 arg9 harg9 arg10 harg10 arg11 harg11 arg12 harg12 hc0 hc1 x0 x1 x2 x3 x4 x5 x6 xs).1)

/-- The finishing case's output piece covers the block. -/
theorem cover2_C_7 (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) (y : S1x64x128.Idx) :
    ∃ pc ∈ (kernelRun2_C c i arg4 harg4 arg5 harg5 arg6 harg6 arg7 harg7 arg8 harg8 arg9 harg9 arg10 harg10 arg11 harg11 arg12 harg12 hc0 hc1 x0 x1 x2 x3 x4 x5 x6 xs).1, y ∈ pc.1.set :=
  View.cover_of_wholeMem (kernelRun2_C c i arg4 harg4 arg5 harg5 arg6 harg6 arg7 harg7 arg8 harg8 arg9 harg9 arg10 harg10 arg11 harg11 arg12 harg12 hc0 hc1 x0 x1 x2 x3 x4 x5 x6 xs).1 (by sl_whole_mem) y

/-! ## What the output block and the accumulator hold after each point -/

/-- After the body at position `n`: (the output window's staging block, the accumulator scratch). -/
def outsAt2 (c : Dev nD) : (n : ℕ) → n < cfg2.N → Vec F S1x64x128 .f32 × Vec F S64x128x256 .f32
  | 0, hn => (fun (h0 : (0 : ℕ) % 4 = 0) (h1 : ¬(0 : ℕ) % 4 = 3) => (out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))) (Nat.zero_mod _) (by omega)
  | n + 1, hn =>
    if h0 : (n + 1) % 4 = 0 then
      if h1 : (n + 1) % 4 = 3 then False.elim (by omega)
      else (out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      if h1 : (n + 1) % 4 = 3 then (out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2)
      else (out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), sout2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped rest of this region with the accumulator scratch at `S`: the other regions' staging buffers at some
    contents, the scratch as `S` says, the generator register at some state. -/
def scopedAt (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ S) ∗ (∃ r, prngReg c r))

theorem PhiA2_scopedAt (c : Dev nD) : (Pipeline.ΦA spec2 c : sProp 𝕄) = scopedAt c (iprop(∃ d, owns (c : Thread nD τ) scM2 fullShare d)) := by
  rw [PhiA2_eq]; rfl

/-- Take the scratch's assertion out of the invariant, keeping the rest as a frame. -/
def scopedFrame (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r))

theorem scopedAt_split (c : Dev nD) (S : sProp 𝕄) : scopedAt c S ⊢ iprop(S ∗ scopedFrame c) := by
  unfold scopedAt scopedFrame
  iintro ⟨⟨H1, H2, H3, H4, H5, H6, H7, H8, H9, H10, HS⟩, Hg⟩
  isplitl [HS]; · iexact HS
  isplitl [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact Hg

theorem scopedAt_join (c : Dev nD) (S : sProp 𝕄) : iprop(S ∗ scopedFrame c) ⊢ scopedAt c S := by
  unfold scopedAt scopedFrame
  iintro ⟨HS, ⟨H1, H2, H3, H4, H5, H6, H7, H8, H9, H10⟩, Hg⟩
  isplitl [H1 H2 H3 H4 H5 H6 H7 H8 H9 H10 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iexact Hg

/-- The invariant before position `n`: before the first point the scratch holds anything; afterwards what the
    point before left in it. -/
def PhiS2 (c : Dev nD) : (n : ℕ) → n ≤ cfg2.N → sProp 𝕄
  | 0, _ => Pipeline.ΦA spec2 c
  | n + 1, hn => scopedAt c (owns (c : Thread nD τ) scM2 fullShare ((outsAt2 V c n hn).2))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = scopedAt c (owns (c : Thread nD τ) scM2 fullShare ((outsAt2 V c n hn).2)) := rfl

theorem PhiS2_pos (c : Dev nD) (n : ℕ) (h : n ≤ cfg2.N) (hz : n ≠ 0) :
    PhiS2 V c n h = scopedAt c (owns (c : Thread nD τ) scM2 fullShare ((outsAt2 V c (n - 1) (by omega)).2)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

theorem leaves2_in (c : Dev nD) (t : Fin cfg2.N) (w : Fin 8) (hw : w.val < 7) :
    (dat2 V c).leavesExact w t = owns (c : Thread nD τ) ((cfg2.win w).stage (cfg2.slots t w)) fullShare ((dat2 V c).after w t) := by
  unfold Dat.leavesExact; rw [liveAt2_in w hw t]

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [leaves2_in V c t 0 (by decide), leaves2_in V c t 1 (by decide), leaves2_in V c t 2 (by decide), leaves2_in V c t 3 (by decide),
    leaves2_in V c t 4 (by decide), leaves2_in V c t 5 (by decide), leaves2_in V c t 6 (by decide),
    after2_0, after2_1, after2_2, after2_3, after2_4, after2_5, after2_6]
  have hN : t.val < 256 := lt_of_lt_of_eq t.isLt (show cfg2.N = 256 from N_2)
  by_cases h0 : t.val % 4 = 0
  · by_cases h1 : t.val % 4 = 3
    · exfalso; omega
    · rw [Dat.leavesExact_idle (dat2 V c) 7 t (idleAt2_7 t (fun h => h1 ((hcond2_1 t).mp h))) (noFlush2_7 t (fun h => h1 ((hcond2_1 t).mp h)))]
      rw [outsAt2_A V c t h0 h1]
      unfold sout2_A; (try dsimp only)
      have hΦ : (dat2 V c).Φ t.castSucc ⊢ scopedAt c (iprop(∃ d, owns (c : Thread nD τ) scM2 fullShare d)) := by
        by_cases hz : t.val = 0
        · rw [PhiS2_castSucc V c t, PhiS2_zero V c _ _ hz, PhiA2_scopedAt]
        · rw [PhiS2_castSucc V c t, PhiS2_pos V c _ _ hz]
          refine (scopedAt_split c _).trans (.trans ?_ (scopedAt_join c _))
          iintro ⟨HS, Hf⟩
          isplitl [HS]; · iexists _; iexact HS
          iexact Hf
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := hΦ $$ HΦ
      ihave HΦ'' := (scopedAt_split c _) $$ HΦ'
      icases HΦ'' with ⟨HS, Hf⟩
      iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hf]
      · iapply (scopedAt_join c _)
        isplitl [HS]
        · unfold owns; iexists _; isplitr
          swap; · iexact HS
          ipureintro; exact View.read_writes_of_cover _ _ _ _ _ (scover2_A _ _ _ _ _ _ _ _ _ _ _ _ _ _ _ _ _ _ _ _ _ _ _ _ _ _ _ _ _)
        iexact Hf
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 4 = 3
    · rw [show (dat2 V c).leavesExact 7 t = owns (c : Thread nD τ) (ms2_7 t) fullShare ((dat2 V c).after 7 t) from by
        unfold Dat.leavesExact; rw [liveAt2_7 t ((hcond2_1 t).mpr h1)], after2_7]
      rw [outsAt2_C V c t h0 h1]
      unfold out2_C_7 sout2_C; (try dsimp only)
      rw [PhiS2_castSucc V c t, PhiS2_pos V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ'' := (scopedAt_split c _) $$ HΦ
      icases HΦ'' with ⟨HS, Hf⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hf]
      · iapply (scopedAt_join c _)
        isplitl [HS]
        · unfold owns; iexists _; isplitr
          swap; · iexact HS
          ipureintro; exact View.read_writes_of_cover _ _ _ _ _ (scover2_C _ _ _ _ _ _ _ _ _ _ _ _ _ _ _ _ _ _ _ _ _ _ _ _ _ _ _ _ _ _)
        iexact Hf
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover2_C_7 _ _ _ _ _ _ _ _ _ _ _ _ _ _ _ _ _ _ _ _ _ _ _ _ _ _ _ _ _ _)
    · rw [Dat.leavesExact_idle (dat2 V c) 7 t (idleAt2_7 t (fun h => h1 ((hcond2_1 t).mp h))) (noFlush2_7 t (fun h => h1 ((hcond2_1 t).mp h)))]
      rw [outsAt2_B V c t h0 h1]
      unfold sout2_B; (try dsimp only)
      rw [PhiS2_castSucc V c t, PhiS2_pos V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ'' := (scopedAt_split c _) $$ HΦ
      icases HΦ'' with ⟨HS, Hf⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hf]
      · iapply (scopedAt_join c _)
        isplitl [HS]
        · unfold owns; iexists _; isplitr
          swap; · iexact HS
          ipureintro; exact View.read_writes_of_cover _ _ _ _ _ (scover2_B _ _ _ _ _ _ _ _ _ _ _ _ _ _ _ _ _ _ _ _ _ _ _ _ _ _ _ _ _ _)
        iexact Hf
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation2 (c : Dev nD) : BodyObligation (dat2 (F := F) V c) (defs₀ (F := F)) Variants.none () Set.univ := fun t => by
  rw [bigSep_W2, bigSep_W2]
  exact sound_body2 V c t

/-- Entering the region, the scoped rest as the launch hands it is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back, the accumulator's contents forgotten. -/
theorem hout2 (c : Dev nD) : (dat2 V c).Φ (Fin.last cfg2.N) ⊢ Pipeline.ΦA spec2 c := by
  have ht : (Fin.last cfg2.N).val ≠ 0 := by rw [Fin.val_last]; have : cfg2.N = 256 := N_2; omega
  rw [show (dat2 V c).Φ (Fin.last cfg2.N) = PhiS2 V c (Fin.last cfg2.N).val (Nat.le_of_lt_succ (Fin.last cfg2.N).isLt) from rfl,
    PhiS2_pos V c _ _ ht, PhiA2_scopedAt]
  refine (scopedAt_split c _).trans (.trans ?_ (scopedAt_join c _))
  iintro ⟨HS, Hf⟩
  isplitl [HS]; · iexists _; iexact HS
  iexact Hf

end Cert.Kernel.Hand

end
-- ==== Proof.Kernel.Run.lean ====
/-
  The run of the whole program: the contents of every unscoped buffer at each boundary between two
  items of the main function, folded from the launch memory (after each projection, its product array at
  what the write-backs leave; after the five reshapes, their results; after the pairwise region, its result
  array), the three regions and the host stretch as segments chained over those contents, and the launch
  over them. From it: the frame (every argument array ends as launched), the result array's final contents,
  and what the pairwise region finds in each of its input windows when it is entered.
-/
import proofs.«119945_j70798240907716_1_alg».proof.Proof.Kernel.Proj
import proofs.«119945_j70798240907716_1_alg».proof.Proof.Kernel.Pair
import proofs.«119945_j70798240907716_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of the main function: a fold from the launch memory -/

/-- Core `c`'s buffers at launch (region 0 is entered from them). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After region 0: its windows' arrays at what the pipeline leaves (an input as entered, the output with every
    write-back folded in), every other buffer as the region was entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
/-- At the region's exit each of its arrays holds what the pipeline leaves, every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its windows' arrays at what the pipeline leaves (an input as entered, the output with every
    write-back folded in), every other buffer as the region was entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
/-- At the region's exit each of its arrays holds what the pipeline leaves, every other buffer what it held at entry. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the five reshapes (the pairwise region is entered from these contents). -/
abbrev W3 : Dev nD → Valuation τ sig (Elt F) := fun c => StableHlo.after hostOps2 (W2 m ρ c)
/-- The same read at the TensorCore's references. -/
abbrev V3 : (c : Dev nD) → (b : Ref sig .tc) → Buf (Elt F) ((c : Thread nD τ).loc b) := fun c b => W3 m ρ c b

/-- After region 2: its windows' arrays at what the pipeline leaves (an input as entered, the output with every
    write-back folded in), every other buffer as the region was entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
/-- At the region's exit each of its arrays holds what the pipeline leaves, every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! # The proof data of the three pipelines and the thread state -/

/-- Every pipeline's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it ends at
    those references holding what the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! # The regions as segments -/

-- the pinned configuration and the printed one agree only after unfolding plain definitions inside a type
set_option backward.isDefEq.respectTransparency.types false in
/-- Region 0 over the thread state: entered from every unscoped buffer at `W0`, left at `W1`. Its arrays are
    split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration and the printed one agree only after unfolding plain definitions inside a type
set_option backward.isDefEq.respectTransparency.types false in
/-- Region 1 over the thread state: entered from every unscoped buffer at `W1`, left at `W2`. Its arrays are
    split out of the unscoped buffers and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration and the printed one agree only after unfolding plain definitions inside a type
set_option backward.isDefEq.respectTransparency.types false in
/-- Region 2 over the thread state: entered from every unscoped buffer at `W3`, left at `W4`. Its arrays are
    split out of the unscoped buffers and put back at the exit contents; the generator register goes into the
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V3 m ρ) c)
    unfold Pipeline.ΦA
    iintro ⟨Hp, -, Hr⟩
    isplitl [Hr]; · iexact Hr
    iexact Hp
  hout c := by
    refine .trans (hout2 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The main function as segments, and the launch -/

/-- The four segments in order: the two projections, the five reshapes, the pairwise region. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ) ]
/-- The main function is the run of the segments. -/
theorem main_run (c : Dev nD) : main (F := F) c = Pipeline.Seg.run (segs m ρ) := (main_chain c).trans (by chain_rfl)

set_option backward.isDefEq.respectTransparency.types false in
/-- From any memory with zero counters every weakly fair execution of the main function terminates, nothing
    faulting, and in every final state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! # The arguments end as launched

No reshape writes an argument and a region keeps what it reads through an input window and bypasses the rest, so the
fold at an argument's buffer walks back to the launch memory. -/

/-- `main_arg0` ends as launched: the first projection reads it through its row-block window; nothing writes it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps2 (W2 m ρ c) hostOps2_writes (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- `main_arg1` ends as launched: the second projection reads it through its row-block window; nothing writes it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps2 (W2 m ρ c) hostOps2_writes (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

/-- `main_arg2` ends as launched: the first projection reads it through its weight window; nothing writes it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps2 (W2 m ρ c) hostOps2_writes (by decide)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

/-- `main_arg3` ends as launched: the second projection reads it through its weight window; nothing writes it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps2 (W2 m ρ c) hostOps2_writes (by decide)
    _ = W1 m ρ c (Proc.devRef .tc main_arg3) := (W2_arr m ρ c 1).trans (((dat1 (V1 m ρ) c).arrAt_in 1 rfl _).trans (A_eq1 (V1 m ρ) c 1))
    _ = W0 m ρ c (Proc.devRef .tc main_arg3) := W1_of_ne m ρ c main_arg3 (by decide)
    _ = m ((c : Thread nD τ).loc main_arg3) := rfl

/-- `main_arg4` ends as launched: only a reshape reads it; nothing writes it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps2 (W2 m ρ c) hostOps2_writes (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- `main_arg5` ends as launched: the pairwise region reads it through an input window; nothing writes it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 3).trans (((dat2 (V3 m ρ) c).arrAt_in 3 rfl _).trans (A_eq2 (V3 m ρ) c 3))
    _ = W2 m ρ c (Proc.devRef .tc main_arg5) := StableHlo.after_of_writes_sub hostOps2 (W2 m ρ c) hostOps2_writes (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-- `main_arg6` ends as launched: only a reshape reads it; nothing writes it. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps2 (W2 m ρ c) hostOps2_writes (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl

/-- `main_arg7` ends as launched: only a reshape reads it; nothing writes it. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps2 (W2 m ρ c) hostOps2_writes (by decide)
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl

/-- `main_arg8` ends as launched: only a reshape reads it; nothing writes it. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps2 (W2 m ρ c) hostOps2_writes (by decide)
    _ = W1 m ρ c (Proc.devRef .tc main_arg8) := W2_of_ne m ρ c main_arg8 (by decide)
    _ = W0 m ρ c (Proc.devRef .tc main_arg8) := W1_of_ne m ρ c main_arg8 (by decide)
    _ = m ((c : Thread nD τ).loc main_arg8) := rfl

/-- THE FRAME: from any memory with zero counters every weakly fair execution of the main function terminates,
    nothing faulting, and every final state has the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_main m ρ)

/-! # The result array, and what each region finds in its windows when it is entered -/

/-- The result array ends at what the pairwise region's write-backs leave in it. -/
theorem W4_result (c : Dev nD) : W4 m ρ c (Proc.devRef .tc main_v7) = (dat2 (V3 m ρ) c).arrAt 7 cfg2.N :=
  W4_arr m ρ c 7

/-- The first projection is entered at the launch memory. -/
theorem V0_main_arg0 (c : Dev nD) : V0 m ρ c main_arg0 = m ((c : Thread nD τ).loc main_arg0) := rfl
theorem V0_main_arg2 (c : Dev nD) : V0 m ρ c main_arg2 = m ((c : Thread nD τ).loc main_arg2) := rfl

/-- The second projection finds its two operands as launched: the first projection bypasses them. -/
theorem V1_main_arg1 (c : Dev nD) : V1 m ρ c main_arg1 = m ((c : Thread nD τ).loc main_arg1) :=
  W1_of_ne m ρ c main_arg1 (by decide)
theorem V1_main_arg3 (c : Dev nD) : V1 m ρ c main_arg3 = m ((c : Thread nD τ).loc main_arg3) :=
  W1_of_ne m ρ c main_arg3 (by decide)

/-- The pairwise region finds the first projection's product as that region left it: the second projection bypasses
    it and no reshape writes it. -/
theorem V3_main_v0 (c : Dev nD) : V3 m ρ c main_v0 = (dat0 (V0 m ρ) c).arrAt 2 cfg0.N :=
  calc V3 m ρ c main_v0
    _ = W2 m ρ c (Proc.devRef .tc main_v0) := StableHlo.after_of_writes_sub hostOps2 (W2 m ρ c) hostOps2_writes (by decide)
    _ = W1 m ρ c (Proc.devRef .tc main_v0) := W2_of_ne m ρ c main_v0 (by decide)
    _ = (dat0 (V0 m ρ) c).arrAt 2 cfg0.N := W1_arr m ρ c 2

/-- It finds the second projection's product as that region left it: no reshape writes it. -/
theorem V3_main_v1 (c : Dev nD) : V3 m ρ c main_v1 = (dat1 (V1 m ρ) c).arrAt 2 cfg1.N :=
  calc V3 m ρ c main_v1
    _ = W2 m ρ c (Proc.devRef .tc main_v1) := StableHlo.after_of_writes_sub hostOps2 (W2 m ρ c) hostOps2_writes (by decide)
    _ = (dat1 (V1 m ρ) c).arrAt 2 cfg1.N := W2_arr m ρ c 2

/-- It finds the 512×256 array `main_arg5` as launched: nothing before the region writes it. -/
theorem V3_main_arg5 (c : Dev nD) : V3 m ρ c main_arg5 = m ((c : Thread nD τ).loc main_arg5) :=
  calc V3 m ρ c main_arg5
    _ = W2 m ρ c (Proc.devRef .tc main_arg5) := StableHlo.after_of_writes_sub hostOps2 (W2 m ρ c) hostOps2_writes (by decide)
    _ = W1 m ρ c (Proc.devRef .tc main_arg5) := W2_of_ne m ρ c main_arg5 (by decide)
    _ = m ((c : Thread nD τ).loc main_arg5) := W1_of_ne m ρ c main_arg5 (by decide)

/-- The reshapes read their operands as launched: neither projection touches them. -/
theorem ru_W2_main_arg4 (c : Dev nD) : W2 m ρ c (Proc.devRef .tc main_arg4) = m ((c : Thread nD τ).loc main_arg4) :=
  (W2_of_ne m ρ c main_arg4 (by decide)).trans (W1_of_ne m ρ c main_arg4 (by decide))
theorem ru_W2_main_arg6 (c : Dev nD) : W2 m ρ c (Proc.devRef .tc main_arg6) = m ((c : Thread nD τ).loc main_arg6) :=
  (W2_of_ne m ρ c main_arg6 (by decide)).trans (W1_of_ne m ρ c main_arg6 (by decide))
theorem ru_W2_main_arg7 (c : Dev nD) : W2 m ρ c (Proc.devRef .tc main_arg7) = m ((c : Thread nD τ).loc main_arg7) :=
  (W2_of_ne m ρ c main_arg7 (by decide)).trans (W1_of_ne m ρ c main_arg7 (by decide))
theorem ru_W2_main_arg8 (c : Dev nD) : W2 m ρ c (Proc.devRef .tc main_arg8) = m ((c : Thread nD τ).loc main_arg8) :=
  (W2_of_ne m ρ c main_arg8 (by decide)).trans (W1_of_ne m ρ c main_arg8 (by decide))

/-- On entry `main_v2` holds the 512-vector `main_arg4` as launched, read in row-major order at the shape 1×512. -/
theorem V3_main_v2 (c : Dev nD) : (V3 m ρ c main_v2 : S1x512.Idx → Elt F .f32)
    = shapeCast S1x512 (m ((c : Thread nD τ).loc main_arg4)) shapeCasts_S512_S1x512 := by
  show StableHlo.after hostOps2 (W2 m ρ c) (Proc.devRef .tc main_v2) = _
  after_results
  rw [ru_W2_main_arg4]
  rfl

/-- On entry `main_v3` holds the 256-vector `main_arg6` as launched, read in row-major order at the shape 1×256. -/
theorem V3_main_v3 (c : Dev nD) : (V3 m ρ c main_v3 : S1x256.Idx → Elt F .f32)
    = shapeCast S1x256 (m ((c : Thread nD τ).loc main_arg6)) shapeCasts_S256_S1x256 := by
  show StableHlo.after hostOps2 (W2 m ρ c) (Proc.devRef .tc main_v3) = _
  after_results
  rw [ru_W2_main_arg6]
  rfl

/-- On entry `main_v4` holds the one-element `main_arg8` as launched, read at the shape 1×1. -/
theorem V3_main_v4 (c : Dev nD) : (V3 m ρ c main_v4 : S1x1.Idx → Elt F .f32)
    = shapeCast S1x1 (m ((c : Thread nD τ).loc main_arg8)) shapeCasts_S1_S1x1 := by
  show StableHlo.after hostOps2 (W2 m ρ c) (Proc.devRef .tc main_v4) = _
  after_results
  rw [ru_W2_main_arg8]
  rfl

/-- On entry `main_v6` holds the 256×1 array `main_arg7` as launched, read at the shape 256 and then at 1×256 (two
    reshapes in a row, each keeping the row-major order). -/
theorem V3_main_v6 (c : Dev nD) : (V3 m ρ c main_v6 : S1x256.Idx → Elt F .f32)
    = shapeCast S1x256 (shapeCast S256 (m ((c : Thread nD τ).loc main_arg7)) shapeCasts_S256x1_S256) shapeCasts_S256_S1x256 := by
  show StableHlo.after hostOps2 (W2 m ρ c) (Proc.devRef .tc main_v6) = _
  after_results
  rw [ru_W2_main_arg7]
  rfl

end Cert.Kernel.Hand

end
-- ==== Proof.KernelIdeal.Proj.lean ====
/-
  The two projection regions of the program, each at the contents `V` its region is entered with:
  a grid of row blocks, every point multiplying its 256×576 row block by the whole 576×512 weight
  matrix into a zero accumulator and storing the 256×512 product block. The body keeps nothing
  between points, so each region's invariant is the scoped rest untouched.
-/
import proofs.«119945_j70798240907716_1_alg».proof.Proof.Gen.KernelIdeal.Launch
import proofs.«119945_j70798240907716_1_alg».proof.Proof.Gen.KernelIdeal.Skeleton
import proofs.«119945_j70798240907716_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Projection of the first operand (pallas_call 0: x · W, x the 2×1024×576 array, 8 row blocks of 256) -/

/-- Window `w`'s block at grid point `t`, read off its array at the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight matrix at every point, though it is fetched only once:
    its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S1x256x576 := Rect.unit (s := S1x256x576) ![0, 0, 0] S1x256x576.size inb_S1x256x576_S1x256x576_0_0_0
abbrev rw0 : Rect S576x512 := Rect.unit (s := S576x512) ![0, 0] S576x512.size inb_S576x512_S576x512_0_0
abbrev ro0 : Rect S1x256x512 := Rect.unit (s := S1x256x512) ![0, 0, 0] S1x256x512.size inb_S1x256x512_S1x256x512_0_0_0

/-- The output block after the body: the one whole-block store of the matrix product of the row block with the weights. -/
def out0_2 (x0 : Vec F S1x256x576 .f32) (x1 : Vec F S576x512 .f32) : Vec F S1x256x512 .f32 :=
  View.canon [⟨ro0, k0_pay1 (View.ld x0 rx0) (View.ld x1 rw0)⟩]

/-- The one store covers the whole output block. -/
theorem cover0_2 (p0 : Vec F S1x256x512 .f32) (y : S1x256x512.Idx) :
    ∃ pc ∈ ([⟨ro0, p0⟩] : List (View.Piece (Elt F) S1x256x512 .f32)), y ∈ pc.1.set :=
  View.cover_of_tiled [⟨ro0, p0⟩] S1x256x512.size (by rfl) y

set_option maxHeartbeats 1000000 in
/-- The projection body on whole staging buffers: the two inputs kept, the output block at the product. -/
theorem sound_kernel0 (c : Dev nD) (E : Set ℕ) (i : grid0.Coords) (arg2 : Memref sig .tc .vmem S1x256x576 .f32) (harg2 : arg2.IsWhole)
    (arg3 : Memref sig .tc .vmem S576x512 .f32) (harg3 : arg3.IsWhole) (arg4 : Memref sig .tc .vmem S1x256x512 .f32) (harg4 : arg4.IsWhole)
    (x0 : Vec F S1x256x576 .f32) (x1 : Vec F S576x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this projection at the entry contents `V`: inputs keep their blocks, the output block is the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the staged inputs hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # Projection of the second operand (pallas_call 1: x · W, x the 2×256×576 array, 2 row blocks of 256) -/

/-- Window `w`'s block at grid point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's staging buffer holds the whole weight matrix at every point, though it is fetched only once:
    its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rx1 : Rect S1x256x576 := Rect.unit (s := S1x256x576) ![0, 0, 0] S1x256x576.size inb_S1x256x576_S1x256x576_0_0_0
abbrev rw1 : Rect S576x512 := Rect.unit (s := S576x512) ![0, 0] S576x512.size inb_S576x512_S576x512_0_0
abbrev ro1 : Rect S1x256x512 := Rect.unit (s := S1x256x512) ![0, 0, 0] S1x256x512.size inb_S1x256x512_S1x256x512_0_0_0

/-- The output block after the body: the one whole-block store of the matrix product of the row block with the weights. -/
def out1_2 (x0 : Vec F S1x256x576 .f32) (x1 : Vec F S576x512 .f32) : Vec F S1x256x512 .f32 :=
  View.canon [⟨ro1, k1_pay1 (View.ld x0 rx1) (View.ld x1 rw1)⟩]

/-- The one store covers the whole output block. -/
theorem cover1_2 (p0 : Vec F S1x256x512 .f32) (y : S1x256x512.Idx) :
    ∃ pc ∈ ([⟨ro1, p0⟩] : List (View.Piece (Elt F) S1x256x512 .f32)), y ∈ pc.1.set :=
  View.cover_of_tiled [⟨ro1, p0⟩] S1x256x512.size (by rfl) y

set_option maxHeartbeats 1000000 in
/-- The projection body on whole staging buffers: the two inputs kept, the output block at the product. -/
theorem sound_kernel1 (c : Dev nD) (E : Set ℕ) (i : grid1.Coords) (arg2 : Memref sig .tc .vmem S1x256x576 .f32) (harg2 : arg2.IsWhole)
    (arg3 : Memref sig .tc .vmem S576x512 .f32) (harg3 : arg3.IsWhole) (arg4 : Memref sig .tc .vmem S1x256x512 .f32) (harg4 : arg4.IsWhole)
    (x0 : Vec F S1x256x576 .f32) (x1 : Vec F S576x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__proj_kernel i arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this projection at the entry contents `V`: inputs keep their blocks, the output block is the product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any grid point: the staged inputs hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.PairDefs.lean ====
/-
  The pairwise region (pallas_call 2), the part its three control cases share. The grid is
  (batch, row tile, column tile, hidden chunk) = 2 × 16 × 2 × 4, the hidden chunk innermost, so a
  point t is in hidden chunk t mod 4: chunk 0 resets the accumulator scratch, every chunk adds its
  partial product to it, chunk 3 also finishes the tile and stores the output block; at the other
  chunks the output window is idle.
-/
import proofs.«119945_j70798240907716_1_alg».proof.Proof.Gen.KernelIdeal.Launch
import proofs.«119945_j70798240907716_1_alg».proof.Proof.Gen.KernelIdeal.Skeleton
import proofs.«119945_j70798240907716_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions, in closed form over the grid -/

/-- The reset branch's condition: the hidden-chunk coordinate is 0. -/
abbrev cond2_0 (i : grid2.Coords) : Prop := (Scalar.cmpi .ne (Scalar.extui (Scalar.cmpi .eq (BitVec.ofNat 32 (i 3).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The finishing branch's condition: the hidden-chunk coordinate is 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_in : ∀ (w : Fin 8), w.val < 7 → ∀ t : Fin cfg2.N, cfg2.idle w (grid2.coords t) = false := by decide +kernel
/-- Away from the last hidden chunk the output window is idle and not written back. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
/-- At the last hidden chunk the output window is live. -/
theorem liveAt2_7 : ∀ t : Fin cfg2.N, cond2_1 (grid2.coords t) → cfg2.idle 7 (grid2.coords t) = false := by decide +kernel

/-! ## The memrefs the body is called with -/

abbrev VO2_7 : View sig .tc .vmem S1x64x128 .f32 := (Memref.whole cc2_stg7_0 : Memref sig .tc .vmem S1x64x128 .f32).view
abbrev ms2_0 (t : Fin cfg2.N) : Memref sig .tc .vmem S1x64x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64x128 .f32 := win2_7.stage (cfg2.slots t 7)
abbrev hs2_7 (t : Fin cfg2.N) : (ms2_7 t).IsWhole := hstage2_7 ((cfg2.slots t 7).cast nbuf2_7)
/-- The accumulator scratch, a whole scoped buffer of the kernel's own, and its view. -/
abbrev scM2 : Memref sig .tc .vmem S64x128x256 .f32 := Memref.whole cc2_scratch0
abbrev VS2 : View sig .tc .vmem S64x128x256 .f32 := scM2.view

/-- The scoped rest of this region with the accumulator scratch singled out as an owned memref. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ d, owns (c : Thread nD τ) scM2 fullShare d)) ∗ (∃ r, prngReg c r)) := by
  unfold Pipeline.ΦA; rw [scopedRest2_eq]; simp only [scM2, owns_whole]; try rfl

end Cert.KernelIdeal.Hand

end
-- ==== Proof.KernelIdeal.PairRunA.lean ====
/-
  The pairwise region's body, run whole in the control case where the hidden chunk is 0: the accumulator is reset to zero, then the chunk's partial product is added; the output block is left as found.
  The pieces the stores leave are found by the symbolic run itself.
-/
import proofs.«119945_j70798240907716_1_alg».proof.Proof.KernelIdeal.PairDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple in this case, with the pieces its stores leave in the accumulator scratch as the witness. -/
noncomputable def kernelRun2_A (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : cond2_0 i) (hc1 : ¬cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) :
    Σ' (L7 : List (View.Piece (Elt F) S1x64x128 .f32)), { LS : List (View.Piece (Elt F) S64x128x256 .f32) //
      ∀ (xi7 : Vec F S1x64x128 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare xi7 ∗ (∃ d, owns (c : Thread nD τ) arg12 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare xi7 ∗ (∃ f, arg12.view.loc (c : Thread nD τ) ↦[arg12.view.set]{fullShare} arg12.view.writes (Elt F) f LS)) -∗ K ⟨⟩))
          ⊢ wp frame (wpE (defs₀ (F := F)) Variants.none c none) E (cc2__pair_kernel i arg4 harg4 arg5 harg5 arg6 harg6 arg7 harg7 arg8 harg8 arg9 harg9 arg10 harg10 arg11 harg11 arg12 harg12) K } := by
  refine ⟨[], ?_, fun xi7 E K => ?run⟩
  case run =>
    simp only [cc2__pair_kernel_eq_skeleton]; unfold cc2__pair_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    iexists _; iexact HS

end Cert.KernelIdeal.Hand

end
-- ==== Proof.KernelIdeal.PairRunB.lean ====
/-
  The pairwise region's body, run whole in the control case where the hidden chunk is 1 or 2: the chunk's partial product is added to what the point before left in the accumulator; the output block is left as found.
  The pieces the stores leave are found by the symbolic run itself.
-/
import proofs.«119945_j70798240907716_1_alg».proof.Proof.KernelIdeal.PairRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple in this case, with the pieces its stores leave in the accumulator scratch as the witness. -/
noncomputable def kernelRun2_B (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : ¬cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) :
    Σ' (L7 : List (View.Piece (Elt F) S1x64x128 .f32)), { LS : List (View.Piece (Elt F) S64x128x256 .f32) //
      ∀ (xi7 : Vec F S1x64x128 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare xi7 ∗ owns (c : Thread nD τ) arg12 fullShare xs
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare xi7 ∗ (∃ f, arg12.view.loc (c : Thread nD τ) ↦[arg12.view.set]{fullShare} arg12.view.writes (Elt F) f LS)) -∗ K ⟨⟩))
          ⊢ wp frame (wpE (defs₀ (F := F)) Variants.none c none) E (cc2__pair_kernel i arg4 harg4 arg5 harg5 arg6 harg6 arg7 harg7 arg8 harg8 arg9 harg9 arg10 harg10 arg11 harg11 arg12 harg12) K } := by
  refine ⟨[], ?_, fun xi7 E K => ?run⟩
  case run =>
    simp only [cc2__pair_kernel_eq_skeleton]; unfold cc2__pair_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hfs
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    iexists _; iexact HS

end Cert.KernelIdeal.Hand

end
-- ==== Proof.KernelIdeal.PairRunC.lean ====
/-
  The pairwise region's body, run whole in the control case where the hidden chunk is 3: the last partial product is added, then the finished accumulator goes through bias, relu and the weighted lane sum into the output block.
  The pieces the stores leave are found by the symbolic run itself.
-/
import proofs.«119945_j70798240907716_1_alg».proof.Proof.KernelIdeal.PairRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple in this case, with the pieces its stores leave in the accumulator scratch and in the output block as the witness. -/
noncomputable def kernelRun2_C (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) :
    Σ' (L7 : List (View.Piece (Elt F) S1x64x128 .f32)), { LS : List (View.Piece (Elt F) S64x128x256 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ owns (c : Thread nD τ) arg12 fullShare xs
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f LS)) -∗ K ⟨⟩))
          ⊢ wp frame (wpE (defs₀ (F := F)) Variants.none c none) E (cc2__pair_kernel i arg4 harg4 arg5 harg5 arg6 harg6 arg7 harg7 arg8 harg8 arg9 harg9 arg10 harg10 arg11 harg11 arg12 harg12) K } := by
  refine ⟨?_, ?_, fun E K => ?run⟩
  case run =>
    simp only [cc2__pair_kernel_eq_skeleton]; unfold cc2__pair_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg12.eq_unread hfs
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    iexists _; iexact HS

end Cert.KernelIdeal.Hand

end
-- ==== Proof.KernelIdeal.Pair.lean ====
/-
  The pairwise region (pallas_call 2) assembled: what the accumulator scratch and the output block
  hold after each grid point (by recursion on the point: hidden chunk 0 starts the accumulator afresh,
  chunks 1 to 3 add to what the point before left, chunk 3 also produces the output block), the region's
  invariant carrying the scratch at those contents from point to point, the proof data, and the body
  obligation at every point by cases on the hidden chunk.
-/
import proofs.«119945_j70798240907716_1_alg».proof.Proof.KernelIdeal.PairRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator scratch after the body in case A: the stores' pieces read back. -/
def sout2_A (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : cond2_0 i) (hc1 : ¬cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) : Vec F S64x128x256 .f32 :=
  VS2.read (Elt F) (VS2.writes (Elt F) VS2.junk (kernelRun2_A c i arg4 harg4 arg5 harg5 arg6 harg6 arg7 harg7 arg8 harg8 arg9 harg9 arg10 harg10 arg11 harg11 arg12 harg12 hc0 hc1 x0 x1 x2 x3 x4 x5 x6).2.1)

/-- Those pieces cover the scratch: one of them is a store of the whole buffer. -/
theorem scover2_A (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : cond2_0 i) (hc1 : ¬cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (y : S64x128x256.Idx) :
    ∃ pc ∈ (kernelRun2_A c i arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_wholeMem (kernelRun2_A c i arg4 harg4 arg5 harg5 arg6 harg6 arg7 harg7 arg8 harg8 arg9 harg9 arg10 harg10 arg11 harg11 arg12 harg12 hc0 hc1 x0 x1 x2 x3 x4 x5 x6).2.1 (by sl_whole_mem) y

/-- The output block after the body in case A (nothing is stored there: a placeholder nothing reads, the window being idle). -/
def out2_A_7 (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : cond2_0 i) (hc1 : ¬cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) : Vec F S1x64x128 .f32 :=
  VO2_7.read (Elt F) (VO2_7.writes (Elt F) VO2_7.junk (kernelRun2_A c i arg4 harg4 arg5 harg5 arg6 harg6 arg7 harg7 arg8 harg8 arg9 harg9 arg10 harg10 arg11 harg11 arg12 harg12 hc0 hc1 x0 x1 x2 x3 x4 x5 x6).1)

/-- The accumulator scratch after the body in case B: the stores' pieces read back. -/
def sout2_B (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : ¬cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) : Vec F S64x128x256 .f32 :=
  VS2.read (Elt F) (VS2.writes (Elt F) VS2.junk (kernelRun2_B c i arg4 harg4 arg5 harg5 arg6 harg6 arg7 harg7 arg8 harg8 arg9 harg9 arg10 harg10 arg11 harg11 arg12 harg12 hc0 hc1 x0 x1 x2 x3 x4 x5 x6 xs).2.1)

/-- Those pieces cover the scratch: one of them is a store of the whole buffer. -/
theorem scover2_B (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : ¬cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) (y : S64x128x256.Idx) :
    ∃ pc ∈ (kernelRun2_B c i arg4 harg4 arg5 harg5 arg6 harg6 arg7 harg7 arg8 harg8 arg9 harg9 arg10 harg10 arg11 harg11 arg12 harg12 hc0 hc1 x0 x1 x2 x3 x4 x5 x6 xs).2.1, y ∈ pc.1.set :=
  View.cover_of_wholeMem (kernelRun2_B c i arg4 harg4 arg5 harg5 arg6 harg6 arg7 harg7 arg8 harg8 arg9 harg9 arg10 harg10 arg11 harg11 arg12 harg12 hc0 hc1 x0 x1 x2 x3 x4 x5 x6 xs).2.1 (by sl_whole_mem) y

/-- The output block after the body in case B (nothing is stored there: a placeholder nothing reads, the window being idle). -/
def out2_B_7 (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : ¬cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) : Vec F S1x64x128 .f32 :=
  VO2_7.read (Elt F) (VO2_7.writes (Elt F) VO2_7.junk (kernelRun2_B c i arg4 harg4 arg5 harg5 arg6 harg6 arg7 harg7 arg8 harg8 arg9 harg9 arg10 harg10 arg11 harg11 arg12 harg12 hc0 hc1 x0 x1 x2 x3 x4 x5 x6 xs).1)

/-- The accumulator scratch after the body in case C: the stores' pieces read back. -/
def sout2_C (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) : Vec F S64x128x256 .f32 :=
  VS2.read (Elt F) (VS2.writes (Elt F) VS2.junk (kernelRun2_C c i arg4 harg4 arg5 harg5 arg6 harg6 arg7 harg7 arg8 harg8 arg9 harg9 arg10 harg10 arg11 harg11 arg12 harg12 hc0 hc1 x0 x1 x2 x3 x4 x5 x6 xs).2.1)

/-- Those pieces cover the scratch: one of them is a store of the whole buffer. -/
theorem scover2_C (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) (y : S64x128x256.Idx) :
    ∃ pc ∈ (kernelRun2_C c i arg4 harg4 arg5 harg5 arg6 harg6 arg7 harg7 arg8 harg8 arg9 harg9 arg10 harg10 arg11 harg11 arg12 harg12 hc0 hc1 x0 x1 x2 x3 x4 x5 x6 xs).2.1, y ∈ pc.1.set :=
  View.cover_of_wholeMem (kernelRun2_C c i arg4 harg4 arg5 harg5 arg6 harg6 arg7 harg7 arg8 harg8 arg9 harg9 arg10 harg10 arg11 harg11 arg12 harg12 hc0 hc1 x0 x1 x2 x3 x4 x5 x6 xs).2.1 (by sl_whole_mem) y

/-- The output block after the body in case C: the one store's piece read back. -/
def out2_C_7 (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) : Vec F S1x64x128 .f32 :=
  VO2_7.read (Elt F) (VO2_7.writes (Elt F) VO2_7.junk (kernelRun2_C c i arg4 harg4 arg5 harg5 arg6 harg6 arg7 harg7 arg8 harg8 arg9 harg9 arg10 harg10 arg11 harg11 arg12 harg12 hc0 hc1 x0 x1 x2 x3 x4 x5 x6 xs).1)

/-- The finishing case's output piece covers the block. -/
theorem cover2_C_7 (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) (y : S1x64x128.Idx) :
    ∃ pc ∈ (kernelRun2_C c i arg4 harg4 arg5 harg5 arg6 harg6 arg7 harg7 arg8 harg8 arg9 harg9 arg10 harg10 arg11 harg11 arg12 harg12 hc0 hc1 x0 x1 x2 x3 x4 x5 x6 xs).1, y ∈ pc.1.set :=
  View.cover_of_wholeMem (kernelRun2_C c i arg4 harg4 arg5 harg5 arg6 harg6 arg7 harg7 arg8 harg8 arg9 harg9 arg10 harg10 arg11 harg11 arg12 harg12 hc0 hc1 x0 x1 x2 x3 x4 x5 x6 xs).1 (by sl_whole_mem) y

/-! ## What the output block and the accumulator hold after each point -/

/-- After the body at position `n`: (the output window's staging block, the accumulator scratch). -/
def outsAt2 (c : Dev nD) : (n : ℕ) → n < cfg2.N → Vec F S1x64x128 .f32 × Vec F S64x128x256 .f32
  | 0, hn => (fun (h0 : (0 : ℕ) % 4 = 0) (h1 : ¬(0 : ℕ) % 4 = 3) => (out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))) (Nat.zero_mod _) (by omega)
  | n + 1, hn =>
    if h0 : (n + 1) % 4 = 0 then
      if h1 : (n + 1) % 4 = 3 then False.elim (by omega)
      else (out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      if h1 : (n + 1) % 4 = 3 then (out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2)
      else (out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), sout2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped rest of this region with the accumulator scratch at `S`: the other regions' staging buffers at some
    contents, the scratch as `S` says, the generator register at some state. -/
def scopedAt (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ S) ∗ (∃ r, prngReg c r))

theorem PhiA2_scopedAt (c : Dev nD) : (Pipeline.ΦA spec2 c : sProp 𝕄) = scopedAt c (iprop(∃ d, owns (c : Thread nD τ) scM2 fullShare d)) := by
  rw [PhiA2_eq]; rfl

/-- Take the scratch's assertion out of the invariant, keeping the rest as a frame. -/
def scopedFrame (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r))

theorem scopedAt_split (c : Dev nD) (S : sProp 𝕄) : scopedAt c S ⊢ iprop(S ∗ scopedFrame c) := by
  unfold scopedAt scopedFrame
  iintro ⟨⟨H1, H2, H3, H4, H5, H6, H7, H8, H9, H10, HS⟩, Hg⟩
  isplitl [HS]; · iexact HS
  isplitl [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact Hg

theorem scopedAt_join (c : Dev nD) (S : sProp 𝕄) : iprop(S ∗ scopedFrame c) ⊢ scopedAt c S := by
  unfold scopedAt scopedFrame
  iintro ⟨HS, ⟨H1, H2, H3, H4, H5, H6, H7, H8, H9, H10⟩, Hg⟩
  isplitl [H1 H2 H3 H4 H5 H6 H7 H8 H9 H10 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iexact Hg

/-- The invariant before position `n`: before the first point the scratch holds anything; afterwards what the
    point before left in it. -/
def PhiS2 (c : Dev nD) : (n : ℕ) → n ≤ cfg2.N → sProp 𝕄
  | 0, _ => Pipeline.ΦA spec2 c
  | n + 1, hn => scopedAt c (owns (c : Thread nD τ) scM2 fullShare ((outsAt2 V c n hn).2))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = scopedAt c (owns (c : Thread nD τ) scM2 fullShare ((outsAt2 V c n hn).2)) := rfl

theorem PhiS2_pos (c : Dev nD) (n : ℕ) (h : n ≤ cfg2.N) (hz : n ≠ 0) :
    PhiS2 V c n h = scopedAt c (owns (c : Thread nD τ) scM2 fullShare ((outsAt2 V c (n - 1) (by omega)).2)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

theorem leaves2_in (c : Dev nD) (t : Fin cfg2.N) (w : Fin 8) (hw : w.val < 7) :
    (dat2 V c).leavesExact w t = owns (c : Thread nD τ) ((cfg2.win w).stage (cfg2.slots t w)) fullShare ((dat2 V c).after w t) := by
  unfold Dat.leavesExact; rw [liveAt2_in w hw t]

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [leaves2_in V c t 0 (by decide), leaves2_in V c t 1 (by decide), leaves2_in V c t 2 (by decide), leaves2_in V c t 3 (by decide),
    leaves2_in V c t 4 (by decide), leaves2_in V c t 5 (by decide), leaves2_in V c t 6 (by decide),
    after2_0, after2_1, after2_2, after2_3, after2_4, after2_5, after2_6]
  have hN : t.val < 256 := lt_of_lt_of_eq t.isLt (show cfg2.N = 256 from N_2)
  by_cases h0 : t.val % 4 = 0
  · by_cases h1 : t.val % 4 = 3
    · exfalso; omega
    · rw [Dat.leavesExact_idle (dat2 V c) 7 t (idleAt2_7 t (fun h => h1 ((hcond2_1 t).mp h))) (noFlush2_7 t (fun h => h1 ((hcond2_1 t).mp h)))]
      rw [outsAt2_A V c t h0 h1]
      unfold sout2_A; (try dsimp only)
      have hΦ : (dat2 V c).Φ t.castSucc ⊢ scopedAt c (iprop(∃ d, owns (c : Thread nD τ) scM2 fullShare d)) := by
        by_cases hz : t.val = 0
        · rw [PhiS2_castSucc V c t, PhiS2_zero V c _ _ hz, PhiA2_scopedAt]
        · rw [PhiS2_castSucc V c t, PhiS2_pos V c _ _ hz]
          refine (scopedAt_split c _).trans (.trans ?_ (scopedAt_join c _))
          iintro ⟨HS, Hf⟩
          isplitl [HS]; · iexists _; iexact HS
          iexact Hf
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := hΦ $$ HΦ
      ihave HΦ'' := (scopedAt_split c _) $$ HΦ'
      icases HΦ'' with ⟨HS, Hf⟩
      iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hf]
      · iapply (scopedAt_join c _)
        isplitl [HS]
        · unfold owns; iexists _; isplitr
          swap; · iexact HS
          ipureintro; exact View.read_writes_of_cover _ _ _ _ _ (scover2_A _ _ _ _ _ _ _ _ _ _ _ _ _ _ _ _ _ _ _ _ _ _ _ _ _ _ _ _ _)
        iexact Hf
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 4 = 3
    · rw [show (dat2 V c).leavesExact 7 t = owns (c : Thread nD τ) (ms2_7 t) fullShare ((dat2 V c).after 7 t) from by
        unfold Dat.leavesExact; rw [liveAt2_7 t ((hcond2_1 t).mpr h1)], after2_7]
      rw [outsAt2_C V c t h0 h1]
      unfold out2_C_7 sout2_C; (try dsimp only)
      rw [PhiS2_castSucc V c t, PhiS2_pos V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ'' := (scopedAt_split c _) $$ HΦ
      icases HΦ'' with ⟨HS, Hf⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hf]
      · iapply (scopedAt_join c _)
        isplitl [HS]
        · unfold owns; iexists _; isplitr
          swap; · iexact HS
          ipureintro; exact View.read_writes_of_cover _ _ _ _ _ (scover2_C _ _ _ _ _ _ _ _ _ _ _ _ _ _ _ _ _ _ _ _ _ _ _ _ _ _ _ _ _ _)
        iexact Hf
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover2_C_7 _ _ _ _ _ _ _ _ _ _ _ _ _ _ _ _ _ _ _ _ _ _ _ _ _ _ _ _ _ _)
    · rw [Dat.leavesExact_idle (dat2 V c) 7 t (idleAt2_7 t (fun h => h1 ((hcond2_1 t).mp h))) (noFlush2_7 t (fun h => h1 ((hcond2_1 t).mp h)))]
      rw [outsAt2_B V c t h0 h1]
      unfold sout2_B; (try dsimp only)
      rw [PhiS2_castSucc V c t, PhiS2_pos V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ'' := (scopedAt_split c _) $$ HΦ
      icases HΦ'' with ⟨HS, Hf⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hf]
      · iapply (scopedAt_join c _)
        isplitl [HS]
        · unfold owns; iexists _; isplitr
          swap; · iexact HS
          ipureintro; exact View.read_writes_of_cover _ _ _ _ _ (scover2_B _ _ _ _ _ _ _ _ _ _ _ _ _ _ _ _ _ _ _ _ _ _ _ _ _ _ _ _ _ _)
        iexact Hf
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation2 (c : Dev nD) : BodyObligation (dat2 (F := F) V c) (defs₀ (F := F)) Variants.none () Set.univ := fun t => by
  rw [bigSep_W2, bigSep_W2]
  exact sound_body2 V c t

/-- Entering the region, the scoped rest as the launch hands it is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back, the accumulator's contents forgotten. -/
theorem hout2 (c : Dev nD) : (dat2 V c).Φ (Fin.last cfg2.N) ⊢ Pipeline.ΦA spec2 c := by
  have ht : (Fin.last cfg2.N).val ≠ 0 := by rw [Fin.val_last]; have : cfg2.N = 256 := N_2; omega
  rw [show (dat2 V c).Φ (Fin.last cfg2.N) = PhiS2 V c (Fin.last cfg2.N).val (Nat.le_of_lt_succ (Fin.last cfg2.N).isLt) from rfl,
    PhiS2_pos V c _ _ ht, PhiA2_scopedAt]
  refine (scopedAt_split c _).trans (.trans ?_ (scopedAt_join c _))
  iintro ⟨HS, Hf⟩
  isplitl [HS]; · iexists _; iexact HS
  iexact Hf

end Cert.KernelIdeal.Hand

end
-- ==== Proof.KernelIdeal.Run.lean ====
/-
  The run of the whole program: the contents of every unscoped buffer at each boundary between two
  items of the main function, folded from the launch memory (after each projection, its product array at
  what the write-backs leave; after the five reshapes, their results; after the pairwise region, its result
  array), the three regions and the host stretch as segments chained over those contents, and the launch
  over them. From it: the frame (every argument array ends as launched), the result array's final contents,
  and what the pairwise region finds in each of its input windows when it is entered.
-/
import proofs.«119945_j70798240907716_1_alg».proof.Proof.KernelIdeal.Proj
import proofs.«119945_j70798240907716_1_alg».proof.Proof.KernelIdeal.Pair
import proofs.«119945_j70798240907716_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of the main function: a fold from the launch memory -/

/-- Core `c`'s buffers at launch (region 0 is entered from them). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After region 0: its windows' arrays at what the pipeline leaves (an input as entered, the output with every
    write-back folded in), every other buffer as the region was entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
/-- At the region's exit each of its arrays holds what the pipeline leaves, every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its windows' arrays at what the pipeline leaves (an input as entered, the output with every
    write-back folded in), every other buffer as the region was entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
/-- At the region's exit each of its arrays holds what the pipeline leaves, every other buffer what it held at entry. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the five reshapes (the pairwise region is entered from these contents). -/
abbrev W3 : Dev nD → Valuation τ sig (Elt F) := fun c => StableHlo.after hostOps2 (W2 m ρ c)
/-- The same read at the TensorCore's references. -/
abbrev V3 : (c : Dev nD) → (b : Ref sig .tc) → Buf (Elt F) ((c : Thread nD τ).loc b) := fun c b => W3 m ρ c b

/-- After region 2: its windows' arrays at what the pipeline leaves (an input as entered, the output with every
    write-back folded in), every other buffer as the region was entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
/-- At the region's exit each of its arrays holds what the pipeline leaves, every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! # The proof data of the three pipelines and the thread state -/

/-- Every pipeline's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it ends at
    those references holding what the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! # The regions as segments -/

-- the pinned configuration and the printed one agree only after unfolding plain definitions inside a type
set_option backward.isDefEq.respectTransparency.types false in
/-- Region 0 over the thread state: entered from every unscoped buffer at `W0`, left at `W1`. Its arrays are
    split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration and the printed one agree only after unfolding plain definitions inside a type
set_option backward.isDefEq.respectTransparency.types false in
/-- Region 1 over the thread state: entered from every unscoped buffer at `W1`, left at `W2`. Its arrays are
    split out of the unscoped buffers and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration and the printed one agree only after unfolding plain definitions inside a type
set_option backward.isDefEq.respectTransparency.types false in
/-- Region 2 over the thread state: entered from every unscoped buffer at `W3`, left at `W4`. Its arrays are
    split out of the unscoped buffers and put back at the exit contents; the generator register goes into the
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V3 m ρ) c)
    unfold Pipeline.ΦA
    iintro ⟨Hp, -, Hr⟩
    isplitl [Hr]; · iexact Hr
    iexact Hp
  hout c := by
    refine .trans (hout2 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The main function as segments, and the launch -/

/-- The four segments in order: the two projections, the five reshapes, the pairwise region. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ) ]
/-- The main function is the run of the segments. -/
theorem main_run (c : Dev nD) : main (F := F) c = Pipeline.Seg.run (segs m ρ) := (main_chain c).trans (by chain_rfl)

set_option backward.isDefEq.respectTransparency.types false in
/-- From any memory with zero counters every weakly fair execution of the main function terminates, nothing
    faulting, and in every final state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! # The arguments end as launched

No reshape writes an argument and a region keeps what it reads through an input window and bypasses the rest, so the
fold at an argument's buffer walks back to the launch memory. -/

/-- `main_arg0` ends as launched: the first projection reads it through its row-block window; nothing writes it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps2 (W2 m ρ c) hostOps2_writes (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- `main_arg1` ends as launched: the second projection reads it through its row-block window; nothing writes it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps2 (W2 m ρ c) hostOps2_writes (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

/-- `main_arg2` ends as launched: the first projection reads it through its weight window; nothing writes it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps2 (W2 m ρ c) hostOps2_writes (by decide)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

/-- `main_arg3` ends as launched: the second projection reads it through its weight window; nothing writes it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps2 (W2 m ρ c) hostOps2_writes (by decide)
    _ = W1 m ρ c (Proc.devRef .tc main_arg3) := (W2_arr m ρ c 1).trans (((dat1 (V1 m ρ) c).arrAt_in 1 rfl _).trans (A_eq1 (V1 m ρ) c 1))
    _ = W0 m ρ c (Proc.devRef .tc main_arg3) := W1_of_ne m ρ c main_arg3 (by decide)
    _ = m ((c : Thread nD τ).loc main_arg3) := rfl

/-- `main_arg4` ends as launched: only a reshape reads it; nothing writes it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps2 (W2 m ρ c) hostOps2_writes (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- `main_arg5` ends as launched: the pairwise region reads it through an input window; nothing writes it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 3).trans (((dat2 (V3 m ρ) c).arrAt_in 3 rfl _).trans (A_eq2 (V3 m ρ) c 3))
    _ = W2 m ρ c (Proc.devRef .tc main_arg5) := StableHlo.after_of_writes_sub hostOps2 (W2 m ρ c) hostOps2_writes (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-- `main_arg6` ends as launched: only a reshape reads it; nothing writes it. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps2 (W2 m ρ c) hostOps2_writes (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl

/-- `main_arg7` ends as launched: only a reshape reads it; nothing writes it. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps2 (W2 m ρ c) hostOps2_writes (by decide)
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl

/-- `main_arg8` ends as launched: only a reshape reads it; nothing writes it. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps2 (W2 m ρ c) hostOps2_writes (by decide)
    _ = W1 m ρ c (Proc.devRef .tc main_arg8) := W2_of_ne m ρ c main_arg8 (by decide)
    _ = W0 m ρ c (Proc.devRef .tc main_arg8) := W1_of_ne m ρ c main_arg8 (by decide)
    _ = m ((c : Thread nD τ).loc main_arg8) := rfl

/-- THE FRAME: from any memory with zero counters every weakly fair execution of the main function terminates,
    nothing faulting, and every final state has the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_main m ρ)

/-! # The result array, and what each region finds in its windows when it is entered -/

/-- The result array ends at what the pairwise region's write-backs leave in it. -/
theorem W4_result (c : Dev nD) : W4 m ρ c (Proc.devRef .tc main_v7) = (dat2 (V3 m ρ) c).arrAt 7 cfg2.N :=
  W4_arr m ρ c 7

/-- The first projection is entered at the launch memory. -/
theorem V0_main_arg0 (c : Dev nD) : V0 m ρ c main_arg0 = m ((c : Thread nD τ).loc main_arg0) := rfl
theorem V0_main_arg2 (c : Dev nD) : V0 m ρ c main_arg2 = m ((c : Thread nD τ).loc main_arg2) := rfl

/-- The second projection finds its two operands as launched: the first projection bypasses them. -/
theorem V1_main_arg1 (c : Dev nD) : V1 m ρ c main_arg1 = m ((c : Thread nD τ).loc main_arg1) :=
  W1_of_ne m ρ c main_arg1 (by decide)
theorem V1_main_arg3 (c : Dev nD) : V1 m ρ c main_arg3 = m ((c : Thread nD τ).loc main_arg3) :=
  W1_of_ne m ρ c main_arg3 (by decide)

/-- The pairwise region finds the first projection's product as that region left it: the second projection bypasses
    it and no reshape writes it. -/
theorem V3_main_v0 (c : Dev nD) : V3 m ρ c main_v0 = (dat0 (V0 m ρ) c).arrAt 2 cfg0.N :=
  calc V3 m ρ c main_v0
    _ = W2 m ρ c (Proc.devRef .tc main_v0) := StableHlo.after_of_writes_sub hostOps2 (W2 m ρ c) hostOps2_writes (by decide)
    _ = W1 m ρ c (Proc.devRef .tc main_v0) := W2_of_ne m ρ c main_v0 (by decide)
    _ = (dat0 (V0 m ρ) c).arrAt 2 cfg0.N := W1_arr m ρ c 2

/-- It finds the second projection's product as that region left it: no reshape writes it. -/
theorem V3_main_v1 (c : Dev nD) : V3 m ρ c main_v1 = (dat1 (V1 m ρ) c).arrAt 2 cfg1.N :=
  calc V3 m ρ c main_v1
    _ = W2 m ρ c (Proc.devRef .tc main_v1) := StableHlo.after_of_writes_sub hostOps2 (W2 m ρ c) hostOps2_writes (by decide)
    _ = (dat1 (V1 m ρ) c).arrAt 2 cfg1.N := W2_arr m ρ c 2

/-- It finds the 512×256 array `main_arg5` as launched: nothing before the region writes it. -/
theorem V3_main_arg5 (c : Dev nD) : V3 m ρ c main_arg5 = m ((c : Thread nD τ).loc main_arg5) :=
  calc V3 m ρ c main_arg5
    _ = W2 m ρ c (Proc.devRef .tc main_arg5) := StableHlo.after_of_writes_sub hostOps2 (W2 m ρ c) hostOps2_writes (by decide)
    _ = W1 m ρ c (Proc.devRef .tc main_arg5) := W2_of_ne m ρ c main_arg5 (by decide)
    _ = m ((c : Thread nD τ).loc main_arg5) := W1_of_ne m ρ c main_arg5 (by decide)

/-- The reshapes read their operands as launched: neither projection touches them. -/
theorem ru_W2_main_arg4 (c : Dev nD) : W2 m ρ c (Proc.devRef .tc main_arg4) = m ((c : Thread nD τ).loc main_arg4) :=
  (W2_of_ne m ρ c main_arg4 (by decide)).trans (W1_of_ne m ρ c main_arg4 (by decide))
theorem ru_W2_main_arg6 (c : Dev nD) : W2 m ρ c (Proc.devRef .tc main_arg6) = m ((c : Thread nD τ).loc main_arg6) :=
  (W2_of_ne m ρ c main_arg6 (by decide)).trans (W1_of_ne m ρ c main_arg6 (by decide))
theorem ru_W2_main_arg7 (c : Dev nD) : W2 m ρ c (Proc.devRef .tc main_arg7) = m ((c : Thread nD τ).loc main_arg7) :=
  (W2_of_ne m ρ c main_arg7 (by decide)).trans (W1_of_ne m ρ c main_arg7 (by decide))
theorem ru_W2_main_arg8 (c : Dev nD) : W2 m ρ c (Proc.devRef .tc main_arg8) = m ((c : Thread nD τ).loc main_arg8) :=
  (W2_of_ne m ρ c main_arg8 (by decide)).trans (W1_of_ne m ρ c main_arg8 (by decide))

/-- On entry `main_v2` holds the 512-vector `main_arg4` as launched, read in row-major order at the shape 1×512. -/
theorem V3_main_v2 (c : Dev nD) : (V3 m ρ c main_v2 : S1x512.Idx → Elt F .f32)
    = shapeCast S1x512 (m ((c : Thread nD τ).loc main_arg4)) shapeCasts_S512_S1x512 := by
  show StableHlo.after hostOps2 (W2 m ρ c) (Proc.devRef .tc main_v2) = _
  after_results
  rw [ru_W2_main_arg4]
  rfl

/-- On entry `main_v3` holds the 256-vector `main_arg6` as launched, read in row-major order at the shape 1×256. -/
theorem V3_main_v3 (c : Dev nD) : (V3 m ρ c main_v3 : S1x256.Idx → Elt F .f32)
    = shapeCast S1x256 (m ((c : Thread nD τ).loc main_arg6)) shapeCasts_S256_S1x256 := by
  show StableHlo.after hostOps2 (W2 m ρ c) (Proc.devRef .tc main_v3) = _
  after_results
  rw [ru_W2_main_arg6]
  rfl

/-- On entry `main_v4` holds the one-element `main_arg8` as launched, read at the shape 1×1. -/
theorem V3_main_v4 (c : Dev nD) : (V3 m ρ c main_v4 : S1x1.Idx → Elt F .f32)
    = shapeCast S1x1 (m ((c : Thread nD τ).loc main_arg8)) shapeCasts_S1_S1x1 := by
  show StableHlo.after hostOps2 (W2 m ρ c) (Proc.devRef .tc main_v4) = _
  after_results
  rw [ru_W2_main_arg8]
  rfl

/-- On entry `main_v6` holds the 256×1 array `main_arg7` as launched, read at the shape 256 and then at 1×256 (two
    reshapes in a row, each keeping the row-major order). -/
theorem V3_main_v6 (c : Dev nD) : (V3 m ρ c main_v6 : S1x256.Idx → Elt F .f32)
    = shapeCast S1x256 (shapeCast S256 (m ((c : Thread nD τ).loc main_arg7)) shapeCasts_S256x1_S256) shapeCasts_S256_S1x256 := by
  show StableHlo.after hostOps2 (W2 m ρ c) (Proc.devRef .tc main_v6) = _
  after_results
  rw [ru_W2_main_arg7]
  rfl

end Cert.KernelIdeal.Hand

end
-- ==== Proof.Spec.lean ====
/-
  The mathematics both programs compute, over the extended reals, with every array given by its
  entries as a function of its coordinates.

  For a batch b, a row n of the first operand and a row m of the second:
    a(b,n,h) = Σ_d A(b,n,d) · W1a(d,h),   b'(b,m,h) = Σ_d B(b,m,d) · W1b(d,h)        (the two projections)
    hid(b,n,m,h) = max (a(b,n,h) + b'(b,m,h) + b1(h)) 0                                (first layer, relu)
    acc(b,n,m,k) = Σ_h hid(b,n,m,h) · W2(h,k)                                          (second layer, before bias)
    out(b,n,m)   = (Σ_k max (acc(b,n,m,k) + b2(k)) 0 · w3(k)) + b3                     (relu, third layer)
-/
import Mathlib.Data.EReal.Basic
import Mathlib.Algebra.BigOperators.Fin

noncomputable section

namespace Cert.Spec

open scoped BigOperators

/-- One entry of a batched matrix product: row (b, r) of x against column h of w, 576 terms. -/
def projAt {n : Nat} (x : Fin 2 → Fin n → Fin 576 → EReal) (w : Fin 576 → Fin 512 → EReal)
    (b : Fin 2) (r : Fin n) (h : Fin 512) : EReal :=
  ∑ d : Fin 576, x b r d * w d h

/-- The first hidden layer at a pair (n, m): the two projected rows and the bias added, then relu. -/
def hidAt (af : Fin 2 → Fin 1024 → Fin 512 → EReal) (bf : Fin 2 → Fin 256 → Fin 512 → EReal) (b1f : Fin 512 → EReal)
    (b : Fin 2) (n : Fin 1024) (mm : Fin 256) (h : Fin 512) : EReal :=
  max (af b n h + bf b mm h + b1f h) 0

/-- The second layer before its bias: the hidden row against column k of W2, 512 terms. -/
def accAt (af : Fin 2 → Fin 1024 → Fin 512 → EReal) (bf : Fin 2 → Fin 256 → Fin 512 → EReal) (b1f : Fin 512 → EReal)
    (W2f : Fin 512 → Fin 256 → EReal) (b : Fin 2) (n : Fin 1024) (mm : Fin 256) (k : Fin 256) : EReal :=
  ∑ h : Fin 512, hidAt af bf b1f b n mm h * W2f h k

/-- The result at a pair (n, m): bias, relu, the weighted lane sum against w3, the last bias. -/
def outAt (af : Fin 2 → Fin 1024 → Fin 512 → EReal) (bf : Fin 2 → Fin 256 → Fin 512 → EReal) (b1f : Fin 512 → EReal)
    (W2f : Fin 512 → Fin 256 → EReal) (b2f : Fin 256 → EReal) (w3f : Fin 256 → EReal) (b3v : EReal)
    (b : Fin 2) (n : Fin 1024) (mm : Fin 256) : EReal :=
  (∑ k : Fin 256, max (accAt af bf b1f W2f b n mm k + b2f k) 0 * w3f k) + b3v

end Cert.Spec

end
-- ==== Proof.KernelIdeal.ProjValue.lean ====
/-
  The two projections read entry by entry. At a grid point the body stores the product of its 256×576 row block
  with the whole 576×512 weight matrix; entry (p, q) of that product is the 576-term sum of the row's entries
  times the weight column's. The row blocks tile the rows of the operand (block t of the first projection is
  rows 256·(t mod 4) … of batch t / 4; block t of the second is batch t), so after the last point entry (b, r, h)
  of the output array is the sum over d of x(b, r, d) · w(d, h).
-/
import proofs.«119945_j70798240907716_1_alg».proof.Proof.KernelIdeal.Proj
import proofs.«119945_j70798240907716_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-! # The product of a row block with the weights, at an entry -/

/-- The left operand's row coordinate is the result's row. -/
theorem lhs_proj_0 (i : S256x512.Idx) (q : dot_S256x576_S576x512_S256x512_1_0_0_1_n_n.contr.Idx) :
    (dot_S256x576_S576x512_S256x512_1_0_0_1_n_n.lhsIdx i q 0).val = (i 0).val := by
  unfold DotDims.lhsIdx
  rw [dif_neg (show ¬(0 : Fin S256x576.rank) ∈ dot_S256x576_S576x512_S256x512_1_0_0_1_n_n.lhsBatch by decide), dif_pos (show (0 : Fin S256x576.rank) ∈ dot_S256x576_S576x512_S256x512_1_0_0_1_n_n.lhsNonContracting by decide)]
  rfl
/-- The left operand's column coordinate is the summation index. -/
theorem lhs_proj_1 (i : S256x512.Idx) (q : dot_S256x576_S576x512_S256x512_1_0_0_1_n_n.contr.Idx) :
    (dot_S256x576_S576x512_S256x512_1_0_0_1_n_n.lhsIdx i q 1).val = (q ⟨0, by decide⟩).val :=
  dot_S256x576_S576x512_S256x512_1_0_0_1_n_n.lhsIdx_val_of_single rfl i q
/-- The right operand's row coordinate is the summation index. -/
theorem rhs_proj_0 (i : S256x512.Idx) (q : dot_S256x576_S576x512_S256x512_1_0_0_1_n_n.contr.Idx) :
    (dot_S256x576_S576x512_S256x512_1_0_0_1_n_n.rhsIdx i q 0).val = (q ⟨0, by decide⟩).val :=
  dot_S256x576_S576x512_S256x512_1_0_0_1_n_n.rhsIdx_val_of_single rfl i q
/-- The right operand's column coordinate is the result's column. -/
theorem rhs_proj_1 (i : S256x512.Idx) (q : dot_S256x576_S576x512_S256x512_1_0_0_1_n_n.contr.Idx) :
    (dot_S256x576_S576x512_S256x512_1_0_0_1_n_n.rhsIdx i q 1).val = (i 1).val := by
  unfold DotDims.rhsIdx
  rw [dif_neg (show ¬(1 : Fin S576x512.rank) ∈ dot_S256x576_S576x512_S256x512_1_0_0_1_n_n.rhsBatch by decide), dif_pos (show (1 : Fin S576x512.rank) ∈ dot_S256x576_S576x512_S256x512_1_0_0_1_n_n.rhsNonContracting by decide)]
  rfl

/-- A 256×576 by 576×512 product into a zero accumulator: entry (p, q) is the sum over k of l(p, k) · r(k, q). -/
theorem matmul_proj_apply {φ₁ φ₂ : FTy} (l : FVec Ideal S256x576 φ₁) (r : FVec Ideal S576x512 φ₂) (p : Fin 256) (q : Fin 512) :
    matmul dot_S256x576_S576x512_S256x512_1_0_0_1_n_n none l r (constant (F := Ideal) S256x512 .f32 0x00000000#32) (ix2 p q)
      = ∑ k : Fin 576, l (ix2 p k) * r (ix2 k q) := by
  simp only [matmul]
  rw [Ideal.matmul_constant_zero_apply, ← Equiv.sum_comp (contrEquiv1 dot_S256x576_S576x512_S256x512_1_0_0_1_n_n 576 rfl rfl).symm]
  refine Finset.sum_congr rfl fun k _ => ?_
  have hk := contrEquiv1_symm_val dot_S256x576_S576x512_S256x512_1_0_0_1_n_n 576 rfl rfl k
  have el : dot_S256x576_S576x512_S256x512_1_0_0_1_n_n.lhsIdx (ix2 p q) ((contrEquiv1 dot_S256x576_S576x512_S256x512_1_0_0_1_n_n 576 rfl rfl).symm k) = ix2 p k := funext fun a => Fin.ext (by
    match a with
    | ⟨0, _⟩ => exact lhs_proj_0 _ _
    | ⟨1, _⟩ => exact (lhs_proj_1 _ _).trans hk)
  have er : dot_S256x576_S576x512_S256x512_1_0_0_1_n_n.rhsIdx (ix2 p q) ((contrEquiv1 dot_S256x576_S576x512_S256x512_1_0_0_1_n_n 576 rfl rfl).symm k) = ix2 k q := funext fun a => Fin.ext (by
    match a with
    | ⟨0, _⟩ => exact (rhs_proj_0 _ _).trans hk
    | ⟨1, _⟩ => exact rhs_proj_1 _ _)
  rw [el, er]

/-- The body's stored value at entry (u, p, q) of its block: row p of the row block against column q of the weights. -/
theorem proj_pay0_apply (x0 : Vec Ideal S1x256x576 .f32) (x1 : Vec Ideal S576x512 .f32) (u : Fin 1) (p : Fin 256) (q : Fin 512) :
    k0_pay1 (F := Ideal) x0 x1 (ix3 u p q) = ∑ k : Fin 576, x0 (ix3 (0 : Fin 1) p k) * x1 (ix2 k q) := by
  unfold k0_pay1
  rw [shapeCast_ab_1ab_apply, matmul_proj_apply]
  refine Finset.sum_congr rfl fun k _ => ?_
  rw [truncf_apply, truncf_apply, shapeCast_1ab_ab_apply]

/-- The same for the second projection's body: the same product of a row block with the weights. -/
theorem proj_pay1_apply (x0 : Vec Ideal S1x256x576 .f32) (x1 : Vec Ideal S576x512 .f32) (u : Fin 1) (p : Fin 256) (q : Fin 512) :
    k1_pay1 (F := Ideal) x0 x1 (ix3 u p q) = ∑ k : Fin 576, x0 (ix3 (0 : Fin 1) p k) * x1 (ix2 k q) := by
  unfold k1_pay1
  rw [shapeCast_ab_1ab_apply, matmul_proj_apply]
  refine Finset.sum_congr rfl fun k _ => ?_
  rw [truncf_apply, truncf_apply, shapeCast_1ab_ab_apply]

theorem proj_hz3 : (![0, 0, 0] : Fin 3 → Nat) = fun _ => 0 := funext fun a => by fin_cases a <;> rfl
theorem proj_hz2 : (![0, 0] : Fin 2 → Nat) = fun _ => 0 := funext fun a => by fin_cases a <;> rfl

variable (V : (c : Dev nD) → (b : Ref sig .tc) → Buf (Elt Ideal) ((c : Thread nD τ).loc b))

/-! # Projection 0: from the row blocks to the array -/

/-- The projected array as one function of the operand and the weights: entry (b, r, h) is the sum over d of x(b, r, d) · w(d, h). -/
def projArr0 (x : S2x1024x576.Idx → EReal) (w : S576x512.Idx → EReal) : S2x1024x512.Idx → EReal :=
  fun i => Cert.Spec.projAt (fun b r d => x (ix3 b r d)) (fun d h => w (ix2 d h)) (i 0) (i 1) (i 2)

/-- The output block after the body, at an entry: row (y 1) of the row block against column (y 2) of the weights. -/
theorem out0_at (x0 : Vec Ideal S1x256x576 .f32) (x1 : Vec Ideal S576x512 .f32) (y : S1x256x512.Idx) :
    out0_2 (F := Ideal) x0 x1 y = ∑ k : Fin 576, x0 (ix3 (0 : Fin 1) (y 1) k) * x1 (ix2 k (y 2)) := by
  unfold out0_2
  rw [View.canon_unit_zero proj_hz3]
  simp only [View.ld_unit_zero (S := S1x256x576) proj_hz3, View.ld_unit_zero (S := S576x512) proj_hz2]
  obtain ⟨u, p, q, rfl⟩ : ∃ (u : Fin 1) (p : Fin 256) (q : Fin 512), y = ix3 u p q := ⟨y 0, y 1, y 2, eq_ix3 y⟩
  exact proj_pay0_apply x0 x1 u p q

/-- The block indices over the grid: the row window and the output window move together, batch by batch and row
    block by row block; the weight window stays at the whole matrix. -/
theorem idx_facts0 : ∀ t : Fin cfg0.N,
      win0_0.index t (0 : Fin 3) = win0_2.index t (0 : Fin 3)
    ∧ win0_0.index t (1 : Fin 3) = win0_2.index t (1 : Fin 3)
    ∧ win0_0.index t (2 : Fin 3) = 0
    ∧ win0_2.index t (2 : Fin 3) = 0
    ∧ win0_1.index t (0 : Fin 2) = 0
    ∧ win0_1.index t (1 : Fin 2) = 0
    ∧ win0_2.index t (0 : Fin 3) = t.val / 4
    ∧ win0_2.index t (1 : Fin 3) = t.val % 4 :=
  (by decide +kernel : ∀ t : Fin grid0.N, _)

/-- What point t writes back is block t of the projected array. -/
theorem flushed0_eq (c : Dev nD) (t : Fin cfg0.N) :
    (dat0 (F := Ideal) V c).flushed 2 t
      = ((cfg0.win 2).blk t).view.read (Elt Ideal) (projArr0 (V c main_arg0) (V c main_arg2)) := by
  show (cfg0.win 2).cut (grid0.coords t) ((dat0 (F := Ideal) V c).after 2 t) = _
  rw [after0_2]
  obtain ⟨e0, e1, e2, e3, e4, e5, e6, e7⟩ := idx_facts0 t
  funext j
  show out0_2 (F := Ideal) (iblk0 V c 0 t) (iblk0 V c 1 t) ((cfg0.win 2).xinj (grid0.coords t) j)
      = projArr0 (V c main_arg0) (V c main_arg2) (((cfg0.win 2).blk t).view.emb j)
  refine (out0_at (iblk0 V c 0 t) (iblk0 V c 1 t) ((cfg0.win 2).xinj (grid0.coords t) j)).trans ?_
  unfold projArr0 Cert.Spec.projAt
  refine Finset.sum_congr rfl fun k _ => ?_
  have hx : (iblk0 V c 0 t : S1x256x576.Idx → EReal) (ix3 (0 : Fin 1) ((cfg0.win 2).xinj (grid0.coords t) j 1) k)
      = (V c main_arg0 : S2x1024x576.Idx → EReal) (ix3 ((((cfg0.win 2).blk t).view.emb j) 0) ((((cfg0.win 2).blk t).view.emb j) 1) k) := by
    show (V c main_arg0 : S2x1024x576.Idx → EReal) (((cfg0.win 0).blk t).view.emb (ix3 (0 : Fin 1) ((cfg0.win 2).xinj (grid0.coords t) j 1) k)) = _
    refine congrArg _ (funext fun a => Fin.ext ?_)
    match a with
    | ⟨0, _⟩ =>
      show win0_0.index t (0 : Fin 3) * 1 + 1 * 0 = win0_2.index t (0 : Fin 3) * 1 + 1 * (j 0).val
      have hj : (j 0).val < 1 := (j 0).isLt
      omega
    | ⟨1, _⟩ =>
      show win0_0.index t (1 : Fin 3) * 256 + 1 * (j 1).val = win0_2.index t (1 : Fin 3) * 256 + 1 * (j 1).val
      omega
    | ⟨2, _⟩ =>
      show win0_0.index t (2 : Fin 3) * 576 + 1 * k.val = k.val
      omega
  have hw : (iblk0 V c 1 t : S576x512.Idx → EReal) (ix2 k ((cfg0.win 2).xinj (grid0.coords t) j 2))
      = (V c main_arg2 : S576x512.Idx → EReal) (ix2 k ((((cfg0.win 2).blk t).view.emb j) 2)) := by
    show (V c main_arg2 : S576x512.Idx → EReal) (((cfg0.win 1).blk t).view.emb (ix2 k ((cfg0.win 2).xinj (grid0.coords t) j 2))) = _
    refine congrArg _ (funext fun a => Fin.ext ?_)
    match a with
    | ⟨0, _⟩ =>
      show win0_1.index t (0 : Fin 2) * 576 + 1 * k.val = k.val
      omega
    | ⟨1, _⟩ =>
      show win0_1.index t (1 : Fin 2) * 512 + 1 * (j 2).val = win0_2.index t (2 : Fin 3) * 512 + 1 * (j 2).val
      omega
  exact congrArg₂ (· * ·) hx hw

/-- An index of the output array is in point t's block iff each coordinate is in the block's range on its axis. -/
theorem mem_blk0 (t : Fin cfg0.N) (i : S2x1024x512.Idx) :
    i ∈ ((cfg0.win 2).blk t).view.set ↔ ∀ a : Fin 3, win0_2.index t a * S1x256x512.size a ≤ (i a).val ∧ (i a).val < win0_2.index t a * S1x256x512.size a + S1x256x512.size a := by
  show i ∈ ((View.whole main_v0).slice (win0_2.rect t)).set ↔ _
  rw [View.set_slice_whole, Rect.mem_set_unit]
  exact Iff.rfl

/-- Every entry of the output array lies in the block of the point of its batch and row block. -/
theorem cover0 (i : S2x1024x512.Idx) :
    ∃ t : Fin cfg0.N, (cfg0.win 2).flush t = true ∧ i ∈ ((cfg0.win 2).blk t).view.set := by
  have hN : cfg0.N = 8 := N_0
  have hi0 : (i 0).val < 2 := (i 0).isLt
  have hi1 : (i 1).val < 1024 := (i 1).isLt
  have hi2 : (i 2).val < 512 := (i 2).isLt
  let t : Fin cfg0.N := ⟨4 * (i 0).val + (i 1).val / 256, by rw [hN]; omega⟩
  have ht : t.val = 4 * (i 0).val + (i 1).val / 256 := rfl
  obtain ⟨e0, e1, e2, e3, e4, e5, e6, e7⟩ := idx_facts0 t
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 512 ≤ (i 2).val ∧ (i 2).val < win0_2.index t (2 : Fin 3) * 512 + 512; omega

/-- The output array after the last point is the projected array. -/
theorem final0 (c : Dev nD) :
    (dat0 (F := Ideal) V c).arrAt 2 cfg0.N = projArr0 (V c main_arg0) (V c main_arg2) :=
  (dat0 (F := Ideal) V c).arrAt_eq_of_cover 2 (projArr0 (V c main_arg0) (V c main_arg2)) (fun t _ => flushed0_eq V c t) (cover0)

/-- Entry (b, r, h) of the projected array is row (b, r) of the operand against column h of the weights. -/
theorem proj0_value (c : Dev nD) (b : Fin 2) (r : Fin 1024) (h : Fin 512) :
    ((dat0 (F := Ideal) V c).arrAt 2 cfg0.N : S2x1024x512.Idx → EReal) (ix3 b r h)
      = Cert.Spec.projAt (fun b r d => (V c main_arg0 : S2x1024x576.Idx → EReal) (ix3 b r d))
          (fun d h => (V c main_arg2 : S576x512.Idx → EReal) (ix2 d h)) b r h := by
  rw [final0]
  rfl

/-! # Projection 1: from the row blocks to the array -/

/-- The projected array as one function of the operand and the weights: entry (b, r, h) is the sum over d of x(b, r, d) · w(d, h). -/
def projArr1 (x : S2x256x576.Idx → EReal) (w : S576x512.Idx → EReal) : S2x256x512.Idx → EReal :=
  fun i => Cert.Spec.projAt (fun b r d => x (ix3 b r d)) (fun d h => w (ix2 d h)) (i 0) (i 1) (i 2)

/-- The output block after the body, at an entry: row (y 1) of the row block against column (y 2) of the weights. -/
theorem out1_at (x0 : Vec Ideal S1x256x576 .f32) (x1 : Vec Ideal S576x512 .f32) (y : S1x256x512.Idx) :
    out1_2 (F := Ideal) x0 x1 y = ∑ k : Fin 576, x0 (ix3 (0 : Fin 1) (y 1) k) * x1 (ix2 k (y 2)) := by
  unfold out1_2
  rw [View.canon_unit_zero proj_hz3]
  simp only [View.ld_unit_zero (S := S1x256x576) proj_hz3, View.ld_unit_zero (S := S576x512) proj_hz2]
  obtain ⟨u, p, q, rfl⟩ : ∃ (u : Fin 1) (p : Fin 256) (q : Fin 512), y = ix3 u p q := ⟨y 0, y 1, y 2, eq_ix3 y⟩
  exact proj_pay1_apply x0 x1 u p q

/-- The block indices over the grid: the row window and the output window move together, batch by batch and row
    block by row block; the weight window stays at the whole matrix. -/
theorem idx_facts1 : ∀ t : Fin cfg1.N,
      win1_0.index t (0 : Fin 3) = win1_2.index t (0 : Fin 3)
    ∧ win1_0.index t (1 : Fin 3) = win1_2.index t (1 : Fin 3)
    ∧ win1_0.index t (2 : Fin 3) = 0
    ∧ win1_2.index t (2 : Fin 3) = 0
    ∧ win1_1.index t (0 : Fin 2) = 0
    ∧ win1_1.index t (1 : Fin 2) = 0
    ∧ win1_2.index t (0 : Fin 3) = t.val / 1
    ∧ win1_2.index t (1 : Fin 3) = t.val % 1 :=
  (by decide +kernel : ∀ t : Fin grid1.N, _)

/-- What point t writes back is block t of the projected array. -/
theorem flushed1_eq (c : Dev nD) (t : Fin cfg1.N) :
    (dat1 (F := Ideal) V c).flushed 2 t
      = ((cfg1.win 2).blk t).view.read (Elt Ideal) (projArr1 (V c main_arg1) (V c main_arg3)) := by
  show (cfg1.win 2).cut (grid1.coords t) ((dat1 (F := Ideal) V c).after 2 t) = _
  rw [after1_2]
  obtain ⟨e0, e1, e2, e3, e4, e5, e6, e7⟩ := idx_facts1 t
  funext j
  show out1_2 (F := Ideal) (iblk1 V c 0 t) (iblk1 V c 1 t) ((cfg1.win 2).xinj (grid1.coords t) j)
      = projArr1 (V c main_arg1) (V c main_arg3) (((cfg1.win 2).blk t).view.emb j)
  refine (out1_at (iblk1 V c 0 t) (iblk1 V c 1 t) ((cfg1.win 2).xinj (grid1.coords t) j)).trans ?_
  unfold projArr1 Cert.Spec.projAt
  refine Finset.sum_congr rfl fun k _ => ?_
  have hx : (iblk1 V c 0 t : S1x256x576.Idx → EReal) (ix3 (0 : Fin 1) ((cfg1.win 2).xinj (grid1.coords t) j 1) k)
      = (V c main_arg1 : S2x256x576.Idx → EReal) (ix3 ((((cfg1.win 2).blk t).view.emb j) 0) ((((cfg1.win 2).blk t).view.emb j) 1) k) := by
    show (V c main_arg1 : S2x256x576.Idx → EReal) (((cfg1.win 0).blk t).view.emb (ix3 (0 : Fin 1) ((cfg1.win 2).xinj (grid1.coords t) j 1) k)) = _
    refine congrArg _ (funext fun a => Fin.ext ?_)
    match a with
    | ⟨0, _⟩ =>
      show win1_0.index t (0 : Fin 3) * 1 + 1 * 0 = win1_2.index t (0 : Fin 3) * 1 + 1 * (j 0).val
      have hj : (j 0).val < 1 := (j 0).isLt
      omega
    | ⟨1, _⟩ =>
      show win1_0.index t (1 : Fin 3) * 256 + 1 * (j 1).val = win1_2.index t (1 : Fin 3) * 256 + 1 * (j 1).val
      omega
    | ⟨2, _⟩ =>
      show win1_0.index t (2 : Fin 3) * 576 + 1 * k.val = k.val
      omega
  have hw : (iblk1 V c 1 t : S576x512.Idx → EReal) (ix2 k ((cfg1.win 2).xinj (grid1.coords t) j 2))
      = (V c main_arg3 : S576x512.Idx → EReal) (ix2 k ((((cfg1.win 2).blk t).view.emb j) 2)) := by
    show (V c main_arg3 : S576x512.Idx → EReal) (((cfg1.win 1).blk t).view.emb (ix2 k ((cfg1.win 2).xinj (grid1.coords t) j 2))) = _
    refine congrArg _ (funext fun a => Fin.ext ?_)
    match a with
    | ⟨0, _⟩ =>
      show win1_1.index t (0 : Fin 2) * 576 + 1 * k.val = k.val
      omega
    | ⟨1, _⟩ =>
      show win1_1.index t (1 : Fin 2) * 512 + 1 * (j 2).val = win1_2.index t (2 : Fin 3) * 512 + 1 * (j 2).val
      omega
  exact congrArg₂ (· * ·) hx hw

/-- An index of the output array is in point t's block iff each coordinate is in the block's range on its axis. -/
theorem mem_blk1 (t : Fin cfg1.N) (i : S2x256x512.Idx) :
    i ∈ ((cfg1.win 2).blk t).view.set ↔ ∀ a : Fin 3, win1_2.index t a * S1x256x512.size a ≤ (i a).val ∧ (i a).val < win1_2.index t a * S1x256x512.size a + S1x256x512.size a := by
  show i ∈ ((View.whole main_v1).slice (win1_2.rect t)).set ↔ _
  rw [View.set_slice_whole, Rect.mem_set_unit]
  exact Iff.rfl

/-- Every entry of the output array lies in the block of the point of its batch and row block. -/
theorem cover1 (i : S2x256x512.Idx) :
    ∃ t : Fin cfg1.N, (cfg1.win 2).flush t = true ∧ i ∈ ((cfg1.win 2).blk t).view.set := by
  have hN : cfg1.N = 2 := N_1
  have hi0 : (i 0).val < 2 := (i 0).isLt
  have hi1 : (i 1).val < 256 := (i 1).isLt
  have hi2 : (i 2).val < 512 := (i 2).isLt
  let t : Fin cfg1.N := ⟨1 * (i 0).val + (i 1).val / 256, by rw [hN]; omega⟩
  have ht : t.val = 1 * (i 0).val + (i 1).val / 256 := rfl
  obtain ⟨e0, e1, e2, e3, e4, e5, e6, e7⟩ := idx_facts1 t
  refine ⟨t, flush1_2 t, ?_⟩
  rw [mem_blk1]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 256 ≤ (i 1).val ∧ (i 1).val < win1_2.index t (1 : Fin 3) * 256 + 256; omega
  | ⟨2, _⟩ => show win1_2.index t (2 : Fin 3) * 512 ≤ (i 2).val ∧ (i 2).val < win1_2.index t (2 : Fin 3) * 512 + 512; omega

/-- The output array after the last point is the projected array. -/
theorem final1 (c : Dev nD) :
    (dat1 (F := Ideal) V c).arrAt 2 cfg1.N = projArr1 (V c main_arg1) (V c main_arg3) :=
  (dat1 (F := Ideal) V c).arrAt_eq_of_cover 2 (projArr1 (V c main_arg1) (V c main_arg3)) (fun t _ => flushed1_eq V c t) (cover1)

/-- Entry (b, r, h) of the projected array is row (b, r) of the operand against column h of the weights. -/
theorem proj1_value (c : Dev nD) (b : Fin 2) (r : Fin 256) (h : Fin 512) :
    ((dat1 (F := Ideal) V c).arrAt 2 cfg1.N : S2x256x512.Idx → EReal) (ix3 b r h)
      = Cert.Spec.projAt (fun b r d => (V c main_arg1 : S2x256x576.Idx → EReal) (ix3 b r d))
          (fun d h => (V c main_arg3 : S576x512.Idx → EReal) (ix2 d h)) b r h := by
  rw [final1]
  rfl

end Cert.KernelIdeal.Hand

end
-- ==== Proof.KernelIdeal.PairPieces.lean ====
/-
  The pairwise region (pallas_call 2): each piece its three control cases leave, as a pure term of the
  body's inputs. Every store of the body writes a whole buffer (a rectangle at the origin of the buffer's
  own size) and every load reads a whole buffer, so a buffer after the body holds the payload of the last
  store into it, and each loaded operand is the contents of the buffer it was loaded from:
    * hidden chunk 0: the accumulator is the chunk's update applied to the zero splat;
    * hidden chunks 1, 2 and 3: the accumulator is the chunk's update applied to what the point before left;
    * hidden chunk 3: the output block is the finishing arithmetic applied to that updated accumulator.
-/
import proofs.«119945_j70798240907716_1_alg».proof.Proof.KernelIdeal.Pair
import Idealize.ShloMosaic.Lib.Pipeline.Value

set_option maxRecDepth 16384

noncomputable section

namespace Cert.KernelIdeal.Hand

open Idealize.ShloMosaic Idealize.ShloMosaic.TcCoe Idealize.ShloMosaic.Tactic
open Cert.KernelIdeal Cert.KernelIdeal.Gen

variable {F : FTy → Type} [FloatOps F]

/-- A rank-3 rectangle at the origin: its offsets are all zero. -/
theorem pc_hz3 : (![0, 0, 0] : Fin 3 → Nat) = fun _ => 0 := funext fun a => by fin_cases a <;> rfl

/-- A rank-2 rectangle at the origin: its offsets are all zero. -/
theorem pc_hz2 : (![0, 0] : Fin 2 → Nat) = fun _ => 0 := funext fun a => by fin_cases a <;> rfl

/-- Hidden chunks 1 and 2: the one store into the accumulator covers it whole, so what it leaves is
    its payload, the chunk's partial product added to the accumulator as the point before left it;
    each operand is a whole-buffer load, which reads the buffer's contents back. -/
theorem sout2_B_eq (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : ¬cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) :
    sout2_B c i arg4 harg4 arg5 harg5 arg6 harg6 arg7 harg7 arg8 harg8 arg9 harg9 arg10 harg10 arg11 harg11 arg12 harg12 hc0 hc1 x0 x1 x2 x3 x4 x5 x6 xs = k2_pay3 x0 x1 x2 x3 xs := by
  unfold sout2_B
  rw [View.read_writes_eq_canon _ _ _ (scover2_B c i arg4 harg4 arg5 harg5 arg6 harg6 arg7 harg7 arg8 harg8 arg9 harg9 arg10 harg10 arg11 harg11 arg12 harg12 hc0 hc1 x0 x1 x2 x3 x4 x5 x6 xs)]
  unfold kernelRun2_B
  dsimp only
  sl_unfold_words
  rw [View.canon_unit_zero (S := S64x128x256) pc_hz3]
  simp only [View.readAt_eq_ld, harg4.read_unread, harg5.read_unread, harg6.read_unread, harg7.read_unread,
    harg12.read_unread, View.ld_unit_zero (S := S1x64x128) pc_hz3, View.ld_unit_zero (S := S1x128x128) pc_hz3,
    View.ld_unit_zero (S := S1x128) pc_hz2, View.ld_unit_zero (S := S128x256) pc_hz2,
    View.ld_unit_zero (S := S64x128x256) pc_hz3]

/-- Hidden chunk 3, the accumulator: as at chunks 1 and 2, one whole-buffer store whose payload is the
    chunk's partial product added to what the point before left. -/
theorem sout2_C_eq (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) :
    sout2_C c i arg4 harg4 arg5 harg5 arg6 harg6 arg7 harg7 arg8 harg8 arg9 harg9 arg10 harg10 arg11 harg11 arg12 harg12 hc0 hc1 x0 x1 x2 x3 x4 x5 x6 xs = k2_pay3 x0 x1 x2 x3 xs := by
  unfold sout2_C
  rw [View.read_writes_eq_canon _ _ _ (scover2_C c i arg4 harg4 arg5 harg5 arg6 harg6 arg7 harg7 arg8 harg8 arg9 harg9 arg10 harg10 arg11 harg11 arg12 harg12 hc0 hc1 x0 x1 x2 x3 x4 x5 x6 xs)]
  unfold kernelRun2_C
  dsimp only
  sl_unfold_words
  rw [View.canon_unit_zero (S := S64x128x256) pc_hz3]
  simp only [View.readAt_eq_ld, harg4.read_unread, harg5.read_unread, harg6.read_unread, harg7.read_unread,
    harg12.read_unread, View.ld_unit_zero (S := S1x64x128) pc_hz3, View.ld_unit_zero (S := S1x128x128) pc_hz3,
    View.ld_unit_zero (S := S1x128) pc_hz2, View.ld_unit_zero (S := S128x256) pc_hz2,
    View.ld_unit_zero (S := S64x128x256) pc_hz3]

/-- Hidden chunk 3, the output block: one whole-block store whose payload is the finishing arithmetic
    applied to the accumulator as read back AFTER this chunk's update (a whole-buffer load of what the
    one whole-buffer store just left, hence that store's payload), the second bias, the third layer's
    weight row and the last bias. -/
theorem out2_C_7_eq (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : ¬cond2_0 i) (hc1 : cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) (xs : Vec F S64x128x256 .f32) :
    out2_C_7 c i arg4 harg4 arg5 harg5 arg6 harg6 arg7 harg7 arg8 harg8 arg9 harg9 arg10 harg10 arg11 harg11 arg12 harg12 hc0 hc1 x0 x1 x2 x3 x4 x5 x6 xs = k2_pay1 (k2_pay3 x0 x1 x2 x3 xs) x5 x4 x6 := by
  unfold out2_C_7
  rw [View.read_writes_eq_canon _ _ _ (cover2_C_7 c i arg4 harg4 arg5 harg5 arg6 harg6 arg7 harg7 arg8 harg8 arg9 harg9 arg10 harg10 arg11 harg11 arg12 harg12 hc0 hc1 x0 x1 x2 x3 x4 x5 x6 xs)]
  unfold kernelRun2_C
  dsimp only
  sl_unfold_words
  rw [View.canon_unit_zero (S := S1x64x128) pc_hz3]
  simp only [View.readAt_eq_ld, harg4.read_unread, harg5.read_unread, harg6.read_unread, harg7.read_unread,
    harg8.read_unread, harg9.read_unread, harg10.read_unread, harg12.read_unread,
    View.readCov_unit_zero (S := S64x128x256) _ pc_hz3,
    View.ld_unit_zero (S := S1x64x128) pc_hz3, View.ld_unit_zero (S := S1x128x128) pc_hz3,
    View.ld_unit_zero (S := S1x128) pc_hz2, View.ld_unit_zero (S := S128x256) pc_hz2,
    View.ld_unit_zero (S := S64x128x256) pc_hz3, View.ld_unit_zero (S := S1x256) pc_hz2,
    View.ld_unit_zero (S := S1x1) pc_hz2]

/-- Hidden chunk 0: two whole-buffer stores into the accumulator, the reset to zero and then the update.
    The later store covers the buffer, so what is left is its payload; in that payload the accumulator
    operand is a whole-buffer load of what the reset store alone had left, that is the zero splat. -/
theorem sout2_A_eq (c : Dev nD) (i : grid2.Coords) (arg4 : Memref sig .tc .vmem S1x64x128 .f32) (harg4 : arg4.IsWhole) (arg5 : Memref sig .tc .vmem S1x128x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S1x64x128 .f32) (harg11 : arg11.IsWhole) (arg12 : Memref sig .tc .vmem S64x128x256 .f32) (harg12 : arg12.IsWhole) (hc0 : cond2_0 i) (hc1 : ¬cond2_1 i)
    (x0 : Vec F S1x64x128 .f32) (x1 : Vec F S1x128x128 .f32) (x2 : Vec F S1x128 .f32) (x3 : Vec F S128x256 .f32) (x4 : Vec F S1x256 .f32) (x5 : Vec F S1x256 .f32) (x6 : Vec F S1x1 .f32) :
    sout2_A c i arg4 harg4 arg5 harg5 arg6 harg6 arg7 harg7 arg8 harg8 arg9 harg9 arg10 harg10 arg11 harg11 arg12 harg12 hc0 hc1 x0 x1 x2 x3 x4 x5 x6 = k2_pay3 x0 x1 x2 x3 (k2_pay2 (F := F)) := by
  unfold sout2_A
  rw [View.read_writes_eq_canon _ _ _ (scover2_A c i arg4 harg4 arg5 harg5 arg6 harg6 arg7 harg7 arg8 harg8 arg9 harg9 arg10 harg10 arg11 harg11 arg12 harg12 hc0 hc1 x0 x1 x2 x3 x4 x5 x6)]
  unfold kernelRun2_A
  dsimp only
  sl_unfold_words
  rw [View.canon_cons_unit_zero (S := S64x128x256) pc_hz3, View.readCov_unit_zero (S := S64x128x256) _ pc_hz3]
  simp only [View.readAt_eq_ld, harg4.read_unread, harg5.read_unread, harg6.read_unread, harg7.read_unread,
    View.ld_unit_zero (S := S1x64x128) pc_hz3, View.ld_unit_zero (S := S1x128x128) pc_hz3,
    View.ld_unit_zero (S := S1x128) pc_hz2, View.ld_unit_zero (S := S128x256) pc_hz2]

end Cert.KernelIdeal.Hand

end
-- ==== Proof.KernelIdeal.PairPayload.lean ====
/-
  The three values the pairwise kernel stores, read at one index, over the extended reals.

  * The reset value is the zero splat: every entry is 0.
  * The accumulating value at (p, q, k) is the accumulator's entry plus
      ∑ j < 128, max (a[p, j] + b[q, j] + bias[j]) 0 · w[j, k]:
    the pair sum is formed on a 64 × 128 × 128 grid by broadcasting a along the middle axis, b along the
    leading axis and the bias row along both, rectified, flattened to 8192 × 128 (row 128 · p + q), multiplied
    by the 128 × 256 weights into a zero accumulator, and split back to 64 × 128 × 256. Narrowing to the
    sixteen-bit format is the identity on extended reals.
  * The finishing value at (0, p, q) is
      (∑ k < 256, max (acc[p, q, k] + c[k]) 0 · u[k]) + d:
    a bias row and a weight row broadcast over the first two axes, a rectifier, a sum over the last axis,
    and a scalar added.
  Last, a sum over 512 terms is the sum of its four consecutive blocks of 128, taken in order from 0: the
  shape in which four chunks accumulate.
-/
import proofs.«119945_j70798240907716_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin

set_option maxRecDepth 16384

noncomputable section

namespace Cert.KernelIdeal.Hand

open Idealize.ShloMosaic Idealize.ShloMosaic.ValueIdx
open Cert.KernelIdeal Cert.KernelIdeal.Gen
open scoped BigOperators

/-! ## The zero splat -/

theorem pay2_apply (p : Fin 64) (q : Fin 128) (k : Fin 256) :
    (k2_pay2 (F := Ideal)) (ix3 p q k) = 0 := by
  unfold k2_pay2
  simp only [shapeCast_self, broadcast_apply]
  exact Ideal.ofBits_zero_f32

/-! ## Four blocks of 128 make a sum over 512 -/

/-- A sum over `Fin 512` splits at 384, the head at 256, and that head at 128; each split writes the index of
    the tail block as offset plus position. Only commutative-monoid addition is used. -/
theorem sum_chunks4 (f : Fin 512 → EReal) :
    ∑ h : Fin 512, f h
      = (((0 + ∑ j : Fin 128, f ⟨j.val, by omega⟩) + ∑ j : Fin 128, f ⟨128 + j.val, by omega⟩)
          + ∑ j : Fin 128, f ⟨256 + j.val, by omega⟩) + ∑ j : Fin 128, f ⟨384 + j.val, by omega⟩ := by
  rw [zero_add]
  have h1 := Fin.sum_univ_add (a := 384) (b := 128) f
  have h2 := Fin.sum_univ_add (a := 256) (b := 128) (fun i => f (Fin.castAdd 128 i))
  have h3 := Fin.sum_univ_add (a := 128) (b := 128) (fun i => f (Fin.castAdd 128 (Fin.castAdd 128 i)))
  exact h1.trans (congrArg (· + _) (h2.trans (congrArg (· + _) h3)))

/-! ## Layout steps read at an index given by coordinates -/

section Layout
variable {α : Type}

/-- A length-`c` vector viewed as `[1, 1, c]` reads, at `(u, w, i)`, the vector at `i`: both indices
    have row-major position `i`, the two unit coordinates being `0`. -/
theorem pp_shapeCast_c_11c_apply {c : ℕ} (x : (⟨1, ![c]⟩ : Shape).Idx → α)
    (h : (⟨1, ![c]⟩ : Shape).ShapeCasts ⟨3, ![1, 1, c]⟩) (u w : Fin 1) (i : Fin c) :
    shapeCast ⟨3, ![1, 1, c]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * c + i.val
    rw [hu, hw]; simp)

/-- A `[1, 1, c]` array broadcast to `[a, b, c]` reads, at `(p, q, k)`, its one row at `k`. -/
theorem pp_broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A `[1, c]` row, re-cast to itself, flattened to `[c]`, viewed `[1, 1, c]` and broadcast to
    `[a, b, c]`, reads at `(p, q, k)` the row's entry `k`. -/
theorem pp_rowBroadcast_apply {a b c : ℕ} (v : (⟨2, ![1, c]⟩ : Shape).Idx → α)
    (h0 : (⟨2, ![1, c]⟩ : Shape).ShapeCasts ⟨2, ![1, c]⟩) (h1 : (⟨2, ![1, c]⟩ : Shape).ShapeCasts ⟨1, ![c]⟩)
    (h2 : (⟨1, ![c]⟩ : Shape).ShapeCasts ⟨3, ![1, 1, c]⟩)
    (h3 : (⟨3, ![1, 1, c]⟩ : Shape).Broadcasts ⟨3, ![a, b, c]⟩) (p : Fin a) (q : Fin b) (k : Fin c) :
    broadcastTo ⟨3, ![a, b, c]⟩
        (shapeCast ⟨3, ![1, 1, c]⟩ (shapeCast ⟨1, ![c]⟩ (shapeCast ⟨2, ![1, c]⟩ v h0) h1) h2) h3 (ix3 p q k)
      = v (ix2 (0 : Fin 1) k) := by
  rw [shapeCast_self]
  refine (pp_broadcastTo_11c_abc_apply _ h3 p q k).trans ?_
  refine (pp_shapeCast_c_11c_apply _ h2 0 0 k).trans ?_
  exact shapeCast_1a_a_apply v h1 k

end Layout

/-! ## The lane sum -/

/-- A sum over the last axis of an `[a, b, c]` vector, read at `(p, q)`, is the sum over `k` of the
    entries `(p, q, k)`: the index with `k` inserted on the dropped axis has those coordinates. -/
theorem pp_laneSum_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (p : Fin a) (q : Fin b) :
    multiReduction (F := Ideal) .add [2] ⟨2, ![a, b]⟩ src 0x00000000#32 h hφ hacc (ix2 p q)
      = ∑ k : Fin c, src (ix3 p q k) := by
  refine (Ideal.multiReduction_add_single src 0x00000000#32 h hφ hacc (ix2 p q)).trans ?_
  refine Finset.sum_congr rfl fun k _ => congrArg src ?_
  funext d
  match d with
  | ⟨0, _⟩ => exact Fin.ext rfl
  | ⟨1, _⟩ => exact Fin.ext rfl
  | ⟨2, _⟩ => exact Fin.ext rfl

/-! ## The finishing payload: bias, rectifier, weights, lane sum, output bias -/

theorem pay1_apply (v34 : Vec Ideal S64x128x256 .f32) (v35 v43 : Vec Ideal S1x256 .f32)
    (v50 : Vec Ideal S1x1 .f32) (p : Fin 64) (q : Fin 128) :
    k2_pay1 v34 v35 v43 v50 (ix3 0 p q)
      = (∑ k : Fin 256, max (v34 (ix3 p q k) + v35 (ix2 0 k)) 0 * v43 (ix2 0 k)) + v50 (ix2 0 0) := by
  unfold k2_pay1
  refine (shapeCast_ab_1ab_apply _ _ (0 : Fin 1) p q).trans ?_
  refine (addf_apply _ _ _).trans ?_
  refine congrArg₂ (· + ·) ?_ ?_
  · refine (pp_laneSum_apply _ _ _ _ p q).trans ?_
    refine Finset.sum_congr rfl fun k _ => ?_
    refine (mulf_apply _ _ _).trans ?_
    refine congrArg₂ (· * ·) ?_ ?_
    · refine (maximumf_apply _ _ _).trans ?_
      refine congrArg₂ max ?_ ?_
      · refine (addf_apply _ _ _).trans ?_
        exact congrArg (v34 (ix3 p q k) + ·) (pp_rowBroadcast_apply v35 _ _ _ _ p q k)
      · exact Ideal.ofBits_zero_f32
    · exact pp_rowBroadcast_apply v43 _ _ _ _ p q k
  · exact congrArg v50 (funext fun a => match a with | ⟨0, _⟩ => rfl | ⟨1, _⟩ => rfl)

/-! ## Layout steps of the pair sum and of the matrix product -/

section Layout3
variable {α : Type}

/-- An `[a, c]` matrix viewed as `[a, 1, c]` reads, at `(p, u, j)`, the matrix at `(p, j)`. -/
theorem pp_shapeCast_ac_a1c_apply {a c : ℕ} (x : (⟨2, ![a, c]⟩ : Shape).Idx → α)
    (h : (⟨2, ![a, c]⟩ : Shape).ShapeCasts ⟨3, ![a, 1, c]⟩) (p : Fin a) (u : Fin 1) (j : Fin c) :
    shapeCast ⟨3, ![a, 1, c]⟩ x h (ix3 p u j) = x (ix2 p j) :=
  shapeCast_apply x h _ _ (by
    have hu : u.val = 0 := by omega
    rw [Shape.rowMajor_val_three, Shape.rowMajor_val_two]
    show p.val * c + j.val = (p.val * 1 + u.val) * c + j.val
    rw [hu]; simp)

/-- An `[a, 1, c]` array broadcast along its middle axis to `[a, b, c]` reads, at `(p, q, j)`, the
    operand at `(p, 0, j)`. -/
theorem pp_broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (j : Fin c) :
    broadcastTo ⟨3, ![a, b, c]⟩ v h (ix3 p q j) = v (ix3 p (0 : Fin 1) j) := by
  refine broadcastTo_apply v h (ix3 p q j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if c = 1 then 0 else j.val
    split
    · have := j.isLt; omega
    · rfl

/-- A `[1, b, c]` array broadcast along its leading axis to `[a, b, c]` reads, at `(p, q, j)`, the
    operand at `(0, q, j)`. -/
theorem pp_broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (j : Fin c) :
    broadcastTo ⟨3, ![a, b, c]⟩ v h (ix3 p q j) = v (ix3 (0 : Fin 1) q j) := by
  refine broadcastTo_apply v h (ix3 p q j) (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if c = 1 then 0 else j.val
    split
    · have := j.isLt; omega
    · rfl

/-- An `[a, b, c]` array flattened to `[n, c]` reads, at row `r = p · b + q` and column `j`, the
    operand at `(p, q, j)`: the two indices have the same row-major position. -/
theorem pp_shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (j : Fin c) (r : Fin n)
    (hr : r.val = p.val * b + q.val) :
    shapeCast ⟨2, ![n, c]⟩ x h (ix2 r j) = x (ix3 p q j) :=
  shapeCast_apply x h _ _ (by
    rw [Shape.rowMajor_val_three, Shape.rowMajor_val_two]
    show (p.val * b + q.val) * c + j.val = r.val * c + j.val
    rw [hr])

/-- An `[n, c]` matrix split to `[a, b, c]` reads, at `(p, q, k)`, the matrix at row `r = p · b + q`
    and column `k`. -/
theorem pp_shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ x h (ix3 p q k) = x (ix2 r k) :=
  shapeCast_apply x h _ _ (by
    rw [Shape.rowMajor_val_three, Shape.rowMajor_val_two]
    show r.val * c + k.val = (p.val * b + q.val) * c + k.val
    rw [hr])

end Layout3

/-! ## The matrix product read at an index

The dimension numbers contract axis 1 of the left operand with axis 0 of the right one, no batch axes: at output
index `(r, k)` and contraction coordinate `j` the operands are read at `(r, j)` and `(j, k)`. -/

theorem pp_lhs_0 (i : S8192x256.Idx) (q : dot_S8192x128_S128x256_S8192x256_1_0_0_1_n_n.contr.Idx) :
    (dot_S8192x128_S128x256_S8192x256_1_0_0_1_n_n.lhsIdx i q 0).val = (i 0).val := by
  unfold DotDims.lhsIdx
  rw [dif_neg (show ¬(0 : Fin S8192x128.rank) ∈ dot_S8192x128_S128x256_S8192x256_1_0_0_1_n_n.lhsBatch by decide),
    dif_pos (show (0 : Fin S8192x128.rank) ∈ dot_S8192x128_S128x256_S8192x256_1_0_0_1_n_n.lhsNonContracting by decide)]
  rfl
theorem pp_lhs_1 (i : S8192x256.Idx) (q : dot_S8192x128_S128x256_S8192x256_1_0_0_1_n_n.contr.Idx) :
    (dot_S8192x128_S128x256_S8192x256_1_0_0_1_n_n.lhsIdx i q 1).val = (q ⟨0, by decide⟩).val :=
  dot_S8192x128_S128x256_S8192x256_1_0_0_1_n_n.lhsIdx_val_of_single rfl i q
theorem pp_rhs_0 (i : S8192x256.Idx) (q : dot_S8192x128_S128x256_S8192x256_1_0_0_1_n_n.contr.Idx) :
    (dot_S8192x128_S128x256_S8192x256_1_0_0_1_n_n.rhsIdx i q 0).val = (q ⟨0, by decide⟩).val :=
  dot_S8192x128_S128x256_S8192x256_1_0_0_1_n_n.rhsIdx_val_of_single rfl i q
theorem pp_rhs_1 (i : S8192x256.Idx) (q : dot_S8192x128_S128x256_S8192x256_1_0_0_1_n_n.contr.Idx) :
    (dot_S8192x128_S128x256_S8192x256_1_0_0_1_n_n.rhsIdx i q 1).val = (i 1).val := by
  unfold DotDims.rhsIdx
  rw [dif_neg (show ¬(1 : Fin S128x256.rank) ∈ dot_S8192x128_S128x256_S8192x256_1_0_0_1_n_n.rhsBatch by decide),
    dif_pos (show (1 : Fin S128x256.rank) ∈ dot_S8192x128_S128x256_S8192x256_1_0_0_1_n_n.rhsNonContracting by decide)]
  rfl

/-- The product into the zero accumulator, at `(r, k)`: the sum over the 128 contraction coordinates of the
    left operand's row `r` times the right operand's column `k`. -/
theorem pp_matmul_apply (lhs : FVec Ideal S8192x128 .bf16) (rhs : FVec Ideal S128x256 .bf16) (r : Fin 8192) (k : Fin 256) :
    matmul dot_S8192x128_S128x256_S8192x256_1_0_0_1_n_n none lhs rhs (constant (F := Ideal) S8192x256 .f32 0x00000000#32) (ix2 r k)
      = ∑ j : Fin 128, lhs (ix2 r j) * rhs (ix2 j k) := by
  refine (Ideal.matmul_constant_zero_apply dot_S8192x128_S128x256_S8192x256_1_0_0_1_n_n none lhs rhs (ix2 r k)).trans ?_
  rw [← Equiv.sum_comp (contrEquiv1 dot_S8192x128_S128x256_S8192x256_1_0_0_1_n_n 128 rfl rfl).symm]
  refine Finset.sum_congr rfl fun j _ => ?_
  have hj := contrEquiv1_symm_val dot_S8192x128_S128x256_S8192x256_1_0_0_1_n_n 128 rfl rfl j
  have el : dot_S8192x128_S128x256_S8192x256_1_0_0_1_n_n.lhsIdx (ix2 r k)
      ((contrEquiv1 dot_S8192x128_S128x256_S8192x256_1_0_0_1_n_n 128 rfl rfl).symm j) = ix2 r j :=
    funext fun a => Fin.ext (by
      match a with
      | ⟨0, _⟩ => exact pp_lhs_0 _ _
      | ⟨1, _⟩ => exact (pp_lhs_1 _ _).trans hj)
  have er : dot_S8192x128_S128x256_S8192x256_1_0_0_1_n_n.rhsIdx (ix2 r k)
      ((contrEquiv1 dot_S8192x128_S128x256_S8192x256_1_0_0_1_n_n 128 rfl rfl).symm j) = ix2 j k :=
    funext fun a => Fin.ext (by
      match a with
      | ⟨0, _⟩ => exact (pp_rhs_0 _ _).trans hj
      | ⟨1, _⟩ => exact pp_rhs_1 _ _)
  rw [el, er]

/-! ## The accumulating payload: pair sum, rectifier, product with the weights, added to the accumulator -/

/-- Row `128 · p + q` of the flattened `8192 × 128` operand. -/
abbrev pp_row (p : Fin 64) (q : Fin 128) : Fin 8192 := ⟨p.val * 128 + q.val, by have := p.isLt; have := q.isLt; omega⟩

theorem pay3_apply (v3 : Vec Ideal S1x64x128 .f32) (v5 : Vec Ideal S1x128x128 .f32) (v7 : Vec Ideal S1x128 .f32)
    (v22 : Vec Ideal S128x256 .f32) (v25 : Vec Ideal S64x128x256 .f32) (p : Fin 64) (q : Fin 128) (k : Fin 256) :
    k2_pay3 v3 v5 v7 v22 v25 (ix3 p q k)
      = v25 (ix3 p q k)
        + ∑ j : Fin 128, max (v3 (ix3 0 p j) + v5 (ix3 0 q j) + v7 (ix2 0 j)) 0 * v22 (ix2 j k) := by
  unfold k2_pay3
  refine (congrFun (shapeCast_self _ _) _).trans ?_
  refine (addf_apply _ _ _).trans ?_
  refine congrArg (v25 (ix3 p q k) + ·) ?_
  refine (pp_shapeCast_nc_abc_apply _ _ p q k (pp_row p q) rfl).trans ?_
  refine (pp_matmul_apply _ _ (pp_row p q) k).trans ?_
  refine Finset.sum_congr rfl fun j _ => ?_
  refine congrArg₂ (· * ·) ?_ rfl
  refine (pp_shapeCast_abc_nc_apply _ _ p q j (pp_row p q) rfl).trans ?_
  refine (truncf_apply (φ := .f32) (ψ := .bf16) _ bitsLt_bf16_f32 _).trans ?_
  refine (maximumf_apply _ _ _).trans ?_
  refine congrArg₂ max ?_ Ideal.ofBits_zero_f32
  refine (addf_apply _ _ _).trans ?_
  refine congrArg₂ (· + ·) ?_ (pp_rowBroadcast_apply v7 _ _ _ _ p q j)
  refine (addf_apply _ _ _).trans ?_
  refine congrArg₂ (· + ·) ?_ ?_
  · refine (pp_broadcastTo_a1c_abc_apply _ _ p q j).trans ?_
    refine (pp_shapeCast_ac_a1c_apply _ _ p 0 j).trans ?_
    exact shapeCast_1ab_ab_apply v3 _ p j
  · refine (pp_broadcastTo_1bc_abc_apply _ _ p q j).trans ?_
    exact congrFun (shapeCast_shapeCast v5 _ _) _

end Cert.KernelIdeal.Hand

end
-- ==== Proof.KernelIdeal.PairValue.lean ====
/-
  The pairwise region read entry by entry. The grid point at position t works on tile t / 4 (a batch, a row
  tile, a column tile) and on hidden chunk t mod 4. Its update adds to the accumulator's entry (p, q, k) the
  128 terms of that chunk, relu(a(b, n, h) + b'(b, m, h) + b1(h)) · W2(h, k) over the chunk's hidden units h,
  where n and m are the rows of the pair (p, q) in the two projected operands. Chunk 0 starts from the zero
  splat and the four points of a tile are consecutive positions, so after chunk 3 the accumulator holds the
  four chunk sums added in order from zero, which is the whole 512-term sum. That point stores
  (Σ_k relu(acc(p, q, k) + b2(k)) · w3(k)) + b3 at (p, q) of the output block, which is the tile's block of
  the result array; the tiles cover the array, so after the last point entry (b, n, m) of the result is the
  specification's value at the pair (n, m) of batch b.
-/
import proofs.«119945_j70798240907716_1_alg».proof.Proof.KernelIdeal.PairPieces
import proofs.«119945_j70798240907716_1_alg».proof.Proof.KernelIdeal.PairPayload
import proofs.«119945_j70798240907716_1_alg».proof.Proof.Spec
import Idealize.ShloMosaic.Lib.ValueIdx
import Idealize.ShloMosaic.Lib.Pipeline.Value
import Mathlib.Algebra.BigOperators.Fin

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal Cert.KernelIdeal.Gen
open Idealize.ShloMosaic.ValueIdx
open scoped BigOperators

variable (V : (c : Dev nD) → (b : Ref sig .tc) → Buf (Elt Ideal) ((c : Thread nD τ).loc b))

/-! # The operands as functions of their coordinates -/

/-- The first projected operand: entry (b, n, h). -/
def pv_af (c : Dev nD) : Fin 2 → Fin 1024 → Fin 512 → EReal := fun b n h => (V c main_v0 : S2x1024x512.Idx → EReal) (ix3 b n h)
/-- The second projected operand: entry (b, m, h). -/
def pv_bf (c : Dev nD) : Fin 2 → Fin 256 → Fin 512 → EReal := fun b mm h => (V c main_v1 : S2x256x512.Idx → EReal) (ix3 b mm h)
/-- The first bias, a row. -/
def pv_b1f (c : Dev nD) : Fin 512 → EReal := fun h => (V c main_v2 : S1x512.Idx → EReal) (ix2 0 h)
/-- The second layer's weights. -/
def pv_W2f (c : Dev nD) : Fin 512 → Fin 256 → EReal := fun h k => (V c main_arg5 : S512x256.Idx → EReal) (ix2 h k)
/-- The second bias, a row. -/
def pv_b2f (c : Dev nD) : Fin 256 → EReal := fun k => (V c main_v3 : S1x256.Idx → EReal) (ix2 0 k)
/-- The third layer's weights, a row. -/
def pv_w3f (c : Dev nD) : Fin 256 → EReal := fun k => (V c main_v6 : S1x256.Idx → EReal) (ix2 0 k)
/-- The last bias, one number. -/
def pv_b3v (c : Dev nD) : EReal := (V c main_v4 : S1x1.Idx → EReal) (ix2 0 0)

/-! # Where a tile sits: tile number u = ((b·16 + nt)·2 + mt), position 4u + hc -/

/-- The batch of tile u. -/
def pv_bOf (u : ℕ) : Fin 2 := ⟨u / 32 % 2, Nat.mod_lt _ (by decide)⟩
/-- Row p of tile u's row block, as a row of the first operand. -/
def pv_nOf (u : ℕ) (p : Fin 64) : Fin 1024 := ⟨64 * (u / 2 % 16) + p.val, by have := p.isLt; omega⟩
/-- Row q of tile u's column block, as a row of the second operand. -/
def pv_mOf (u : ℕ) (q : Fin 128) : Fin 256 := ⟨128 * (u % 2) + q.val, by have := q.isLt; omega⟩
/-- Lane j of hidden chunk (i mod 4), as a hidden coordinate. -/
def pv_hOf (i : ℕ) (j : Fin 128) : Fin 512 := ⟨128 * (i % 4) + j.val, by have := j.isLt; omega⟩

/-- The block indices of the eight windows over the grid, in closed form. -/
theorem pv_idx : ∀ t : Fin cfg2.N,
      win2_0.index t (0 : Fin 3) = t.val / 4 / 32 % 2
    ∧ win2_0.index t (1 : Fin 3) = t.val / 4 / 2 % 16
    ∧ win2_0.index t (2 : Fin 3) = t.val % 4
    ∧ win2_1.index t (0 : Fin 3) = t.val / 4 / 32 % 2
    ∧ win2_1.index t (1 : Fin 3) = t.val / 4 % 2
    ∧ win2_1.index t (2 : Fin 3) = t.val % 4
    ∧ win2_2.index t (0 : Fin 2) = 0
    ∧ win2_2.index t (1 : Fin 2) = t.val % 4
    ∧ win2_3.index t (0 : Fin 2) = t.val % 4
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 3) = t.val / 4 / 32 % 2
    ∧ win2_7.index t (1 : Fin 3) = t.val / 4 / 2 % 16
    ∧ win2_7.index t (2 : Fin 3) = t.val / 4 % 2 :=
  (by decide +kernel : ∀ t : Fin grid2.N, _)

/-! # Each input block read where its window's rectangle says -/

theorem pv_blk0 (c : Dev nD) (t : Fin cfg2.N) (p : Fin 64) (j : Fin 128) :
    (iblk2 V c 0 t : S1x64x128.Idx → EReal) (ix3 (0 : Fin 1) p j)
      = pv_af V c (pv_bOf (t.val / 4)) (pv_nOf (t.val / 4) p) (pv_hOf t.val j) := by
  obtain ⟨e0, e1, e2, -⟩ := pv_idx t
  show (V c main_v0 : S2x1024x512.Idx → EReal) (((cfg2.win 0).blk t).view.emb (ix3 (0 : Fin 1) p j))
      = (V c main_v0 : S2x1024x512.Idx → EReal) (ix3 (pv_bOf (t.val / 4)) (pv_nOf (t.val / 4) p) (pv_hOf t.val j))
  refine congrArg _ (funext fun a => Fin.ext ?_)
  match a with
  | ⟨0, _⟩ => show win2_0.index t (0 : Fin 3) * 1 + 1 * 0 = t.val / 4 / 32 % 2; omega
  | ⟨1, _⟩ => show win2_0.index t (1 : Fin 3) * 64 + 1 * p.val = 64 * (t.val / 4 / 2 % 16) + p.val; omega
  | ⟨2, _⟩ => show win2_0.index t (2 : Fin 3) * 128 + 1 * j.val = 128 * (t.val % 4) + j.val; omega

theorem pv_blk1 (c : Dev nD) (t : Fin cfg2.N) (q : Fin 128) (j : Fin 128) :
    (iblk2 V c 1 t : S1x128x128.Idx → EReal) (ix3 (0 : Fin 1) q j)
      = pv_bf V c (pv_bOf (t.val / 4)) (pv_mOf (t.val / 4) q) (pv_hOf t.val j) := by
  obtain ⟨-, -, -, e0, e1, e2, -⟩ := pv_idx t
  show (V c main_v1 : S2x256x512.Idx → EReal) (((cfg2.win 1).blk t).view.emb (ix3 (0 : Fin 1) q j))
      = (V c main_v1 : S2x256x512.Idx → EReal) (ix3 (pv_bOf (t.val / 4)) (pv_mOf (t.val / 4) q) (pv_hOf t.val j))
  refine congrArg _ (funext fun a => Fin.ext ?_)
  match a with
  | ⟨0, _⟩ => show win2_1.index t (0 : Fin 3) * 1 + 1 * 0 = t.val / 4 / 32 % 2; omega
  | ⟨1, _⟩ => show win2_1.index t (1 : Fin 3) * 128 + 1 * q.val = 128 * (t.val / 4 % 2) + q.val; omega
  | ⟨2, _⟩ => show win2_1.index t (2 : Fin 3) * 128 + 1 * j.val = 128 * (t.val % 4) + j.val; omega

theorem pv_blk2 (c : Dev nD) (t : Fin cfg2.N) (j : Fin 128) :
    (iblk2 V c 2 t : S1x128.Idx → EReal) (ix2 (0 : Fin 1) j) = pv_b1f V c (pv_hOf t.val j) := by
  obtain ⟨-, -, -, -, -, -, e0, e1, -⟩ := pv_idx t
  show (V c main_v2 : S1x512.Idx → EReal) (((cfg2.win 2).blk t).view.emb (ix2 (0 : Fin 1) j))
      = (V c main_v2 : S1x512.Idx → EReal) (ix2 (0 : Fin 1) (pv_hOf t.val j))
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * j.val = 128 * (t.val % 4) + j.val; omega

theorem pv_blk3 (c : Dev nD) (t : Fin cfg2.N) (j : Fin 128) (k : Fin 256) :
    (iblk2 V c 3 t : S128x256.Idx → EReal) (ix2 j k) = pv_W2f V c (pv_hOf t.val j) k := by
  obtain ⟨-, -, -, -, -, -, -, -, e0, e1, -⟩ := pv_idx t
  show (V c main_arg5 : S512x256.Idx → EReal) (((cfg2.win 3).blk t).view.emb (ix2 j k))
      = (V c main_arg5 : S512x256.Idx → EReal) (ix2 (pv_hOf t.val j) k)
  refine congrArg _ (funext fun a => Fin.ext ?_)
  match a with
  | ⟨0, _⟩ => show win2_3.index t (0 : Fin 2) * 128 + 1 * j.val = 128 * (t.val % 4) + j.val; omega
  | ⟨1, _⟩ => show win2_3.index t (1 : Fin 2) * 256 + 1 * k.val = k.val; omega

theorem pv_blk4 (c : Dev nD) (t : Fin cfg2.N) (k : Fin 256) :
    (iblk2 V c 4 t : S1x256.Idx → EReal) (ix2 (0 : Fin 1) k) = pv_w3f V c k := by
  obtain ⟨-, -, -, -, -, -, -, -, -, -, e0, e1, -⟩ := pv_idx t
  show (V c main_v6 : S1x256.Idx → EReal) (((cfg2.win 4).blk t).view.emb (ix2 (0 : Fin 1) k))
      = (V c main_v6 : S1x256.Idx → EReal) (ix2 (0 : Fin 1) k)
  refine congrArg _ (funext fun a => Fin.ext ?_)
  match a with
  | ⟨0, _⟩ => show win2_4.index t (0 : Fin 2) * 1 + 1 * 0 = 0; omega
  | ⟨1, _⟩ => show win2_4.index t (1 : Fin 2) * 256 + 1 * k.val = k.val; omega

theorem pv_blk5 (c : Dev nD) (t : Fin cfg2.N) (k : Fin 256) :
    (iblk2 V c 5 t : S1x256.Idx → EReal) (ix2 (0 : Fin 1) k) = pv_b2f V c k := by
  obtain ⟨-, -, -, -, -, -, -, -, -, -, -, -, e0, e1, -⟩ := pv_idx t
  show (V c main_v3 : S1x256.Idx → EReal) (((cfg2.win 5).blk t).view.emb (ix2 (0 : Fin 1) k))
      = (V c main_v3 : S1x256.Idx → EReal) (ix2 (0 : Fin 1) k)
  refine congrArg _ (funext fun a => Fin.ext ?_)
  match a with
  | ⟨0, _⟩ => show win2_5.index t (0 : Fin 2) * 1 + 1 * 0 = 0; omega
  | ⟨1, _⟩ => show win2_5.index t (1 : Fin 2) * 256 + 1 * k.val = k.val; omega

theorem pv_blk6 (c : Dev nD) (t : Fin cfg2.N) :
    (iblk2 V c 6 t : S1x1.Idx → EReal) (ix2 (0 : Fin 1) (0 : Fin 1)) = pv_b3v V c := by
  obtain ⟨-, -, -, -, -, -, -, -, -, -, -, -, -, -, e0, e1, -⟩ := pv_idx t
  show (V c main_v4 : S1x1.Idx → EReal) (((cfg2.win 6).blk t).view.emb (ix2 (0 : Fin 1) (0 : Fin 1)))
      = (V c main_v4 : S1x1.Idx → EReal) (ix2 (0 : Fin 1) (0 : Fin 1))
  refine congrArg _ (funext fun a => Fin.ext ?_)
  match a with
  | ⟨0, _⟩ => show win2_6.index t (0 : Fin 2) * 1 + 1 * 0 = 0; omega
  | ⟨1, _⟩ => show win2_6.index t (1 : Fin 2) * 1 + 1 * 0 = 0; omega

/-! # The accumulator: the tile's second-layer sum, chunk by chunk -/

/-- One term of the second layer's sum for the pair (row p, row q) of tile u and column k: the hidden unit h of the
    pair times its weight into column k. -/
def pv_term (c : Dev nD) (u : ℕ) (p : Fin 64) (q : Fin 128) (k : Fin 256) (h : Fin 512) : EReal :=
  Cert.Spec.hidAt (pv_af V c) (pv_bf V c) (pv_b1f V c) (pv_bOf u) (pv_nOf u p) (pv_mOf u q) h * pv_W2f V c h k

/-- The sum of f over the 128 hidden units of chunk (i mod 4). -/
def pv_chunk (f : Fin 512 → EReal) (i : ℕ) : EReal := ∑ j : Fin 128, f (pv_hOf i j)

/-- Chunks 0 … i added in order, starting from zero. -/
def pv_part (f : Fin 512 → EReal) : ℕ → EReal
  | 0 => 0 + pv_chunk f 0
  | i + 1 => pv_part f i + pv_chunk f (i + 1)

/-- A chunk's sum depends on the chunk number only modulo 4. -/
theorem pv_chunk_mod (f : Fin 512 → EReal) (i i' : ℕ) (h : i % 4 = i' % 4) : pv_chunk f i = pv_chunk f i' :=
  Finset.sum_congr rfl fun j _ => congrArg f (Fin.ext (by show 128 * (i % 4) + j.val = 128 * (i' % 4) + j.val; rw [h]))

/-- Adding the next chunk. -/
theorem pv_part_step (f : Fin 512 → EReal) (i n : ℕ) (hn : n % 4 = (i + 1) % 4) :
    pv_part f i + pv_chunk f n = pv_part f (i + 1) := by
  show _ = pv_part f i + pv_chunk f (i + 1)
  rw [pv_chunk_mod f n (i + 1) hn]

/-- The four chunks added in order from zero are the whole 512-term sum. -/
theorem pv_part3 (f : Fin 512 → EReal) : pv_part f 3 = ∑ h : Fin 512, f h := by
  rw [sum_chunks4 f]
  show (((0 + pv_chunk f 0) + pv_chunk f 1) + pv_chunk f 2) + pv_chunk f 3 = _
  have e0 : pv_chunk f 0 = ∑ j : Fin 128, f ⟨j.val, by have := j.isLt; omega⟩ :=
    Finset.sum_congr rfl fun j _ => congrArg f (Fin.ext (by show 128 * (0 % 4) + j.val = j.val; omega))
  have e1 : pv_chunk f 1 = ∑ j : Fin 128, f ⟨128 + j.val, by have := j.isLt; omega⟩ :=
    Finset.sum_congr rfl fun j _ => congrArg f (Fin.ext (by show 128 * (1 % 4) + j.val = 128 + j.val; omega))
  have e2 : pv_chunk f 2 = ∑ j : Fin 128, f ⟨256 + j.val, by have := j.isLt; omega⟩ :=
    Finset.sum_congr rfl fun j _ => congrArg f (Fin.ext (by show 128 * (2 % 4) + j.val = 256 + j.val; omega))
  have e3 : pv_chunk f 3 = ∑ j : Fin 128, f ⟨384 + j.val, by have := j.isLt; omega⟩ :=
    Finset.sum_congr rfl fun j _ => congrArg f (Fin.ext (by show 128 * (3 % 4) + j.val = 384 + j.val; omega))
  rw [e0, e1, e2, e3]

/-- The update of one point, over any blocks: the accumulator's entry plus the chunk's sum, once the blocks' entries are
    known to be the chunk's terms. -/
theorem pv_pay3_at (x0 : Vec Ideal S1x64x128 .f32) (x1 : Vec Ideal S1x128x128 .f32) (x2 : Vec Ideal S1x128 .f32) (x3 : Vec Ideal S128x256 .f32)
    (xs : Vec Ideal S64x128x256 .f32) (f : Fin 512 → EReal) (i : ℕ) (p : Fin 64) (q : Fin 128) (k : Fin 256)
    (h : ∀ j : Fin 128, max (x0 (ix3 0 p j) + x1 (ix3 0 q j) + x2 (ix2 0 j)) 0 * x3 (ix2 j k) = f (pv_hOf i j)) :
    k2_pay3 x0 x1 x2 x3 xs (ix3 p q k) = xs (ix3 p q k) + pv_chunk f i :=
  (pay3_apply x0 x1 x2 x3 xs p q k).trans (congrArg (xs (ix3 p q k) + ·) (Finset.sum_congr rfl fun j _ => h j))

/-- The four blocks the update reads at point t, each under its literal type. -/
abbrev pv_x0 (c : Dev nD) (t : Fin cfg2.N) : Vec Ideal S1x64x128 .f32 := iblk2 V c 0 t
abbrev pv_x1 (c : Dev nD) (t : Fin cfg2.N) : Vec Ideal S1x128x128 .f32 := iblk2 V c 1 t
abbrev pv_x2 (c : Dev nD) (t : Fin cfg2.N) : Vec Ideal S1x128 .f32 := iblk2 V c 2 t
abbrev pv_x3 (c : Dev nD) (t : Fin cfg2.N) : Vec Ideal S128x256 .f32 := iblk2 V c 3 t

/-- At point t the blocks' entries are the terms of hidden chunk (t mod 4) of the tile t / 4. -/
theorem pv_point (c : Dev nD) (t : Fin cfg2.N) (p : Fin 64) (q : Fin 128) (k : Fin 256) (j : Fin 128) :
    max (pv_x0 V c t (ix3 (0 : Fin 1) p j) + pv_x1 V c t (ix3 (0 : Fin 1) q j) + pv_x2 V c t (ix2 (0 : Fin 1) j)) 0 * pv_x3 V c t (ix2 j k)
      = pv_term V c (t.val / 4) p q k (pv_hOf t.val j) := by
  show _ = Cert.Spec.hidAt (pv_af V c) (pv_bf V c) (pv_b1f V c) (pv_bOf (t.val / 4)) (pv_nOf (t.val / 4) p) (pv_mOf (t.val / 4) q) (pv_hOf t.val j) * pv_W2f V c (pv_hOf t.val j) k
  unfold Cert.Spec.hidAt
  exact congrArg₂ (· * ·) (congrArg (max · 0) (congrArg₂ (· + ·) (congrArg₂ (· + ·) (pv_blk0 V c t p j) (pv_blk1 V c t q j)) (pv_blk2 V c t j))) (pv_blk3 V c t j k)

/-- After the point at position n the accumulator at (p, q, k) holds chunks 0 … n mod 4 of the sum of the tile n / 4,
    added in order from zero: chunk 0 starts from the zero splat, each later chunk adds to what the point before left,
    and the four points of a tile are consecutive. -/
theorem pv_acc (c : Dev nD) (p : Fin 64) (q : Fin 128) (k : Fin 256) : ∀ (n : ℕ) (hn : n < cfg2.N),
    ((outsAt2 V c n hn).2 : S64x128x256.Idx → EReal) (ix3 p q k) = pv_part (pv_term V c (n / 4) p q k) (n % 4) := by
  intro n
  induction n using Nat.strong_induction_on with
  | _ n ih =>
    intro hn
    by_cases h0 : n % 4 = 0
    · have h1 : ¬n % 4 = 3 := by omega
      have hs : (outsAt2 V c n hn).2 = k2_pay3 (iblk2 V c 0 (⟨n, hn⟩ : Fin cfg2.N)) (iblk2 V c 1 (⟨n, hn⟩ : Fin cfg2.N)) (iblk2 V c 2 (⟨n, hn⟩ : Fin cfg2.N)) (iblk2 V c 3 (⟨n, hn⟩ : Fin cfg2.N)) (k2_pay2 (F := Ideal)) := by
        rw [outsAt2_A V c (⟨n, hn⟩ : Fin cfg2.N) h0 h1]
        dsimp only
        exact sout2_A_eq (F := Ideal) c (grid2.coords (⟨n, hn⟩ : Fin cfg2.N)) (ms2_0 (⟨n, hn⟩ : Fin cfg2.N)) (hs2_0 (⟨n, hn⟩ : Fin cfg2.N)) (ms2_1 (⟨n, hn⟩ : Fin cfg2.N)) (hs2_1 (⟨n, hn⟩ : Fin cfg2.N)) (ms2_2 (⟨n, hn⟩ : Fin cfg2.N)) (hs2_2 (⟨n, hn⟩ : Fin cfg2.N)) (ms2_3 (⟨n, hn⟩ : Fin cfg2.N)) (hs2_3 (⟨n, hn⟩ : Fin cfg2.N)) (ms2_4 (⟨n, hn⟩ : Fin cfg2.N)) (hs2_4 (⟨n, hn⟩ : Fin cfg2.N)) (ms2_5 (⟨n, hn⟩ : Fin cfg2.N)) (hs2_5 (⟨n, hn⟩ : Fin cfg2.N)) (ms2_6 (⟨n, hn⟩ : Fin cfg2.N)) (hs2_6 (⟨n, hn⟩ : Fin cfg2.N)) (ms2_7 (⟨n, hn⟩ : Fin cfg2.N)) (hs2_7 (⟨n, hn⟩ : Fin cfg2.N)) scM2 (Memref.isWhole_whole _) ((hcond2_0 (⟨n, hn⟩ : Fin cfg2.N)).mpr h0) (fun h => h1 ((hcond2_1 (⟨n, hn⟩ : Fin cfg2.N)).mp h)) (iblk2 V c 0 (⟨n, hn⟩ : Fin cfg2.N)) (iblk2 V c 1 (⟨n, hn⟩ : Fin cfg2.N)) (iblk2 V c 2 (⟨n, hn⟩ : Fin cfg2.N)) (iblk2 V c 3 (⟨n, hn⟩ : Fin cfg2.N)) (iblk2 V c 4 (⟨n, hn⟩ : Fin cfg2.N)) (iblk2 V c 5 (⟨n, hn⟩ : Fin cfg2.N)) (iblk2 V c 6 (⟨n, hn⟩ : Fin cfg2.N))
      rw [hs]
      refine (pv_pay3_at (iblk2 V c 0 (⟨n, hn⟩ : Fin cfg2.N)) (iblk2 V c 1 (⟨n, hn⟩ : Fin cfg2.N)) (iblk2 V c 2 (⟨n, hn⟩ : Fin cfg2.N)) (iblk2 V c 3 (⟨n, hn⟩ : Fin cfg2.N)) (k2_pay2 (F := Ideal)) (pv_term V c (n / 4) p q k) n p q k (fun j => pv_point V c (⟨n, hn⟩ : Fin cfg2.N) p q k j)).trans ?_
      rw [pay2_apply, h0]
      exact congrArg (0 + ·) (pv_chunk_mod _ n 0 (by omega))
    · have hp : n - 1 < cfg2.N := by omega
      have e1 : (n - 1) / 4 = n / 4 := by omega
      have hs : (outsAt2 V c n hn).2 = k2_pay3 (iblk2 V c 0 (⟨n, hn⟩ : Fin cfg2.N)) (iblk2 V c 1 (⟨n, hn⟩ : Fin cfg2.N)) (iblk2 V c 2 (⟨n, hn⟩ : Fin cfg2.N)) (iblk2 V c 3 (⟨n, hn⟩ : Fin cfg2.N)) (outsAt2 V c (n - 1) hp).2 := by
        by_cases h1 : n % 4 = 3
        · rw [outsAt2_C V c (⟨n, hn⟩ : Fin cfg2.N) h0 h1]
          dsimp only
          exact sout2_C_eq (F := Ideal) c (grid2.coords (⟨n, hn⟩ : Fin cfg2.N)) (ms2_0 (⟨n, hn⟩ : Fin cfg2.N)) (hs2_0 (⟨n, hn⟩ : Fin cfg2.N)) (ms2_1 (⟨n, hn⟩ : Fin cfg2.N)) (hs2_1 (⟨n, hn⟩ : Fin cfg2.N)) (ms2_2 (⟨n, hn⟩ : Fin cfg2.N)) (hs2_2 (⟨n, hn⟩ : Fin cfg2.N)) (ms2_3 (⟨n, hn⟩ : Fin cfg2.N)) (hs2_3 (⟨n, hn⟩ : Fin cfg2.N)) (ms2_4 (⟨n, hn⟩ : Fin cfg2.N)) (hs2_4 (⟨n, hn⟩ : Fin cfg2.N)) (ms2_5 (⟨n, hn⟩ : Fin cfg2.N)) (hs2_5 (⟨n, hn⟩ : Fin cfg2.N)) (ms2_6 (⟨n, hn⟩ : Fin cfg2.N)) (hs2_6 (⟨n, hn⟩ : Fin cfg2.N)) (ms2_7 (⟨n, hn⟩ : Fin cfg2.N)) (hs2_7 (⟨n, hn⟩ : Fin cfg2.N)) scM2 (Memref.isWhole_whole _) (fun h => h0 ((hcond2_0 (⟨n, hn⟩ : Fin cfg2.N)).mp h)) ((hcond2_1 (⟨n, hn⟩ : Fin cfg2.N)).mpr h1) (iblk2 V c 0 (⟨n, hn⟩ : Fin cfg2.N)) (iblk2 V c 1 (⟨n, hn⟩ : Fin cfg2.N)) (iblk2 V c 2 (⟨n, hn⟩ : Fin cfg2.N)) (iblk2 V c 3 (⟨n, hn⟩ : Fin cfg2.N)) (iblk2 V c 4 (⟨n, hn⟩ : Fin cfg2.N)) (iblk2 V c 5 (⟨n, hn⟩ : Fin cfg2.N)) (iblk2 V c 6 (⟨n, hn⟩ : Fin cfg2.N)) (outsAt2 V c (n - 1) hp).2
        · rw [outsAt2_B V c (⟨n, hn⟩ : Fin cfg2.N) h0 h1]
          dsimp only
          exact sout2_B_eq (F := Ideal) c (grid2.coords (⟨n, hn⟩ : Fin cfg2.N)) (ms2_0 (⟨n, hn⟩ : Fin cfg2.N)) (hs2_0 (⟨n, hn⟩ : Fin cfg2.N)) (ms2_1 (⟨n, hn⟩ : Fin cfg2.N)) (hs2_1 (⟨n, hn⟩ : Fin cfg2.N)) (ms2_2 (⟨n, hn⟩ : Fin cfg2.N)) (hs2_2 (⟨n, hn⟩ : Fin cfg2.N)) (ms2_3 (⟨n, hn⟩ : Fin cfg2.N)) (hs2_3 (⟨n, hn⟩ : Fin cfg2.N)) (ms2_4 (⟨n, hn⟩ : Fin cfg2.N)) (hs2_4 (⟨n, hn⟩ : Fin cfg2.N)) (ms2_5 (⟨n, hn⟩ : Fin cfg2.N)) (hs2_5 (⟨n, hn⟩ : Fin cfg2.N)) (ms2_6 (⟨n, hn⟩ : Fin cfg2.N)) (hs2_6 (⟨n, hn⟩ : Fin cfg2.N)) (ms2_7 (⟨n, hn⟩ : Fin cfg2.N)) (hs2_7 (⟨n, hn⟩ : Fin cfg2.N)) scM2 (Memref.isWhole_whole _) (fun h => h0 ((hcond2_0 (⟨n, hn⟩ : Fin cfg2.N)).mp h)) (fun h => h1 ((hcond2_1 (⟨n, hn⟩ : Fin cfg2.N)).mp h)) (iblk2 V c 0 (⟨n, hn⟩ : Fin cfg2.N)) (iblk2 V c 1 (⟨n, hn⟩ : Fin cfg2.N)) (iblk2 V c 2 (⟨n, hn⟩ : Fin cfg2.N)) (iblk2 V c 3 (⟨n, hn⟩ : Fin cfg2.N)) (iblk2 V c 4 (⟨n, hn⟩ : Fin cfg2.N)) (iblk2 V c 5 (⟨n, hn⟩ : Fin cfg2.N)) (iblk2 V c 6 (⟨n, hn⟩ : Fin cfg2.N)) (outsAt2 V c (n - 1) hp).2
      rw [hs]
      refine (pv_pay3_at (iblk2 V c 0 (⟨n, hn⟩ : Fin cfg2.N)) (iblk2 V c 1 (⟨n, hn⟩ : Fin cfg2.N)) (iblk2 V c 2 (⟨n, hn⟩ : Fin cfg2.N)) (iblk2 V c 3 (⟨n, hn⟩ : Fin cfg2.N)) (outsAt2 V c (n - 1) hp).2 (pv_term V c (n / 4) p q k) n p q k (fun j => pv_point V c (⟨n, hn⟩ : Fin cfg2.N) p q k j)).trans ?_
      rw [ih (n - 1) (by omega) hp, e1]
      exact (pv_part_step _ ((n - 1) % 4) n (by omega)).trans (congrArg (pv_part _) (by omega))

/-! # The output block of a finishing point, and the array -/

/-- The result array as one function of the operands: entry (b, n, m) is the specification's value at that pair. -/
def pv_G (c : Dev nD) : S2x1024x256.Idx → EReal := fun i =>
  Cert.Spec.outAt (pv_af V c) (pv_bf V c) (pv_b1f V c) (pv_W2f V c) (pv_b2f V c) (pv_w3f V c) (pv_b3v V c) (i 0) (i 1) (i 2)

/-- At a point of hidden chunk 3 the output block's entry (p, q) is the specification's value at the pair
    (row p of the tile's row block, row q of its column block): the accumulator there holds the whole 512-term sum. -/
theorem pv_out (c : Dev nD) (t : Fin cfg2.N) (h1 : t.val % 4 = 3) (y : S1x64x128.Idx) :
    ((outsAt2 V c t.val t.isLt).1 : S1x64x128.Idx → EReal) y
      = Cert.Spec.outAt (pv_af V c) (pv_bf V c) (pv_b1f V c) (pv_W2f V c) (pv_b2f V c) (pv_w3f V c) (pv_b3v V c)
          (pv_bOf (t.val / 4)) (pv_nOf (t.val / 4) (y 1)) (pv_mOf (t.val / 4) (y 2)) := by
  obtain ⟨u, p, q, rfl⟩ : ∃ (u : Fin 1) (p : Fin 64) (q : Fin 128), y = ix3 u p q := ⟨y 0, y 1, y 2, eq_ix3 y⟩
  obtain rfl : u = 0 := Subsingleton.elim _ _
  show _ = Cert.Spec.outAt (pv_af V c) (pv_bf V c) (pv_b1f V c) (pv_W2f V c) (pv_b2f V c) (pv_w3f V c) (pv_b3v V c)
          (pv_bOf (t.val / 4)) (pv_nOf (t.val / 4) p) (pv_mOf (t.val / 4) q)
  have h0 : ¬t.val % 4 = 0 := by omega
  have hp : t.val - 1 < cfg2.N := Nat.lt_of_le_of_lt (Nat.sub_le _ _) t.isLt
  have ho : (outsAt2 V c t.val t.isLt).1 = k2_pay1 (outsAt2 V c t.val t.isLt).2 (iblk2 V c 5 t) (iblk2 V c 4 t) (iblk2 V c 6 t) := by
    rw [outsAt2_C V c t h0 h1]
    dsimp only
    refine (out2_C_7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) hp).2).trans ?_
    exact congrArg (fun s => k2_pay1 s (iblk2 V c 5 t) (iblk2 V c 4 t) (iblk2 V c 6 t))
      (sout2_C_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) hp).2).symm
  rw [ho]
  refine (pay1_apply (outsAt2 V c t.val t.isLt).2 (iblk2 V c 5 t) (iblk2 V c 4 t) (iblk2 V c 6 t) p q).trans ?_
  unfold Cert.Spec.outAt Cert.Spec.accAt
  rw [pv_blk6 V c t]
  refine congrArg (· + pv_b3v V c) (Finset.sum_congr rfl fun k _ => ?_)
  rw [pv_acc V c p q k t.val t.isLt, h1, pv_part3, pv_blk5 V c t k, pv_blk4 V c t k]
  rfl

/-- What a finishing point writes back is its block of the result array. -/
theorem pv_flushed (c : Dev nD) (t : Fin cfg2.N) (hf : (cfg2.win 7).flush t = true) :
    (dat2 (F := Ideal) V c).flushed 7 t = ((cfg2.win 7).blk t).view.read (Elt Ideal) (pv_G V c) := by
  have h1 : t.val % 4 = 3 := (flush2_7 t).mp hf
  obtain ⟨-, -, -, -, -, -, -, -, -, -, -, -, -, -, -, -, e0, e1, e2⟩ := pv_idx t
  show (cfg2.win 7).cut (grid2.coords t) ((dat2 (F := Ideal) V c).after 7 t) = _
  rw [after2_7]
  funext j
  show ((outsAt2 V c t.val t.isLt).1 : S1x64x128.Idx → EReal) ((cfg2.win 7).xinj (grid2.coords t) j)
      = pv_G V c (((cfg2.win 7).blk t).view.emb j)
  refine (pv_out V c t h1 ((cfg2.win 7).xinj (grid2.coords t) j)).trans ?_
  have hj0 : (j 0).val < 1 := (j 0).isLt
  have hb : pv_bOf (t.val / 4) = (((cfg2.win 7).blk t).view.emb j) 0 :=
    Fin.ext (by show t.val / 4 / 32 % 2 = win2_7.index t (0 : Fin 3) * 1 + 1 * (j 0).val; omega)
  have hn : pv_nOf (t.val / 4) ((cfg2.win 7).xinj (grid2.coords t) j 1) = (((cfg2.win 7).blk t).view.emb j) 1 :=
    Fin.ext (by show 64 * (t.val / 4 / 2 % 16) + (j 1).val = win2_7.index t (1 : Fin 3) * 64 + 1 * (j 1).val; omega)
  have hm : pv_mOf (t.val / 4) ((cfg2.win 7).xinj (grid2.coords t) j 2) = (((cfg2.win 7).blk t).view.emb j) 2 :=
    Fin.ext (by show 128 * (t.val / 4 % 2) + (j 2).val = win2_7.index t (2 : Fin 3) * 128 + 1 * (j 2).val; omega)
  rw [hb, hn, hm]
  rfl

/-- An index of the result array is in point t's block iff each coordinate is in the block's range on its axis. -/
theorem pv_mem_blk (t : Fin cfg2.N) (i : S2x1024x256.Idx) :
    i ∈ ((cfg2.win 7).blk t).view.set ↔ ∀ a : Fin 3, win2_7.index t a * S1x64x128.size a ≤ (i a).val ∧ (i a).val < win2_7.index t a * S1x64x128.size a + S1x64x128.size a := by
  show i ∈ ((View.whole main_v7).slice (win2_7.rect t)).set ↔ _
  rw [View.set_slice_whole, Rect.mem_set_unit]
  exact Iff.rfl

/-- Every entry (b, n, m) lies in the block of the finishing point of its tile: batch b, row tile n / 64, column tile m / 128. -/
theorem pv_cover (i : S2x1024x256.Idx) :
    ∃ t : Fin cfg2.N, (cfg2.win 7).flush t = true ∧ i ∈ ((cfg2.win 7).blk t).view.set := by
  have hN : cfg2.N = 256 := N_2
  have hi0 : (i 0).val < 2 := (i 0).isLt
  have hi1 : (i 1).val < 1024 := (i 1).isLt
  have hi2 : (i 2).val < 256 := (i 2).isLt
  let t : Fin cfg2.N := ⟨(((i 0).val * 16 + (i 1).val / 64) * 2 + (i 2).val / 128) * 4 + 3, by rw [hN]; omega⟩
  have ht : t.val = (((i 0).val * 16 + (i 1).val / 64) * 2 + (i 2).val / 128) * 4 + 3 := rfl
  obtain ⟨-, -, -, -, -, -, -, -, -, -, -, -, -, -, -, -, e0, e1, e2⟩ := pv_idx t
  refine ⟨t, (flush2_7 t).mpr (by omega), ?_⟩
  rw [pv_mem_blk]
  intro a
  match a with
  | ⟨0, _⟩ => show win2_7.index t (0 : Fin 3) * 1 ≤ (i 0).val ∧ (i 0).val < win2_7.index t (0 : Fin 3) * 1 + 1; omega
  | ⟨1, _⟩ => show win2_7.index t (1 : Fin 3) * 64 ≤ (i 1).val ∧ (i 1).val < win2_7.index t (1 : Fin 3) * 64 + 64; omega
  | ⟨2, _⟩ => show win2_7.index t (2 : Fin 3) * 128 ≤ (i 2).val ∧ (i 2).val < win2_7.index t (2 : Fin 3) * 128 + 128; omega

/-- The result array after the last point. -/
theorem pv_final (c : Dev nD) : (dat2 (F := Ideal) V c).arrAt 7 cfg2.N = pv_G V c :=
  (dat2 (F := Ideal) V c).arrAt_eq_of_cover 7 (pv_G V c) (fun t hf => pv_flushed V c t hf) pv_cover

/-- Entry (b, n, m) of the result array is the specification's value at the pair (n, m) of batch b, as a function of
    the projected operands, the biases and the weights. -/
theorem pair_value (c : Dev nD) (b : Fin 2) (n : Fin 1024) (mm : Fin 256) :
    ((dat2 (F := Ideal) V c).arrAt 7 cfg2.N : S2x1024x256.Idx → EReal) (ix3 b n mm)
      = Cert.Spec.outAt (fun b n h => (V c main_v0 : S2x1024x512.Idx → EReal) (ix3 b n h))
          (fun b mm h => (V c main_v1 : S2x256x512.Idx → EReal) (ix3 b mm h))
          (fun h => (V c main_v2 : S1x512.Idx → EReal) (ix2 0 h))
          (fun h k => (V c main_arg5 : S512x256.Idx → EReal) (ix2 h k))
          (fun k => (V c main_v3 : S1x256.Idx → EReal) (ix2 0 k))
          (fun k => (V c main_v6 : S1x256.Idx → EReal) (ix2 0 k))
          ((V c main_v4 : S1x1.Idx → EReal) (ix2 0 0)) b n mm := by
  rw [pv_final]
  rfl

end Cert.KernelIdeal.Hand

end
-- ==== Proof.KernelIdeal.Result.lean ====
/-
  The result array of the idealized kernel as a function of the nine argument arrays.

  The pairwise region's output is the specification's `outAt` of the arrays it is entered with; those are
  the two projections' products (each the specification's `projAt` of an operand and its weights), the
  512×256 second-layer weights as launched, and four arrays the main function made by reshapes, which keep
  the row-major order: the 512-vector b1 as a 1×512 row, the 256-vector b2 as a 1×256 row, the 256×1 third-layer
  weights as a 1×256 row, the one-element b3 as a 1×1 array.
-/
import proofs.«119945_j70798240907716_1_alg».proof.Proof.KernelIdeal.Run
import proofs.«119945_j70798240907716_1_alg».proof.Proof.KernelIdeal.ProjValue
import proofs.«119945_j70798240907716_1_alg».proof.Proof.KernelIdeal.PairValue
import proofs.«119945_j70798240907716_1_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg)

/-- A 512-vector read as a 1×512 row: entry (0, h) is entry h. -/
theorem row_of_vec512 (x : S512.Idx → EReal) (h : Fin 512) :
    shapeCast S1x512 x shapeCasts_S512_S1x512 (ix2 0 h) = x (ix1 h) :=
  shapeCast_apply x shapeCasts_S512_S1x512 (ix2 0 h) (ix1 h) (by
    rw [Shape.rowMajor_val_one, Shape.rowMajor_val_two]; show h.val = 0 * 512 + h.val; omega)

/-- A 256-vector read as a 1×256 row: entry (0, k) is entry k. -/
theorem row_of_vec256 (x : S256.Idx → EReal) (k : Fin 256) :
    shapeCast S1x256 x shapeCasts_S256_S1x256 (ix2 0 k) = x (ix1 k) :=
  shapeCast_apply x shapeCasts_S256_S1x256 (ix2 0 k) (ix1 k) (by
    rw [Shape.rowMajor_val_one, Shape.rowMajor_val_two]; show k.val = 0 * 256 + k.val; omega)

/-- A 256×1 column read as a 256-vector: entry k is entry (k, 0). -/
theorem vec_of_col256 (x : S256x1.Idx → EReal) (k : Fin 256) :
    shapeCast S256 x shapeCasts_S256x1_S256 (ix1 k) = x (ix2 k 0) :=
  shapeCast_apply x shapeCasts_S256x1_S256 (ix1 k) (ix2 k 0) (by
    rw [Shape.rowMajor_val_one, Shape.rowMajor_val_two]; show k.val * 1 + 0 = k.val; omega)

/-- A one-element vector read as a 1×1 array: entry (0, 0) is entry 0. -/
theorem one_of_vec1 (x : S1.Idx → EReal) :
    shapeCast S1x1 x shapeCasts_S1_S1x1 (ix2 0 0) = x (ix1 0) :=
  shapeCast_apply x shapeCasts_S1_S1x1 (ix2 0 0) (ix1 0) (by
    rw [Shape.rowMajor_val_one, Shape.rowMajor_val_two]; show 0 = 0 * 1 + 0; omega)

/-- The result at (b, n, m): the specification's function of the nine arguments' entries. -/
theorem result_at (c : Dev nD) (b : Fin 2) (n : Fin 1024) (mm : Fin 256) :
    (W4 (F := Ideal) m ρ c (Proc.devRef .tc main_v7) : S2x1024x256.Idx → EReal) (ix3 b n mm)
      = Cert.Spec.outAt
          (fun b n h => Cert.Spec.projAt (fun b r d => ((m ((c : Thread nD τ).loc main_arg0)) : S2x1024x576.Idx → EReal) (ix3 b r d)) (fun d h => ((m ((c : Thread nD τ).loc main_arg2)) : S576x512.Idx → EReal) (ix2 d h)) b n h)
          (fun b mm h => Cert.Spec.projAt (fun b r d => ((m ((c : Thread nD τ).loc main_arg1)) : S2x256x576.Idx → EReal) (ix3 b r d)) (fun d h => ((m ((c : Thread nD τ).loc main_arg3)) : S576x512.Idx → EReal) (ix2 d h)) b mm h)
          (fun h => ((m ((c : Thread nD τ).loc main_arg4)) : S512.Idx → EReal) (ix1 h)) (fun h k => ((m ((c : Thread nD τ).loc main_arg5)) : S512x256.Idx → EReal) (ix2 h k))
          (fun k => ((m ((c : Thread nD τ).loc main_arg6)) : S256.Idx → EReal) (ix1 k)) (fun k => ((m ((c : Thread nD τ).loc main_arg7)) : S256x1.Idx → EReal) (ix2 k 0))
          (((m ((c : Thread nD τ).loc main_arg8)) : S1.Idx → EReal) (ix1 0)) b n mm := by
  rw [W4_result, pair_value (V3 m ρ) c b n mm]
  have e1 : (fun (b : Fin 2) (n : Fin 1024) (h : Fin 512) => (V3 m ρ c main_v0 : S2x1024x512.Idx → EReal) (ix3 b n h))
      = fun b n h => Cert.Spec.projAt (fun b r d => ((m ((c : Thread nD τ).loc main_arg0)) : S2x1024x576.Idx → EReal) (ix3 b r d)) (fun d h => ((m ((c : Thread nD τ).loc main_arg2)) : S576x512.Idx → EReal) (ix2 d h)) b n h := by
    funext b n h
    rw [V3_main_v0]
    exact proj0_value (V0 m ρ) c b n h
  have e2 : (fun (b : Fin 2) (mm : Fin 256) (h : Fin 512) => (V3 m ρ c main_v1 : S2x256x512.Idx → EReal) (ix3 b mm h))
      = fun b mm h => Cert.Spec.projAt (fun b r d => ((m ((c : Thread nD τ).loc main_arg1)) : S2x256x576.Idx → EReal) (ix3 b r d)) (fun d h => ((m ((c : Thread nD τ).loc main_arg3)) : S576x512.Idx → EReal) (ix2 d h)) b mm h := by
    funext b mm h
    rw [V3_main_v1, proj1_value (V1 m ρ) c b mm h, V1_main_arg1, V1_main_arg3]
  have e3 : (fun (h : Fin 512) => (V3 m ρ c main_v2 : S1x512.Idx → EReal) (ix2 0 h)) = fun h => ((m ((c : Thread nD τ).loc main_arg4)) : S512.Idx → EReal) (ix1 h) := by
    funext h
    rw [V3_main_v2]
    exact row_of_vec512 _ h
  have e4 : (fun (h : Fin 512) (k : Fin 256) => (V3 m ρ c main_arg5 : S512x256.Idx → EReal) (ix2 h k)) = fun h k => ((m ((c : Thread nD τ).loc main_arg5)) : S512x256.Idx → EReal) (ix2 h k) := by
    funext h k
    rw [V3_main_arg5]
  have e5 : (fun (k : Fin 256) => (V3 m ρ c main_v3 : S1x256.Idx → EReal) (ix2 0 k)) = fun k => ((m ((c : Thread nD τ).loc main_arg6)) : S256.Idx → EReal) (ix1 k) := by
    funext k
    rw [V3_main_v3]
    exact row_of_vec256 _ k
  have e6 : (fun (k : Fin 256) => (V3 m ρ c main_v6 : S1x256.Idx → EReal) (ix2 0 k)) = fun k => ((m ((c : Thread nD τ).loc main_arg7)) : S256x1.Idx → EReal) (ix2 k 0) := by
    funext k
    rw [V3_main_v6]
    exact (row_of_vec256 _ k).trans (vec_of_col256 _ k)
  have e7 : (V3 m ρ c main_v4 : S1x1.Idx → EReal) (ix2 0 0) = ((m ((c : Thread nD τ).loc main_arg8)) : S1.Idx → EReal) (ix1 0) := by
    rw [V3_main_v4]
    exact one_of_vec1 _
  rw [e1, e2, e3, e4, e5, e6, e7]

/-- The same for the whole result array. -/
theorem result_value (c : Dev nD) :
    (W4 (F := Ideal) m ρ c (Proc.devRef .tc main_v7) : S2x1024x256.Idx → EReal)
      = fun i : S2x1024x256.Idx => Cert.Spec.outAt
          (fun b n h => Cert.Spec.projAt (fun b r d => ((m ((c : Thread nD τ).loc main_arg0)) : S2x1024x576.Idx → EReal) (ix3 b r d)) (fun d h => ((m ((c : Thread nD τ).loc main_arg2)) : S576x512.Idx → EReal) (ix2 d h)) b n h)
          (fun b mm h => Cert.Spec.projAt (fun b r d => ((m ((c : Thread nD τ).loc main_arg1)) : S2x256x576.Idx → EReal) (ix3 b r d)) (fun d h => ((m ((c : Thread nD τ).loc main_arg3)) : S576x512.Idx → EReal) (ix2 d h)) b mm h)
          (fun h => ((m ((c : Thread nD τ).loc main_arg4)) : S512.Idx → EReal) (ix1 h)) (fun h k => ((m ((c : Thread nD τ).loc main_arg5)) : S512x256.Idx → EReal) (ix2 h k))
          (fun k => ((m ((c : Thread nD τ).loc main_arg6)) : S256.Idx → EReal) (ix1 k)) (fun k => ((m ((c : Thread nD τ).loc main_arg7)) : S256x1.Idx → EReal) (ix2 k 0))
          (((m ((c : Thread nD τ).loc main_arg8)) : S1.Idx → EReal) (ix1 0)) (i 0) (i 1) (i 2) := by
  funext i
  rw [eq_ix3 i]
  exact result_at m ρ c (i 0) (i 1) (i 2)

end Cert.KernelIdeal.Hand

end
-- ==== Proof.RefValue.lean ====
/-
  The reference program's result, entry by entry, is the specification's `outAt`.

  The reference computes, for a batch b, a row n of the first operand and a row m of the second,
    a(b,n,h)  = Σ_d A(b,n,d) · W1a(d,h)            b'(b,m,h) = Σ_d B(b,m,d) · W1b(d,h)
    hid(b,n,m,h) = max (a(b,n,h) + b'(b,m,h) + b1(h)) 0
    acc(b,n,m,k) = Σ_h hid(b,n,m,h) · W2(h,k)
    out(b,n,m)   = (Σ_k max (acc(b,n,m,k) + b2(k)) 0 · W3(k,0)) + b3(0)
  as a chain of contractions, broadcasts, sums, maxima with a broadcast zero and two reshapes. Each stage of
  that chain is read here at an index given by its coordinates: a broadcast reads its operand at the
  coordinates it keeps, a contraction is the sum over its one contracted coordinate, a reshape that drops a
  unit axis keeps the row-major position, and the zero word is the extended real 0.
-/
import proofs.«119945_j70798240907716_1_alg».proof.Proof.Gen.ReferenceIdeal.Run
import proofs.«119945_j70798240907716_1_alg».proof.Proof.Gen.ReferenceIdeal.Read
import proofs.«119945_j70798240907716_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

open scoped BigOperators

/-- The nine argument arrays' types. -/
abbrev TA := (⟨S2x1024x576, .f32⟩ : BufTy).Contents (Elt Ideal)
abbrev TB := (⟨S2x256x576, .f32⟩ : BufTy).Contents (Elt Ideal)
abbrev TW1 := (⟨S576x512, .f32⟩ : BufTy).Contents (Elt Ideal)
abbrev Tb1 := (⟨S512, .f32⟩ : BufTy).Contents (Elt Ideal)
abbrev TW2 := (⟨S512x256, .f32⟩ : BufTy).Contents (Elt Ideal)
abbrev Tb2 := (⟨S256, .f32⟩ : BufTy).Contents (Elt Ideal)
abbrev TW3 := (⟨S256x1, .f32⟩ : BufTy).Contents (Elt Ideal)
abbrev Tb3 := (⟨S1, .f32⟩ : BufTy).Contents (Elt Ideal)

/-! ## The two projections -/

/-- The first projection at (b, n, h): row (b, n) of A against column h of W1a. -/
theorem proj_a (A : TA) (W1a : TW1) (b : Fin 2) (n : Fin 1024) (h : Fin 512) :
    val_main_v0 (F := Ideal) A W1a (ix3 b n h)
      = Cert.Spec.projAt (fun b r d => A (ix3 b r d)) (fun d h => W1a (ix2 d h)) b n h := by
  rw [val_main_v0_apply]
  unfold Cert.Spec.projAt
  refine Finset.sum_congr rfl fun d _ => ?_
  have el : lidx_main_v0 (ix3 b n h) d = ix3 b n d := funext fun a => Fin.ext (by
    match a with
    | ⟨0, _⟩ => rfl
    | ⟨1, _⟩ => rfl
    | ⟨2, _⟩ => rfl)
  have er : ridx_main_v0 (ix3 b n h) d = ix2 d h := funext fun a => Fin.ext (by
    match a with
    | ⟨0, _⟩ => rfl
    | ⟨1, _⟩ => rfl)
  rw [el, er]

/-- The second projection at (b, m, h): row (b, m) of B against column h of W1b. -/
theorem proj_b (B : TB) (W1b : TW1) (b : Fin 2) (mm : Fin 256) (h : Fin 512) :
    val_main_v1 (F := Ideal) B W1b (ix3 b mm h)
      = Cert.Spec.projAt (fun b r d => B (ix3 b r d)) (fun d h => W1b (ix2 d h)) b mm h := by
  rw [val_main_v1_apply]
  unfold Cert.Spec.projAt
  refine Finset.sum_congr rfl fun d _ => ?_
  have el : lidx_main_v1 (ix3 b mm h) d = ix3 b mm d := funext fun a => Fin.ext (by
    match a with
    | ⟨0, _⟩ => rfl
    | ⟨1, _⟩ => rfl
    | ⟨2, _⟩ => rfl)
  have er : ridx_main_v1 (ix3 b mm h) d = ix2 d h := funext fun a => Fin.ext (by
    match a with
    | ⟨0, _⟩ => rfl
    | ⟨1, _⟩ => rfl)
  rw [el, er]

/-! ## The first layer -/

/-- The first hidden layer at (b, n, m, h): the two projections are broadcast along the axis each lacks, the bias
    along the three leading axes, and the maximum is taken with a broadcast zero. -/
theorem hid (A : TA) (B : TB) (W1a W1b : TW1) (b1 : Tb1) (b : Fin 2) (n : Fin 1024) (mm : Fin 256) (h : Fin 512) :
    val_main_v10 (F := Ideal) A B W1a W1b b1 (ix4 b n mm h)
      = Cert.Spec.hidAt
          (fun b n h => Cert.Spec.projAt (fun b r d => A (ix3 b r d)) (fun d h => W1a (ix2 d h)) b n h)
          (fun b mm h => Cert.Spec.projAt (fun b r d => B (ix3 b r d)) (fun d h => W1b (ix2 d h)) b mm h)
          (fun h => b1 (ix1 h)) b n mm h := by
  have ea : idx_main_v2 (idx_main_v4 (ix4 b n mm h)) = ix3 b n h := funext fun a => Fin.ext (by
    match a with
    | ⟨0, _⟩ => rfl
    | ⟨1, _⟩ => rfl
    | ⟨2, _⟩ => rfl)
  have eb : idx_main_v3 (idx_main_v5 (ix4 b n mm h)) = ix3 b mm h := funext fun a => Fin.ext (by
    match a with
    | ⟨0, _⟩ => rfl
    | ⟨1, _⟩ => rfl
    | ⟨2, _⟩ => rfl)
  have ec : idx_main_v7 (idx_main_v8 (ix4 b n mm h)) = ix1 h := funext fun a => Fin.ext (by
    match a with
    | ⟨0, _⟩ => rfl)
  rw [val_main_v10_apply, val_main_v9_apply, val_main_v6_apply, val_main_v4_apply, val_main_v2_apply, ea,
    val_main_v5_apply, val_main_v3_apply, eb, val_main_v8_apply, val_main_v7_apply, ec,
    val_main_call0_v0_apply, val_main_call0_cst_apply, proj_a, proj_b]
  simp only [Ideal.addf_def, Ideal.maximumf_def, Ideal.ofBits_def, Ideal.ofBits_zero_f32]
  rfl

/-! ## The second layer -/

/-- The second layer before its bias at (b, n, m, k): the hidden row against column k of W2. -/
theorem acc (A : TA) (B : TB) (W1a W1b : TW1) (b1 : Tb1) (W2 : TW2) (b : Fin 2) (n : Fin 1024) (mm : Fin 256)
    (k : Fin 256) :
    val_main_v11 (F := Ideal) A B W1a W1b b1 W2 (ix4 b n mm k)
      = Cert.Spec.accAt
          (fun b n h => Cert.Spec.projAt (fun b r d => A (ix3 b r d)) (fun d h => W1a (ix2 d h)) b n h)
          (fun b mm h => Cert.Spec.projAt (fun b r d => B (ix3 b r d)) (fun d h => W1b (ix2 d h)) b mm h)
          (fun h => b1 (ix1 h)) (fun h k => W2 (ix2 h k)) b n mm k := by
  rw [val_main_v11_apply]
  unfold Cert.Spec.accAt
  refine Finset.sum_congr rfl fun h _ => ?_
  have el : lidx_main_v11 (ix4 b n mm k) h = ix4 b n mm h := funext fun a => Fin.ext (by
    match a with
    | ⟨0, _⟩ => rfl
    | ⟨1, _⟩ => rfl
    | ⟨2, _⟩ => rfl
    | ⟨3, _⟩ => rfl)
  have er : ridx_main_v11 (ix4 b n mm k) h = ix2 h k := funext fun a => Fin.ext (by
    match a with
    | ⟨0, _⟩ => rfl
    | ⟨1, _⟩ => rfl)
  rw [el, er, hid]

/-- The second layer after bias and relu at (b, n, m, k). -/
theorem act2 (A : TA) (B : TB) (W1a W1b : TW1) (b1 : Tb1) (W2 : TW2) (b2 : Tb2) (b : Fin 2) (n : Fin 1024)
    (mm : Fin 256) (k : Fin 256) :
    val_main_v15 (F := Ideal) A B W1a W1b b1 W2 b2 (ix4 b n mm k)
      = max (Cert.Spec.accAt
          (fun b n h => Cert.Spec.projAt (fun b r d => A (ix3 b r d)) (fun d h => W1a (ix2 d h)) b n h)
          (fun b mm h => Cert.Spec.projAt (fun b r d => B (ix3 b r d)) (fun d h => W1b (ix2 d h)) b mm h)
          (fun h => b1 (ix1 h)) (fun h k => W2 (ix2 h k)) b n mm k + b2 (ix1 k)) 0 := by
  have ec : idx_main_v12 (idx_main_v13 (ix4 b n mm k)) = ix1 k := funext fun a => Fin.ext (by
    match a with
    | ⟨0, _⟩ => rfl)
  rw [val_main_v15_apply, val_main_v14_apply, acc, val_main_v13_apply, val_main_v12_apply, ec,
    val_main_call1_v0_apply, val_main_call1_cst_apply]
  simp only [Ideal.addf_def, Ideal.maximumf_def, Ideal.ofBits_def, Ideal.ofBits_zero_f32]

/-! ## The third layer and the result -/

/-- Dropping the trailing unit axis keeps the three leading coordinates. -/
theorem idx17 (b : Fin 2) (n : Fin 1024) (mm : Fin 256) :
    idx_main_v17 (ix3 b n mm) = ix4 b n mm (0 : Fin 1) := funext fun a => Fin.ext (by
  have hb := b.isLt
  have hn := n.isLt
  have hm := mm.isLt
  match a with
  | ⟨0, _⟩ => show ((b.val * 1024 + n.val) * 256 + mm.val) / 262144 = b.val; omega
  | ⟨1, _⟩ => show ((b.val * 1024 + n.val) * 256 + mm.val) / 256 % 1024 = n.val; omega
  | ⟨2, _⟩ => show ((b.val * 1024 + n.val) * 256 + mm.val) / 1 % 256 = mm.val; omega
  | ⟨3, _⟩ => rfl)

/-- The one-entry last bias read as a scalar is its entry 0. -/
theorem bias3 (b3 : Tb3) (j : S_.Idx) : val_main_v18 (F := Ideal) b3 j = b3 (ix1 0) := by
  unfold val_main_v18
  refine shapeCast_apply b3 shapeCasts_S1_S_ j (ix1 0) ?_
  rw [Shape.rowMajor_val_one]
  have hj := (S_.rowMajor j).isLt
  have h1 : S_.numel = 1 := rfl
  show 0 = (S_.rowMajor j).val
  omega

/-- THE REFERENCE'S RESULT AT (b, n, m) is the specification's `outAt` of the nine arrays' entries. -/
theorem ref_value (A : TA) (B : TB) (W1a W1b : TW1) (b1 : Tb1) (W2 : TW2) (b2 : Tb2) (W3 : TW3) (b3 : Tb3)
    (b : Fin 2) (n : Fin 1024) (mm : Fin 256) :
    val_main_v20 (F := Ideal) A B W1a W1b b1 W2 b2 W3 b3 (ix3 b n mm)
      = Cert.Spec.outAt
          (fun b n h => Cert.Spec.projAt (fun b r d => A (ix3 b r d)) (fun d h => W1a (ix2 d h)) b n h)
          (fun b mm h => Cert.Spec.projAt (fun b r d => B (ix3 b r d)) (fun d h => W1b (ix2 d h)) b mm h)
          (fun h => b1 (ix1 h)) (fun h k => W2 (ix2 h k)) (fun k => b2 (ix1 k)) (fun k => W3 (ix2 k 0))
          (b3 (ix1 0)) b n mm := by
  rw [val_main_v20_apply, val_main_v17_apply, idx17, val_main_v16_apply, val_main_v19_apply, bias3]
  unfold Cert.Spec.outAt
  simp only [Ideal.addf_def]
  congr 1
  refine Finset.sum_congr rfl fun k _ => ?_
  have el : lidx_main_v16 (ix4 b n mm (0 : Fin 1)) k = ix4 b n mm k := funext fun a => Fin.ext (by
    match a with
    | ⟨0, _⟩ => rfl
    | ⟨1, _⟩ => rfl
    | ⟨2, _⟩ => rfl
    | ⟨3, _⟩ => rfl)
  have er : ridx_main_v16 (ix4 b n mm (0 : Fin 1)) k = ix2 k (0 : Fin 1) := funext fun a => Fin.ext (by
    match a with
    | ⟨0, _⟩ => rfl
    | ⟨1, _⟩ => rfl)
  rw [el, er, act2]

/-- The same for the whole array: the reference's result is the array of the specification's entries. -/
theorem ref_value_fun (A : TA) (B : TB) (W1a W1b : TW1) (b1 : Tb1) (W2 : TW2) (b2 : Tb2) (W3 : TW3) (b3 : Tb3) :
    val_main_v20 (F := Ideal) A B W1a W1b b1 W2 b2 W3 b3
      = fun i : S2x1024x256.Idx => Cert.Spec.outAt
          (fun b n h => Cert.Spec.projAt (fun b r d => A (ix3 b r d)) (fun d h => W1a (ix2 d h)) b n h)
          (fun b mm h => Cert.Spec.projAt (fun b r d => B (ix3 b r d)) (fun d h => W1b (ix2 d h)) b mm h)
          (fun h => b1 (ix1 h)) (fun h k => W2 (ix2 h k)) (fun k => b2 (ix1 k)) (fun k => W3 (ix2 k 0))
          (b3 (ix1 0)) (i 0) (i 1) (i 2) := by
  funext i
  rw [eq_ix3 i]
  exact ref_value A B W1a W1b b1 W2 b2 W3 b3 (i 0) (i 1) (i 2)

end Cert.ReferenceIdeal.RefValue

end
-- ==== Proof.lean ====
/-
  The certificate of the pairwise three-layer network kernel against its plain reference.

  Both programs compute, for a batch b, a row n of the first operand and a row m of the second,
    out(b,n,m) = (Σ_k max (Σ_h max (a(b,n,h) + b'(b,m,h) + b1(h)) 0 · W2(h,k) + b2(k)) 0 · W3(k,0)) + b3(0),
  where a = A · W1a and b' = B · W1b are the two projections. The kernel computes the projections in two
  regions, row block by row block, and the rest in a third region that walks the hidden dimension in four
  chunks of 128, keeping the partial sums of the second layer in an accumulator between grid points; the
  reference computes the same sums whole. Over the extended reals the two results are equal entry by entry:
  the only law used beyond unfolding is that a sum over 512 terms is the sum of its four consecutive
  128-term chunks, which holds in any commutative additive monoid, so the inputs' finiteness is never used.

  The three frames: each kernel program runs region after region, every region's body proved once at a
  symbolic grid point; the reference is a straight line of host operations. The idealization rewrote nothing.
-/
import proofs.«119945_j70798240907716_1_alg».proof.Defs
import proofs.«119945_j70798240907716_1_alg».proof.Proof.Gen.Kernel
import proofs.«119945_j70798240907716_1_alg».proof.Proof.Gen.KernelIdeal
import proofs.«119945_j70798240907716_1_alg».proof.Proof.Gen.ReferenceIdeal
import proofs.«119945_j70798240907716_1_alg».proof.Proof.Gen.Pre_finite_inputs
import proofs.«119945_j70798240907716_1_alg».proof.Proof.Gen.ReferenceIdeal.Run
import proofs.«119945_j70798240907716_1_alg».proof.Proof.Gen.ReferenceIdeal.Read
import proofs.«119945_j70798240907716_1_alg».proof.Proof.Kernel.Run
import proofs.«119945_j70798240907716_1_alg».proof.Proof.KernelIdeal.Run
import proofs.«119945_j70798240907716_1_alg».proof.Proof.KernelIdeal.Result
import proofs.«119945_j70798240907716_1_alg».proof.Proof.RefValue

noncomputable section

namespace Cert.Proof

open Idealize.ShloMosaic Idealize.ShloMosaic.TcCoe Idealize.SL.Sem

/-- The word-level kernel runs to the end and leaves its nine argument arrays as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the nine arguments both programs end with the same result array: each is the
    specification's function of the arguments' entries. -/
theorem algebraic : Cert.algebraic_KernelIdeal_ReferenceIdeal := by
  intro m ρ m' ρ' _ hagree
  refine ⟨fun c => Cert.KernelIdeal.Hand.W4 m ρ c (Proc.devRef .tc Cert.KernelIdeal.main_v7), ?_, ?_⟩
  · exact (θ_run Cert.KernelIdeal.defs _ _).mono (fun r h c =>
      ⟨h c _ (Cert.KernelIdeal.Hand.mem_uc Cert.KernelIdeal.main_v7 (by decide)),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c),
       (h c _ (Cert.KernelIdeal.Hand.mem_uc Cert.KernelIdeal.main_arg4 (by decide))).trans (Cert.KernelIdeal.Hand.W4_main_arg4 m ρ c),
       (h c _ (Cert.KernelIdeal.Hand.mem_uc Cert.KernelIdeal.main_arg5 (by decide))).trans (Cert.KernelIdeal.Hand.W4_main_arg5 m ρ c),
       (h c _ (Cert.KernelIdeal.Hand.mem_uc Cert.KernelIdeal.main_arg6 (by decide))).trans (Cert.KernelIdeal.Hand.W4_main_arg6 m ρ c),
       (h c _ (Cert.KernelIdeal.Hand.mem_uc Cert.KernelIdeal.main_arg7 (by decide))).trans (Cert.KernelIdeal.Hand.W4_main_arg7 m ρ c),
       (h c _ (Cert.KernelIdeal.Hand.mem_uc Cert.KernelIdeal.main_arg8 (by decide))).trans (Cert.KernelIdeal.Hand.W4_main_arg8 m ρ c)⟩)
      (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.ReferenceIdeal.RefValue.ref_value_fun,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact (Cert.KernelIdeal.Hand.result_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
